-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v0_0)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_v52) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x256x256x256 : Shape := ⟨4, ![2, 256, 256, 256]⟩
abbrev S2x256x256x7 : Shape := ⟨4, ![2, 256, 256, 7]⟩
abbrev S_ : Shape := ⟨0, ![]⟩

class Facts : Prop where
  bcast_S_S2x256x256x256 : S_.BroadcastsInDim S2x256x256x256 (![] : Fin 0 → Fin S2x256x256x256.rank)
  reducesTo_S2x256x256x256_S_d0_1_2_3 : S2x256x256x256.ReducesTo [0, 1, 2, 3] S_
  h_S_ : 0 < S_.numel
  bcast_S_S2x256x256x7 : S_.BroadcastsInDim S2x256x256x7 (![] : Fin 0 → Fin S2x256x256x7.rank)
  reducesTo_S2x256x256x7_S_d0_1_2_3 : S2x256x256x7.ReducesTo [0, 1, 2, 3] S_

variable [Facts]

def fn {F : FTy → Type} [FloatOps F] (main_arg0 : FVec F S2x256x256x256 .f32) (main_arg1 : FVec F S2x256x256x7 .f32) (main_arg2 : FVec F S2x256x256x256 .f32) : IVec S_ 1 :=
  let main_v0 : FVec F S2x256x256x256 .f32 := Host.absf main_arg0
  let main_cst : FVec F S_ .f32 := constant S_ .f32 0x7F800000#32
  let main_v1 : FVec F S2x256x256x256 .f32 := broadcastInDim S2x256x256x256 ![] bcast_S_S2x256x256x256 main_cst
  let main_v2 : IVec S2x256x256x256 1 := cmpf .olt main_v0 main_v1
  let main_c : IVec S_ 1 := constantI S_ 1 1#1
  let main_v3 : IVec S_ 1 := (fun x v => Host.reduce IntOp.andi x v reducesTo_S2x256x256x256_S_d0_1_2_3 h_S_) main_v2 main_c
  let main_v4 : FVec F S2x256x256x7 .f32 := Host.absf main_arg1
  let main_cst_0 : FVec F S_ .f32 := constant S_ .f32 0x7F800000#32
  let main_v5 : FVec F S2x256x256x7 .f32 := broadcastInDim S2x256x256x7 ![] bcast_S_S2x256x256x7 main_cst_0
  let main_v6 : IVec S2x256x256x7 1 := cmpf .olt main_v4 main_v5
  let main_c_1 : IVec S_ 1 := constantI S_ 1 1#1
  let main_v7 : IVec S_ 1 := (fun x v => Host.reduce IntOp.andi x v reducesTo_S2x256x256x7_S_d0_1_2_3 h_S_) main_v6 main_c_1
  let main_v8 : IVec S_ 1 := andi main_v3 main_v7
  let main_v9 : FVec F S2x256x256x256 .f32 := Host.absf main_arg2
  let main_cst_2 : FVec F S_ .f32 := constant S_ .f32 0x7F800000#32
  let main_v10 : FVec F S2x256x256x256 .f32 := broadcastInDim S2x256x256x256 ![] bcast_S_S2x256x256x256 main_cst_2
  let main_v11 : IVec S2x256x256x256 1 := cmpf .olt main_v9 main_v10
  let main_c_3 : IVec S_ 1 := constantI S_ 1 1#1
  let main_v12 : IVec S_ 1 := (fun x v => Host.reduce IntOp.andi x v reducesTo_S2x256x256x256_S_d0_1_2_3 h_S_) main_v11 main_c_3
  let main_v13 : IVec S_ 1 := andi main_v8 main_v12
  main_v13
-- ==== Kernel.lean ====
abbrev S2x256x256x256 : Shape := ⟨4, ![2, 256, 256, 256]⟩
abbrev S2x256x256x7 : Shape := ⟨4, ![2, 256, 256, 7]⟩
abbrev S2x8x128 : Shape := ⟨3, ![2, 8, 128]⟩
abbrev S1x8x256x256 : Shape := ⟨4, ![1, 8, 256, 256]⟩
abbrev S1x1x256x256 : Shape := ⟨4, ![1, 1, 256, 256]⟩
abbrev S1x8x256x7 : Shape := ⟨4, ![1, 8, 256, 7]⟩
abbrev S1x8x128 : Shape := ⟨3, ![1, 8, 128]⟩
abbrev S8x256x256 : Shape := ⟨3, ![8, 256, 256]⟩
abbrev S1x256x256 : Shape := ⟨3, ![1, 256, 256]⟩
abbrev S8x256x7 : Shape := ⟨3, ![8, 256, 7]⟩
abbrev S7x256x256 : Shape := ⟨3, ![7, 256, 256]⟩
abbrev S8x256x1 : Shape := ⟨3, ![8, 256, 1]⟩
abbrev S8x256 : Shape := ⟨2, ![8, 256]⟩
abbrev S8 : Shape := ⟨1, ![8]⟩
abbrev S1x8 : Shape := ⟨2, ![1, 8]⟩
abbrev S1 : Shape := ⟨1, ![1]⟩
abbrev S1x1 : Shape := ⟨2, ![1, 1]⟩
abbrev S2x1x1 : Shape := ⟨3, ![2, 1, 1]⟩
abbrev S2 : Shape := ⟨1, ![2]⟩
abbrev S_ : Shape := ⟨0, ![]⟩

abbrev nBuf : Space → Nat
  | .hbm => 16
  | .vmem => 16
  | .smem => 0
  | _ => 0

abbrev bufTy : (tb : Table) → Fin (tcTables nBuf tb) → BufTy
  | .hbm, ⟨0, _⟩ => ⟨S2x256x256x256, .f32⟩
  | .hbm, ⟨1, _⟩ => ⟨S2x256x256x7, .f32⟩
  | .hbm, ⟨2, _⟩ => ⟨S2x256x256x256, .f32⟩
  | .hbm, ⟨3, _⟩ => ⟨S2x256x256x256, .f32⟩
  | .hbm, ⟨4, _⟩ => ⟨S2x8x128, .f32⟩
  | .hbm, ⟨5, _⟩ => ⟨S2x8x128, .f32⟩
  | .hbm, ⟨6, _⟩ => ⟨S2x1x1, .f32⟩
  | .hbm, ⟨7, _⟩ => ⟨S2, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S2x1x1, .f32⟩
  | .hbm, ⟨13, _⟩ => ⟨S2, .f32⟩
  | .hbm, ⟨14, _⟩ => ⟨S_, .f32⟩
  | .hbm, ⟨15, _⟩ => ⟨S_, .f32⟩
  | .local _ .vmem, ⟨0, _⟩ => ⟨S1x8x256x256, .f32⟩
  | .local _ .vmem, ⟨1, _⟩ => ⟨S1x8x256x256, .f32⟩
  | .local _ .vmem, ⟨2, _⟩ => ⟨S1x1x256x256, .f32⟩
  | .local _ .vmem, ⟨3, _⟩ => ⟨S1x1x256x256, .f32⟩
  | .local _ .vmem, ⟨4, _⟩ => ⟨S1x1x256x256, .f32⟩
  | .local _ .vmem, ⟨5, _⟩ => ⟨S1x1x256x256, .f32⟩
  | .local _ .vmem, ⟨6, _⟩ => ⟨S1x8x256x7, .f32⟩
  | .local _ .vmem, ⟨7, _⟩ => ⟨S1x8x256x7, .f32⟩
  | .local _ .vmem, ⟨8, _⟩ => ⟨S1x8x256x256, .f32⟩
  | .local _ .vmem, ⟨9, _⟩ => ⟨S1x8x256x256, .f32⟩
  | .local _ .vmem, ⟨10, _⟩ => ⟨S1x8x256x256, .f32⟩
  | .local _ .vmem, ⟨11, _⟩ => ⟨S1x8x256x256, .f32⟩
  | .local _ .vmem, ⟨12, _⟩ => ⟨S1x8x128, .f32⟩
  | .local _ .vmem, ⟨13, _⟩ => ⟨S1x8x128, .f32⟩
  | .local _ .vmem, ⟨14, _⟩ => ⟨S1x8x128, .f32⟩
  | .local _ .vmem, ⟨15, _⟩ => ⟨S1x8x128, .f32⟩
  | _, _ => ⟨S2x256x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 32], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let c255_i32 : BitVec 32 := 255#32
  let v2 : BitVec 32 := Scalar.maxsi c0_i32 v1
  let v3 : BitVec 32 := Scalar.minsi c255_i32 v2
  let c0_i32_0 : BitVec 32 := 0#32
  let c0_i32_1 : BitVec 32 := 0#32
  let c0_i32_2 : BitVec 32 := 0#32
  ![arg0.toNat, v3.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c8_i32_0 : BitVec 32 := 8#32
  let v1 : BitVec 32 := Scalar.addi v0 c8_i32_0
  let c0_i32 : BitVec 32 := 0#32
  let c255_i32 : BitVec 32 := 255#32
  let v2 : BitVec 32 := Scalar.maxsi c0_i32 v1
  let v3 : BitVec 32 := Scalar.minsi c255_i32 v2
  let c0_i32_1 : BitVec 32 := 0#32
  let c0_i32_2 : BitVec 32 := 0#32
  let c0_i32_3 : BitVec 32 := 0#32
  ![arg0.toNat, v3.toNat, c0_i32_1.toNat, c0_i32_2.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x256x7 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  inb_S1x8x128_S1x8x128_0_0_0 : ∀ a, (![0, 0, 0] : Fin 3 → Nat) a + S1x8x128.size a ≤ S1x8x128.size a
  h_S1x8x128 : 0 < S1x8x128.numel
  inb_S1x8x256x256_S1x8x256x256_0_0_0_0 : ∀ a, (![0, 0, 0, 0] : Fin 4 → Nat) a + S1x8x256x256.size a ≤ S1x8x256x256.size a
  h_S1x8x256x256 : 0 < S1x8x256x256.numel
  shapeCasts_S1x8x256x256_S8x256x256 : S1x8x256x256.ShapeCasts S8x256x256
  inb_S1x1x256x256_S1x1x256x256_0_0_0_0 : ∀ a, (![0, 0, 0, 0] : Fin 4 → Nat) a + S1x1x256x256.size a ≤ S1x1x256x256.size a
  h_S1x1x256x256 : 0 < S1x1x256x256.numel
  shapeCasts_S1x1x256x256_S1x256x256 : S1x1x256x256.ShapeCasts S1x256x256
  inb_S1x8x256x7_S1x8x256x7_0_0_0_0 : ∀ a, (![0, 0, 0, 0] : Fin 4 → Nat) a + S1x8x256x7.size a ≤ S1x8x256x7.size a
  h_S1x8x256x7 : 0 < S1x8x256x7.numel
  shapeCasts_S1x8x256x7_S8x256x7 : S1x8x256x7.ShapeCasts S8x256x7
  slices_S8x256x256_o0_0_0_S7x256x256 : S8x256x256.Slices ![0, 0, 0] S7x256x256
  concatenates_S1x256x256_S7x256x256_S8x256x256_d0 : Shape.Concatenates [S1x256x256, S7x256x256] S8x256x256 0
  slices_S8x256x256_o1_0_0_S7x256x256 : S8x256x256.Slices ![1, 0, 0] S7x256x256
  concatenates_S7x256x256_S1x256x256_S8x256x256_d0 : Shape.Concatenates [S7x256x256, S1x256x256] S8x256x256 0
  iota_S8x256x256_d1_w32 : S8x256x256.Iotas .tc 32 [1]
  rotates_S8x256x256_d1 : S8x256x256.Rotates 1 none
  iota_S8x256x256_d2_w32 : S8x256x256.Iotas .tc 32 [2]
  rotates_S8x256x256_d2 : S8x256x256.Rotates 2 none
  slices_S8x256x7_o0_0_0_S8x256x1 : S8x256x7.Slices ![0, 0, 0] S8x256x1
  slices_S8x256x7_o0_0_1_S8x256x1 : S8x256x7.Slices ![0, 0, 1] S8x256x1
  slices_S8x256x7_o0_0_2_S8x256x1 : S8x256x7.Slices ![0, 0, 2] S8x256x1
  slices_S8x256x7_o0_0_3_S8x256x1 : S8x256x7.Slices ![0, 0, 3] S8x256x1
  slices_S8x256x7_o0_0_4_S8x256x1 : S8x256x7.Slices ![0, 0, 4] S8x256x1
  slices_S8x256x7_o0_0_5_S8x256x1 : S8x256x7.Slices ![0, 0, 5] S8x256x1
  slices_S8x256x7_o0_0_6_S8x256x1 : S8x256x7.Slices ![0, 0, 6] S8x256x1
  broadcasts_S8x256x1_S8x256x256 : S8x256x1.Broadcasts S8x256x256
  shapeCasts_S8x256x256_S1x8x256x256 : S8x256x256.ShapeCasts S1x8x256x256
  reduces_S8x256x256_S8x256 : S8x256x256.Reduces [2] S8x256
  reduces_S8x256_S8 : S8x256.Reduces [1] S8
  shapeCasts_S8_S1x8 : S8.ShapeCasts S1x8
  reduces_S1x8_S1 : S1x8.Reduces [1] S1
  shapeCasts_S1_S1x1 : S1.ShapeCasts S1x1
  inpos_S1x1_p0_0 : ∀ a, (![0, 0] : Fin 2 → Nat) a < S1x1.size a
  shapeCasts_S1x8x128_S1x8x128 : S1x8x128.ShapeCasts S1x8x128
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x256x256.size a ≤ S2x256x256x256.size a
  hwx0_0 : ∀ i : grid0.Coords, EltTy.bits .f32 = 32 ∨ (Rect.block (s := S2x256x256x256) S1x8x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x256x256.size a ≤ S2x256x256x256.size a
  hwx0_1 : ∀ i : grid0.Coords, EltTy.bits .f32 = 32 ∨ (Rect.block (s := S2x256x256x256) S1x1x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x256x256.size a ≤ S2x256x256x256.size a
  hwx0_2 : ∀ i : grid0.Coords, EltTy.bits .f32 = 32 ∨ (Rect.block (s := S2x256x256x256) S1x1x256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x256x7.size a ≤ S2x256x256x7.size a
  hwx0_3 : ∀ i : grid0.Coords, EltTy.bits .f32 = 32 ∨ (Rect.block (s := S2x256x256x7) S1x8x256x7.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x256x256.size a ≤ S2x256x256x256.size a
  hwx0_4 : ∀ i : grid0.Coords, EltTy.bits .f32 = 32 ∨ (Rect.block (s := S2x256x256x256) S1x8x256x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x256x256.size a ≤ S2x256x256x256.size a
  hwx0_5 : ∀ i : grid0.Coords, EltTy.bits .f32 = 32 ∨ (Rect.block (s := S2x256x256x256) S1x8x256x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x8x128.size a ≤ S2x8x128.size a
  hwx0_6 : ∀ i : grid0.Coords, EltTy.bits .f32 = 32 ∨ (Rect.block (s := S2x8x128) S1x8x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x8x128.size a ≤ S2x8x128.size a
  hwx0_7 : ∀ i : grid0.Coords, EltTy.bits .f32 = 32 ∨ (Rect.block (s := S2x8x128) S1x8x128.size (cc0_transform_7 i) (hinb0_7 i)).WholeWords (EltTy.packing .f32)

variable [Facts₀]

abbrev win0_0 : Pipeline.Window sig grid0 :=
  Pipeline.Window.ofSpec (Memref.whole main_arg0) S1x8x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x1x256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1x8x256x7.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S1x8x256x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S1x8x256x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S1x8x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_2) S1x8x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2x256x256x256 : Shape := ⟨4, ![2, 256, 256, 256]⟩
abbrev S2x256x256x7 : Shape := ⟨4, ![2, 256, 256, 7]⟩
abbrev S_ : Shape := ⟨0, ![]⟩
abbrev S2x256x257x256 : Shape := ⟨4, ![2, 256, 257, 256]⟩
abbrev S2x257x256x256 : Shape := ⟨4, ![2, 257, 256, 256]⟩
abbrev S2x256x256x257 : Shape := ⟨4, ![2, 256, 256, 257]⟩
abbrev S2x256x256x1x7 : Shape := ⟨5, ![2, 256, 256, 1, 7]⟩
abbrev S2x256x256x1x1 : Shape := ⟨5, ![2, 256, 256, 1, 1]⟩
abbrev S2x256x256x1 : Shape := ⟨4, ![2, 256, 256, 1]⟩

abbrev nBuf : Space → Nat
  | .hbm => 71
  | .vmem => 0
  | .smem => 0
  | _ => 0

abbrev bufTy : (tb : Table) → Fin (tcTables nBuf tb) → BufTy
  | .hbm, ⟨0, _⟩ => ⟨S2x256x256x256, .f32⟩
  | .hbm, ⟨1, _⟩ => ⟨S2x256x256x7, .f32⟩
  | .hbm, ⟨2, _⟩ => ⟨S2x256x256x256, .f32⟩
  | .hbm, ⟨3, _⟩ => ⟨S_, .i32⟩
  | .hbm, ⟨4, _⟩ => ⟨S_, .f32⟩
  | .hbm, ⟨5, _⟩ => ⟨S2x256x257x256, .f32⟩
  | .hbm, ⟨6, _⟩ => ⟨S2x256x256x256, .f32⟩
  | .hbm, ⟨7, _⟩ => ⟨S_, .i32⟩
  | .hbm, ⟨8, _⟩ => ⟨S_, .f32⟩
  | .hbm, ⟨9, _⟩ => ⟨S2x256x257x256, .f32⟩
  | .hbm, ⟨10, _⟩ => ⟨S2x256x256x256, .f32⟩
  | .hbm, ⟨11, _⟩ => ⟨S_, .i32⟩
  | .hbm, ⟨12, _⟩ => ⟨S_, .f32⟩
  | .hbm, ⟨13, _⟩ => ⟨S2x257x256x256, .f32⟩
  | .hbm, ⟨14, _⟩ => ⟨S2x256x256x256, .f32⟩
  | .hbm, ⟨15, _⟩ => ⟨S_, .i32⟩
  | .hbm, ⟨16, _⟩ => ⟨S_, .f32⟩
  | .hbm, ⟨17, _⟩ => ⟨S2x257x256x256, .f32⟩
  | .hbm, ⟨18, _⟩ => ⟨S2x256x256x256, .f32⟩
  | .hbm, ⟨19, _⟩ => ⟨S_, .i32⟩
  | .hbm, ⟨20, _⟩ => ⟨S_, .f32⟩
  | .hbm, ⟨21, _⟩ => ⟨S2x256x256x257, .f32⟩
  | .hbm, ⟨22, _⟩ => ⟨S2x256x256x256, .f32⟩
  | .hbm, ⟨23, _⟩ => ⟨S_, .i32⟩
  | .hbm, ⟨24, _⟩ => ⟨S_, .f32⟩
  | .hbm, ⟨25, _⟩ => ⟨S2x256x256x257, .f32⟩
  | .hbm, ⟨26, _⟩ => ⟨S2x256x256x256, .f32⟩
  | .hbm, ⟨27, _⟩ => ⟨S2x256x256x1x7, .f32⟩
  | .hbm, ⟨28, _⟩ => ⟨S2x256x256x1x1, .f32⟩
  | .hbm, ⟨29, _⟩ => ⟨S2x256x256x1, .f32⟩
  | .hbm, ⟨30, _⟩ => ⟨S2x256x256x256, .f32⟩
  | .hbm, ⟨31, _⟩ => ⟨S2x256x256x256, .f32⟩
  | .hbm, ⟨32, _⟩ => ⟨S2x256x256x1x1, .f32⟩
  | .hbm, ⟨33, _⟩ => ⟨S2x256x256x1, .f32⟩
  | .hbm, ⟨34, _⟩ => ⟨S2x256x256x256, .f32⟩
  | .hbm, ⟨35, _⟩ => ⟨S2x256x256x256, .f32⟩
  | .hbm, ⟨36, _⟩ => ⟨S2x256x256x256, .f32⟩
  | .hbm, ⟨37, _⟩ => ⟨S2x256x256x1x1, .f32⟩
  | .hbm, ⟨38, _⟩ => ⟨S2x256x256x1, .f32⟩
  | .hbm, ⟨39, _⟩ => ⟨S2x256x256x256, .f32⟩
  | .hbm, ⟨40, _⟩ => ⟨S2x256x256x256, .f32⟩
  | .hbm, ⟨41, _⟩ => ⟨S2x256x256x256, .f32⟩
  | .hbm, ⟨42, _⟩ => ⟨S2x256x256x1x1, .f32⟩
  | .hbm, ⟨43, _⟩ => ⟨S2x256x256x1, .f32⟩
  | .hbm, ⟨44, _⟩ => ⟨S2x256x256x256, .f32⟩
  | .hbm, ⟨45, _⟩ => ⟨S2x256x256x256, .f32⟩
  | .hbm, ⟨46, _⟩ => ⟨S2x256x256x256, .f32⟩
  | .hbm, ⟨47, _⟩ => ⟨S2x256x256x1x1, .f32⟩
  | .hbm, ⟨48, _⟩ => ⟨S2x256x256x1, .f32⟩
  | .hbm, ⟨49, _⟩ => ⟨S2x256x256x256, .f32⟩
  | .hbm, ⟨50, _⟩ => ⟨S2x256x256x256, .f32⟩
  | .hbm, ⟨51, _⟩ => ⟨S2x256x256x256, .f32⟩
  | .hbm, ⟨52, _⟩ => ⟨S2x256x256x1x1, .f32⟩
  | .hbm, ⟨53, _⟩ => ⟨S2x256x256x1, .f32⟩
  | .hbm, ⟨54, _⟩ => ⟨S2x256x256x256, .f32⟩
  | .hbm, ⟨55, _⟩ => ⟨S2x256x256x256, .f32⟩
  | .hbm, ⟨56, _⟩ => ⟨S2x256x256x256, .f32⟩
  | .hbm, ⟨57, _⟩ => ⟨S2x256x256x1x1, .f32⟩
  | .hbm, ⟨58, _⟩ => ⟨S2x256x256x1, .f32⟩
  | .hbm, ⟨59, _⟩ => ⟨S2x256x256x256, .f32⟩
  | .hbm, ⟨60, _⟩ => ⟨S2x256x256x256, .f32⟩
  | .hbm, ⟨61, _⟩ => ⟨S2x256x256x256, .f32⟩
  | .hbm, ⟨62, _⟩ => ⟨S2x256x256x256, .f32⟩
  | .hbm, ⟨63, _⟩ => ⟨S2x256x256x256, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S2x256x256x256, .f32⟩
  | .hbm, ⟨69, _⟩ => ⟨S_, .f32⟩
  | .hbm, ⟨70, _⟩ => ⟨S_, .f32⟩
  | _, _ => ⟨S2x256x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call2_v0 : Ref sig .tc := ⟨.hbm, 12, rfl⟩
abbrev main_v4 : Ref sig .tc := ⟨.hbm, 13, rfl⟩
abbrev main_v5 : Ref sig .tc := ⟨.hbm, 14, rfl⟩
abbrev main_c_2 : Ref sig .tc := ⟨.hbm, 15, rfl⟩
abbrev main_call3_v0 : Ref sig .tc := ⟨.hbm, 16, rfl⟩
abbrev main_v6 : Ref sig .tc := ⟨.hbm, 17, rfl⟩
abbrev main_v7 : Ref sig .tc := ⟨.hbm, 18, rfl⟩
abbrev main_c_3 : Ref sig .tc := ⟨.hbm, 19, rfl⟩
abbrev main_call4_v0 : Ref sig .tc := ⟨.hbm, 20, rfl⟩
abbrev main_v8 : Ref sig .tc := ⟨.hbm, 21, rfl⟩
abbrev main_v9 : Ref sig .tc := ⟨.hbm, 22, rfl⟩
abbrev main_c_4 : Ref sig .tc := ⟨.hbm, 23, rfl⟩
abbrev main_call5_v0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst : Ref sig .tc := ⟨.hbm, 64, rfl⟩
abbrev main_v49 : Ref sig .tc := ⟨.hbm, 65, rfl⟩
abbrev main_cst_5 : Ref sig .tc := ⟨.hbm, 66, rfl⟩
abbrev main_v50 : Ref sig .tc := ⟨.hbm, 67, rfl⟩
abbrev main_v51 : Ref sig .tc := ⟨.hbm, 68, rfl⟩
abbrev main_cst_6 : Ref sig .tc := ⟨.hbm, 69, rfl⟩
abbrev main_v52 : Ref sig .tc := ⟨.hbm, 70, rfl⟩

abbrev nD : Nat := 1
abbrev τ : Topo := Topo.v7x

variable {F : FTy → Type} [FloatOps F]

class Facts₀ : Prop where
  pads_S2x256x256x256_S2x256x257x256_000_000_100_000 : S2x256x256x256.Pads (![0, 0, 1, 0] : Fin 4 → Nat) ![0, 0, 0, 0] ![0, 0, 0, 0] S2x256x257x256
  h_S_ : 0 < S_.numel
  slices_S2x256x257x256_S2x256x256x256_0_0_0_0 : S2x256x257x256.Slices ![0, 0, 0, 0] S2x256x256x256
  pads_S2x256x256x256_S2x256x257x256_000_000_010_000 : S2x256x256x256.Pads (![0, 0, 0, 0] : Fin 4 → Nat) ![0, 0, 1, 0] ![0, 0, 0, 0] S2x256x257x256
  slices_S2x256x257x256_S2x256x256x256_0_0_1_0 : S2x256x257x256.Slices ![0, 0, 1, 0] S2x256x256x256
  pads_S2x256x256x256_S2x257x256x256_000_100_000_000 : S2x256x256x256.Pads (![0, 1, 0, 0] : Fin 4 → Nat) ![0, 0, 0, 0] ![0, 0, 0, 0] S2x257x256x256
  slices_S2x257x256x256_S2x256x256x256_0_0_0_0 : S2x257x256x256.Slices ![0, 0, 0, 0] S2x256x256x256
  pads_S2x256x256x256_S2x257x256x256_000_010_000_000 : S2x256x256x256.Pads (![0, 0, 0, 0] : Fin 4 → Nat) ![0, 1, 0, 0] ![0, 0, 0, 0] S2x257x256x256
  slices_S2x257x256x256_S2x256x256x256_0_1_0_0 : S2x257x256x256.Slices ![0, 1, 0, 0] S2x256x256x256
  pads_S2x256x256x256_S2x256x256x257_000_000_000_100 : S2x256x256x256.Pads (![0, 0, 0, 1] : Fin 4 → Nat) ![0, 0, 0, 0] ![0, 0, 0, 0] S2x256x256x257
  slices_S2x256x256x257_S2x256x256x256_0_0_0_0 : S2x256x256x257.Slices ![0, 0, 0, 0] S2x256x256x256
  pads_S2x256x256x256_S2x256x256x257_000_000_000_010 : S2x256x256x256.Pads (![0, 0, 0, 0] : Fin 4 → Nat) ![0, 0, 0, 1] ![0, 0, 0, 0] S2x256x256x257
  slices_S2x256x256x257_S2x256x256x256_0_0_0_1 : S2x256x256x257.Slices ![0, 0, 0, 1] S2x256x256x256
  bcast_S2x256x256x7_S2x256x256x1x7_0_1_2_4 : S2x256x256x7.BroadcastsInDim S2x256x256x1x7 (![0, 1, 2, 4] : Fin 4 → Fin S2x256x256x1x7.rank)
  slices_S2x256x256x1x7_S2x256x256x1x1_0_0_0_0_0 : S2x256x256x1x7.Slices ![0, 0, 0, 0, 0] S2x256x256x1x1
  shapeCasts_S2x256x256x1x1_S2x256x256x1 : S2x256x256x1x1.ShapeCasts S2x256x256x1
  bcast_S2x256x256x1_S2x256x256x256_0_1_2_3 : S2x256x256x1.BroadcastsInDim S2x256x256x256 (![0, 1, 2, 3] : Fin 4 → Fin S2x256x256x256.rank)
  slices_S2x256x256x1x7_S2x256x256x1x1_0_0_0_0_1 : S2x256x256x1x7.Slices ![0, 0, 0, 0, 1] S2x256x256x1x1
  slices_S2x256x256x1x7_S2x256x256x1x1_0_0_0_0_2 : S2x256x256x1x7.Slices ![0, 0, 0, 0, 2] S2x256x256x1x1
  slices_S2x256x256x1x7_S2x256x256x1x1_0_0_0_0_3 : S2x256x256x1x7.Slices ![0, 0, 0, 0, 3] S2x256x256x1x1
  slices_S2x256x256x1x7_S2x256x256x1x1_0_0_0_0_4 : S2x256x256x1x7.Slices ![0, 0, 0, 0, 4] S2x256x256x1x1
  slices_S2x256x256x1x7_S2x256x256x1x1_0_0_0_0_5 : S2x256x256x1x7.Slices ![0, 0, 0, 0, 5] S2x256x256x1x1
  slices_S2x256x256x1x7_S2x256x256x1x1_0_0_0_0_6 : S2x256x256x1x7.Slices ![0, 0, 0, 0, 6] S2x256x256x1x1
  reducesTo_S2x256x256x256_S_d0_1_2_3 : S2x256x256x256.ReducesTo [0, 1, 2, 3] S_

variable [Facts₀]

class Facts : Prop extends Facts₀ where

variable [Facts]
-- ==== Proof.K.Common.lean ====
/-
  What the two runs of the stencil body and the proof data share.

  The grid is (batch, row tile): 2 × 32 points, the row tile the fast axis.  At a point the body
  sees five input blocks — eight rows of x, the row above and the row below them (both read from x
  again, their row index clamped into the array), eight rows of the coefficients, eight rows of the
  target — and three output blocks: eight rows of the stencil's result and the two 8 × 128
  accumulators (sum of squared errors, largest absolute error) of the batch.  The body's one branch
  resets the accumulators at the first row tile of a batch.
-/
import proofs.«143429_j3083786518603_1_alg».proof.Proof.Gen.Kernel.Launch
import proofs.«143429_j3083786518603_1_alg».proof.Proof.Gen.Kernel.Skeleton
import proofs.«143429_j3083786518603_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.St

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers as the region finds them -/

/-- Core `c`'s TensorCore buffers when the region is entered: as launched (nothing runs before it). -/
abbrev V0 (c : Dev nD) : Valuation τ sig (Elt F) := StableHlo.after ([] : List (List (HloOp τ sig (Elt F)))).flatten (fun b => m (c, b))

abbrev V (c : Dev nD) (b : Ref sig .tc) : Buf (Elt F) ((c : Thread nD τ).loc b) := V0 m c (Proc.devRef .tc b)

theorem V_eq (c : Dev nD) (b : Ref sig .tc) : V m c b = m ((c : Thread nD τ).loc b) := rfl

/-- The main function is the region followed by one stretch of host lines. -/
theorem hmain (𝒱₀ : Variants) :
    Pipeline.HMainK (Ix := Unit) (Name := ℕ) (U := UR sig nD τ) (Lvl := ℕ) cfgs 0 defs₀ 𝒱₀ m (main (F := F))
      (fun c b => V0 m c (Proc.devRef .tc b)) (fun _ => Pipeline.chain ([hostOps1 (F := F)].map StableHlo.seq)) :=
  Pipeline.hmain_around cfgs 0 defs₀ 𝒱₀ m main [] [hostOps1] (by trivial) (by trivial) fun c => (main_chain c).trans rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the entry contents and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof
    data whose array is the entry contents and whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof
    data whose array is the entry contents and whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof
    data whose array is the entry contents and whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for any proof
    data whose array is the entry contents and whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's branch -/

/-- The condition of the body's one branch (reset the accumulators), from the grid coordinates. -/
abbrev isFirst (i : grid0.Coords) : Prop := (Scalar.cmpi .ne (Scalar.extui (Scalar.cmpi .eq (BitVec.ofNat 32 (i 1).val) 0#32)) 0#32) = 1#1

/-- It holds exactly at the first row tile of each batch. -/
theorem isFirst_iff : ∀ t : Fin cfg0.N, isFirst (grid0.coords t) ↔ t.val % 32 = 0 :=
  (by decide +kernel : ∀ t : Fin grid0.N, isFirst (grid0.coords t) ↔ t.val % 32 = 0)

/-! ## The staging memrefs at a point -/

abbrev VO5 : View sig .tc .vmem S1x8x256x256 .f32 := (Memref.whole cc0_stg5_0 : Memref sig .tc .vmem S1x8x256x256 .f32).view
abbrev VO6 : View sig .tc .vmem S1x8x128 .f32 := (Memref.whole cc0_stg6_0 : Memref sig .tc .vmem S1x8x128 .f32).view
abbrev VO7 : View sig .tc .vmem S1x8x128 .f32 := (Memref.whole cc0_stg7_0 : Memref sig .tc .vmem S1x8x128 .f32).view

abbrev ms0 (t : Fin cfg0.N) : Memref sig .tc .vmem S1x8x256x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1x256x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x256x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x8x256x7 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x8x256x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x8x256x256 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x8x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x8x128 .f32 := win0_7.stage (cfg0.slots t 7)
abbrev hs7 (t : Fin cfg0.N) : (ms7 t).IsWhole := hstage0_7 ((cfg0.slots t 7).cast nbuf0_7)

end Cert.Kernel.St

end
-- ==== Proof.K.RunFirst.lean ====
/-
  The stencil body at the first row tile of a batch: the accumulators are reset and then updated.
  On whole staging memrefs — the five inputs' at their blocks, the three outputs' at anything — the body
  runs to the end, leaves the inputs' as they were and each output's buffer with the pieces its stores wrote;
  the pieces are found by the run.
-/
import proofs.«143429_j3083786518603_1_alg».proof.Proof.K.Common

set_option maxRecDepth 16384

noncomputable section

namespace Cert.Kernel.St

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body where the branch is taken. -/
noncomputable def runFirst (c : Dev nD) (i : grid0.Coords)
    (a0 : Memref sig .tc .vmem S1x8x256x256 .f32) (h0 : a0.IsWhole) (a1 : Memref sig .tc .vmem S1x1x256x256 .f32) (h1 : a1.IsWhole)
    (a2 : Memref sig .tc .vmem S1x1x256x256 .f32) (h2 : a2.IsWhole) (a3 : Memref sig .tc .vmem S1x8x256x7 .f32) (h3 : a3.IsWhole)
    (a4 : Memref sig .tc .vmem S1x8x256x256 .f32) (h4 : a4.IsWhole) (a5 : Memref sig .tc .vmem S1x8x256x256 .f32) (h5 : a5.IsWhole)
    (a6 : Memref sig .tc .vmem S1x8x128 .f32) (h6 : a6.IsWhole) (a7 : Memref sig .tc .vmem S1x8x128 .f32) (h7 : a7.IsWhole)
    (hc : isFirst i)
    (x0 : Vec F S1x8x256x256 .f32) (x1 : Vec F S1x1x256x256 .f32) (x2 : Vec F S1x1x256x256 .f32) (x3 : Vec F S1x8x256x7 .f32) (x4 : Vec F S1x8x256x256 .f32) :
    { L : List (View.Piece (Elt F) S1x8x256x256 .f32) × List (View.Piece (Elt F) S1x8x128 .f32) × List (View.Piece (Elt F) S1x8x128 .f32) //
      ∀ (E : Set ℕ) (K : PUnit → sProp 𝕄),
        iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4
            ∗ (∃ d, owns (c : Thread nD τ) a5 fullShare d) ∗ (∃ d, owns (c : Thread nD τ) a6 fullShare d) ∗ (∃ d, owns (c : Thread nD τ) a7 fullShare d)
            ∗ (iprop(owns (c : Thread nD τ) a0 fullShare x0 ∗ owns (c : Thread nD τ) a1 fullShare x1 ∗ owns (c : Thread nD τ) a2 fullShare x2
                ∗ owns (c : Thread nD τ) a3 fullShare x3 ∗ owns (c : Thread nD τ) a4 fullShare x4
                ∗ (∃ f, a5.view.loc (c : Thread nD τ) ↦[a5.view.set]{fullShare} a5.view.writes (Elt F) f L.1)
                ∗ (∃ f, a6.view.loc (c : Thread nD τ) ↦[a6.view.set]{fullShare} a6.view.writes (Elt F) f L.2.1)
                ∗ (∃ f, a7.view.loc (c : Thread nD τ) ↦[a7.view.set]{fullShare} a7.view.writes (Elt F) f L.2.2)) -∗ K ⟨⟩))
          ⊢ wp frame (wpE (defs₀ (F := F)) Variants.none c none) E (cc0__stencil_kernel i a0 h0 a1 h1 a2 h2 a3 h3 a4 h4 a5 h5 a6 h6 a7 h7) K } := by
  refine ⟨⟨?_, ?_, ?_⟩, fun E K => ?run⟩
  case run =>
    simp only [cc0__stencil_kernel_eq_skeleton]; unfold cc0__stencil_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
    obtain rfl := h0.eq_unread hf0; obtain rfl := h1.eq_unread hf1; obtain rfl := h2.eq_unread hf2
    obtain rfl := h3.eq_unread hf3; obtain rfl := h4.eq_unread hf4
    sl_exec (disch := first | exact hc)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; iexact H5
    isplitl [H6]
    · iexists _; iexact H6
    iexists _; iexact H7

end Cert.Kernel.St

end
-- ==== Proof.K.RunLater.lean ====
/-
  The stencil body at a later row tile of a batch: the accumulators are read at what the tile before left
  and updated.  On whole staging memrefs — the five inputs' at their blocks, the result's at anything, the
  two accumulators' at their running contents — the body runs to the end, leaves the inputs' as they were and
  each output's buffer with the pieces its stores wrote; the pieces are found by the run.
-/
import proofs.«143429_j3083786518603_1_alg».proof.Proof.K.RunFirst

set_option maxRecDepth 16384

noncomputable section

namespace Cert.Kernel.St

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body where the branch is not taken. -/
noncomputable def runLater (c : Dev nD) (i : grid0.Coords)
    (a0 : Memref sig .tc .vmem S1x8x256x256 .f32) (h0 : a0.IsWhole) (a1 : Memref sig .tc .vmem S1x1x256x256 .f32) (h1 : a1.IsWhole)
    (a2 : Memref sig .tc .vmem S1x1x256x256 .f32) (h2 : a2.IsWhole) (a3 : Memref sig .tc .vmem S1x8x256x7 .f32) (h3 : a3.IsWhole)
    (a4 : Memref sig .tc .vmem S1x8x256x256 .f32) (h4 : a4.IsWhole) (a5 : Memref sig .tc .vmem S1x8x256x256 .f32) (h5 : a5.IsWhole)
    (a6 : Memref sig .tc .vmem S1x8x128 .f32) (h6 : a6.IsWhole) (a7 : Memref sig .tc .vmem S1x8x128 .f32) (h7 : a7.IsWhole)
    (hc : ¬isFirst i)
    (x0 : Vec F S1x8x256x256 .f32) (x1 : Vec F S1x1x256x256 .f32) (x2 : Vec F S1x1x256x256 .f32) (x3 : Vec F S1x8x256x7 .f32) (x4 : Vec F S1x8x256x256 .f32)
    (s6 : Vec F S1x8x128 .f32) (s7 : Vec F S1x8x128 .f32) :
    { L : List (View.Piece (Elt F) S1x8x256x256 .f32) × List (View.Piece (Elt F) S1x8x128 .f32) × List (View.Piece (Elt F) S1x8x128 .f32) //
      ∀ (E : Set ℕ) (K : PUnit → sProp 𝕄),
        iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4
            ∗ (∃ d, owns (c : Thread nD τ) a5 fullShare d) ∗ owns (c : Thread nD τ) a6 fullShare s6 ∗ owns (c : Thread nD τ) a7 fullShare s7
            ∗ (iprop(owns (c : Thread nD τ) a0 fullShare x0 ∗ owns (c : Thread nD τ) a1 fullShare x1 ∗ owns (c : Thread nD τ) a2 fullShare x2
                ∗ owns (c : Thread nD τ) a3 fullShare x3 ∗ owns (c : Thread nD τ) a4 fullShare x4
                ∗ (∃ f, a5.view.loc (c : Thread nD τ) ↦[a5.view.set]{fullShare} a5.view.writes (Elt F) f L.1)
                ∗ (∃ f, a6.view.loc (c : Thread nD τ) ↦[a6.view.set]{fullShare} a6.view.writes (Elt F) f L.2.1)
                ∗ (∃ f, a7.view.loc (c : Thread nD τ) ↦[a7.view.set]{fullShare} a7.view.writes (Elt F) f L.2.2)) -∗ K ⟨⟩))
          ⊢ wp frame (wpE (defs₀ (F := F)) Variants.none c none) E (cc0__stencil_kernel i a0 h0 a1 h1 a2 h2 a3 h3 a4 h4 a5 h5 a6 h6 a7 h7) K } := by
  refine ⟨⟨?_, ?_, ?_⟩, fun E K => ?run⟩
  case run =>
    simp only [cc0__stencil_kernel_eq_skeleton]; unfold cc0__stencil_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
    obtain rfl := h0.eq_unread hf0; obtain rfl := h1.eq_unread hf1; obtain rfl := h2.eq_unread hf2
    obtain rfl := h3.eq_unread hf3; obtain rfl := h4.eq_unread hf4
    obtain rfl := h6.eq_unread hf6; obtain rfl := h7.eq_unread hf7
    sl_exec (disch := first | exact hc)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; iexact H5
    isplitl [H6]
    · iexists _; iexact H6
    iexists _; iexact H7

end Cert.Kernel.St

end
-- ==== Proof.K.Data.lean ====
/-
  What the three outputs' staging buffers hold point by point, and the proof data of the stencil's pipeline.

  The result block is written whole at every point.  The two accumulators are reset at the first row tile of a
  batch and otherwise read at what the tile before left; their block is written back only after the last row
  tile of the batch, so between two tiles of one batch the staging buffer keeps what the body left.
-/
import proofs.«143429_j3083786518603_1_alg».proof.Proof.K.RunLater

set_option maxRecDepth 16384

noncomputable section

namespace Cert.Kernel.St

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Each run's pieces cover the blocks -/

section Pieces

variable (c : Dev nD) (i : grid0.Coords)
    (a0 : Memref sig .tc .vmem S1x8x256x256 .f32) (h0 : a0.IsWhole) (a1 : Memref sig .tc .vmem S1x1x256x256 .f32) (h1 : a1.IsWhole)
    (a2 : Memref sig .tc .vmem S1x1x256x256 .f32) (h2 : a2.IsWhole) (a3 : Memref sig .tc .vmem S1x8x256x7 .f32) (h3 : a3.IsWhole)
    (a4 : Memref sig .tc .vmem S1x8x256x256 .f32) (h4 : a4.IsWhole) (a5 : Memref sig .tc .vmem S1x8x256x256 .f32) (h5 : a5.IsWhole)
    (a6 : Memref sig .tc .vmem S1x8x128 .f32) (h6 : a6.IsWhole) (a7 : Memref sig .tc .vmem S1x8x128 .f32) (h7 : a7.IsWhole)
    (x0 : Vec F S1x8x256x256 .f32) (x1 : Vec F S1x1x256x256 .f32) (x2 : Vec F S1x1x256x256 .f32) (x3 : Vec F S1x8x256x7 .f32) (x4 : Vec F S1x8x256x256 .f32)

theorem coverFirst5 (hc : isFirst i) (y : S1x8x256x256.Idx) :
    ∃ pc ∈ (runFirst c i a0 h0 a1 h1 a2 h2 a3 h3 a4 h4 a5 h5 a6 h6 a7 h7 hc x0 x1 x2 x3 x4).1.1, y ∈ pc.1.set :=
  View.cover_of_tiledL _ S1x8x256x256.size (by sl_kernel_rfl) y
theorem coverFirst6 (hc : isFirst i) (y : S1x8x128.Idx) :
    ∃ pc ∈ (runFirst c i a0 h0 a1 h1 a2 h2 a3 h3 a4 h4 a5 h5 a6 h6 a7 h7 hc x0 x1 x2 x3 x4).1.2.1, y ∈ pc.1.set :=
  View.cover_of_tiledL _ S1x8x128.size (by sl_kernel_rfl) y
theorem coverFirst7 (hc : isFirst i) (y : S1x8x128.Idx) :
    ∃ pc ∈ (runFirst c i a0 h0 a1 h1 a2 h2 a3 h3 a4 h4 a5 h5 a6 h6 a7 h7 hc x0 x1 x2 x3 x4).1.2.2, y ∈ pc.1.set :=
  View.cover_of_tiledL _ S1x8x128.size (by sl_kernel_rfl) y

/-- What the first-tile run leaves in the three outputs' staging buffers: its pieces read back. -/
def outFirst (hc : isFirst i) : Vec F S1x8x256x256 .f32 × Vec F S1x8x128 .f32 × Vec F S1x8x128 .f32 :=
  (VO5.read (Elt F) (VO5.writes (Elt F) VO5.junk (runFirst c i a0 h0 a1 h1 a2 h2 a3 h3 a4 h4 a5 h5 a6 h6 a7 h7 hc x0 x1 x2 x3 x4).1.1),
   VO6.read (Elt F) (VO6.writes (Elt F) VO6.junk (runFirst c i a0 h0 a1 h1 a2 h2 a3 h3 a4 h4 a5 h5 a6 h6 a7 h7 hc x0 x1 x2 x3 x4).1.2.1),
   VO7.read (Elt F) (VO7.writes (Elt F) VO7.junk (runFirst c i a0 h0 a1 h1 a2 h2 a3 h3 a4 h4 a5 h5 a6 h6 a7 h7 hc x0 x1 x2 x3 x4).1.2.2))

variable (s6 : Vec F S1x8x128 .f32) (s7 : Vec F S1x8x128 .f32)

theorem coverLater5 (hc : ¬isFirst i) (y : S1x8x256x256.Idx) :
    ∃ pc ∈ (runLater c i a0 h0 a1 h1 a2 h2 a3 h3 a4 h4 a5 h5 a6 h6 a7 h7 hc x0 x1 x2 x3 x4 s6 s7).1.1, y ∈ pc.1.set :=
  View.cover_of_tiledL _ S1x8x256x256.size (by sl_kernel_rfl) y
theorem coverLater6 (hc : ¬isFirst i) (y : S1x8x128.Idx) :
    ∃ pc ∈ (runLater c i a0 h0 a1 h1 a2 h2 a3 h3 a4 h4 a5 h5 a6 h6 a7 h7 hc x0 x1 x2 x3 x4 s6 s7).1.2.1, y ∈ pc.1.set :=
  View.cover_of_tiledL _ S1x8x128.size (by sl_kernel_rfl) y
theorem coverLater7 (hc : ¬isFirst i) (y : S1x8x128.Idx) :
    ∃ pc ∈ (runLater c i a0 h0 a1 h1 a2 h2 a3 h3 a4 h4 a5 h5 a6 h6 a7 h7 hc x0 x1 x2 x3 x4 s6 s7).1.2.2, y ∈ pc.1.set :=
  View.cover_of_tiledL _ S1x8x128.size (by sl_kernel_rfl) y

/-- What a later-tile run leaves in the three outputs' staging buffers: its pieces read back. -/
def outLater (hc : ¬isFirst i) : Vec F S1x8x256x256 .f32 × Vec F S1x8x128 .f32 × Vec F S1x8x128 .f32 :=
  (VO5.read (Elt F) (VO5.writes (Elt F) VO5.junk (runLater c i a0 h0 a1 h1 a2 h2 a3 h3 a4 h4 a5 h5 a6 h6 a7 h7 hc x0 x1 x2 x3 x4 s6 s7).1.1),
   VO6.read (Elt F) (VO6.writes (Elt F) VO6.junk (runLater c i a0 h0 a1 h1 a2 h2 a3 h3 a4 h4 a5 h5 a6 h6 a7 h7 hc x0 x1 x2 x3 x4 s6 s7).1.2.1),
   VO7.read (Elt F) (VO7.writes (Elt F) VO7.junk (runLater c i a0 h0 a1 h1 a2 h2 a3 h3 a4 h4 a5 h5 a6 h6 a7 h7 hc x0 x1 x2 x3 x4 s6 s7).1.2.2))

end Pieces

/-! ## The outputs point by point -/

/-- The first-tile contents at point `t`, on the point's memrefs and input blocks. -/
def firstAt (c : Dev nD) (t : Fin cfg0.N) (hc : isFirst (grid0.coords t)) : Vec F S1x8x256x256 .f32 × Vec F S1x8x128 .f32 × Vec F S1x8x128 .f32 :=
  outFirst c (grid0.coords t) (ms0 t) (hs0 t) (ms1 t) (hs1 t) (ms2 t) (hs2 t) (ms3 t) (hs3 t) (ms4 t) (hs4 t) (ms5 t) (hs5 t) (ms6 t) (hs6 t) (ms7 t) (hs7 t)
    (iblk m c 0 t) (iblk m c 1 t) (iblk m c 2 t) (iblk m c 3 t) (iblk m c 4 t) hc

/-- The later-tile contents at point `t`, over the accumulators' contents `s6`, `s7`. -/
def laterAt (c : Dev nD) (t : Fin cfg0.N) (hc : ¬isFirst (grid0.coords t)) (s6 s7 : Vec F S1x8x128 .f32) :
    Vec F S1x8x256x256 .f32 × Vec F S1x8x128 .f32 × Vec F S1x8x128 .f32 :=
  outLater c (grid0.coords t) (ms0 t) (hs0 t) (ms1 t) (hs1 t) (ms2 t) (hs2 t) (ms3 t) (hs3 t) (ms4 t) (hs4 t) (ms5 t) (hs5 t) (ms6 t) (hs6 t) (ms7 t) (hs7 t)
    (iblk m c 0 t) (iblk m c 1 t) (iblk m c 2 t) (iblk m c 3 t) (iblk m c 4 t) s6 s7 hc

/-- What the outputs' staging buffers hold after the body at position `n`: at the first row tile of a batch the
    reset-and-update contents, otherwise the update over what position `n - 1` left in the accumulators. -/
def outsAt (c : Dev nD) : (n : ℕ) → n < cfg0.N → Vec F S1x8x256x256 .f32 × Vec F S1x8x128 .f32 × Vec F S1x8x128 .f32
  | 0, hn => firstAt m c ⟨0, hn⟩ ((isFirst_iff ⟨0, hn⟩).mpr (Nat.zero_mod _))
  | n + 1, hn =>
    if h0 : (n + 1) % 32 = 0 then firstAt m c ⟨n + 1, hn⟩ ((isFirst_iff ⟨n + 1, hn⟩).mpr h0)
    else laterAt m c ⟨n + 1, hn⟩ (fun h => h0 ((isFirst_iff ⟨n + 1, hn⟩).mp h))
      (outsAt c n (Nat.lt_of_succ_lt hn)).2.1 (outsAt c n (Nat.lt_of_succ_lt hn)).2.2

theorem outsAt_first (c : Dev nD) (t : Fin cfg0.N) (h0 : t.val % 32 = 0) :
    outsAt m c t.val t.isLt = firstAt m c t ((isFirst_iff t).mpr h0) := by
  obtain ⟨n, hn⟩ := t
  cases n with
  | zero => exact rfl
  | succ n => exact (dif_pos h0).trans rfl

theorem outsAt_later (c : Dev nD) (t : Fin cfg0.N) (h0 : ¬t.val % 32 = 0) :
    outsAt m c t.val t.isLt = laterAt m c t (fun h => h0 ((isFirst_iff t).mp h))
      (outsAt m c (t.val - 1) (Nat.lt_of_le_of_lt (Nat.sub_le _ _) t.isLt)).2.1
      (outsAt m c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

/-! ## The proof data -/

/-- The proof data of the pipeline on core `c`: the arrays as the region finds them; after the body each input's
    buffer at its block and the outputs' at `outsAt`; the three windows that read x hold a third of it each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt m c t.val t.isLt).1
    | ⟨6, _⟩ => (outsAt m c t.val t.isLt).2.1
    | ⟨7, _⟩ => (outsAt m c t.val t.isLt).2.2
  Φ _ := Pipeline.ΦA spec0 c
  q w := match w with
    | ⟨0, _⟩ => fullShare.left
    | ⟨1, _⟩ => fullShare.right.left
    | ⟨2, _⟩ => fullShare.right.right
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = (outsAt m c t.val t.isLt).1 := by dsimp only [dats]
theorem after6 (c : Dev nD) (t : Fin cfg0.N) : (dats m 0 c).after 6 t = (outsAt m c t.val t.isLt).2.1 := by dsimp only [dats]
theorem after7 (c : Dev nD) (t : Fin cfg0.N) : (dats m 0 c).after 7 t = (outsAt m c t.val t.isLt).2.2 := by dsimp only [dats]

theorem before0 (c : Dev nD) (t : Fin cfg0.N) (d) : (dats m 0 c).before 0 t d = iblk m c 0 t := before0_of m (dats m 0 c) (A_eq m c 0) (after0 m c) t d
theorem before1 (c : Dev nD) (t : Fin cfg0.N) (d) : (dats m 0 c).before 1 t d = iblk m c 1 t := before1_of m (dats m 0 c) (A_eq m c 1) (after1 m c) t d
theorem before2 (c : Dev nD) (t : Fin cfg0.N) (d) : (dats m 0 c).before 2 t d = iblk m c 2 t := before2_of m (dats m 0 c) (A_eq m c 2) (after2 m c) t d
theorem before3 (c : Dev nD) (t : Fin cfg0.N) (d) : (dats m 0 c).before 3 t d = iblk m c 3 t := before3_of m (dats m 0 c) (A_eq m c 3) (after3 m c) t d
theorem before4 (c : Dev nD) (t : Fin cfg0.N) (d) : (dats m 0 c).before 4 t d = iblk m c 4 t := before4_of m (dats m 0 c) (A_eq m c 4) (after4 m c) t d

/-- At a later row tile of a batch the sum accumulator's staging buffer holds what the tile before left: the block
    is not written back between two tiles of one batch. -/
theorem before6_later (c : Dev nD) (t : Fin cfg0.N) (h0 : ¬t.val % 32 = 0) (d) :
    (dats m 0 c).before 6 t d = (outsAt m c (t.val - 1) (Nat.lt_of_le_of_lt (Nat.sub_le _ _) t.isLt)).2.1 := by
  have hN : t.val < 64 := lt_of_lt_of_eq t.isLt (show cfg0.N = 64 from N_0)
  rw [Dat.before_out_kept _ 6 rfl t (by omega) (Bool.eq_false_iff.mpr fun h => by have := (flush0_6 _).mp h; dsimp only at this; omega)
    (fun _ => rfl) (fun _ _ => rfl)]
  dsimp only [dats]

/-- The same for the maximum accumulator. -/
theorem before7_later (c : Dev nD) (t : Fin cfg0.N) (h0 : ¬t.val % 32 = 0) (d) :
    (dats m 0 c).before 7 t d = (outsAt m c (t.val - 1) (Nat.lt_of_le_of_lt (Nat.sub_le _ _) t.isLt)).2.2 := by
  have hN : t.val < 64 := lt_of_lt_of_eq t.isLt (show cfg0.N = 64 from N_0)
  rw [Dat.before_out_kept _ 7 rfl t (by omega) (Bool.eq_false_iff.mpr fun h => by have := (flush0_7 _).mp h; dsimp only at this; omega)
    (fun _ => rfl) (fun _ _ => rfl)]
  dsimp only [dats]

end Cert.Kernel.St

end
-- ==== Proof.K.Frame.lean ====
/-
  The body's obligation at every point: handed the point's input blocks and the outputs' staging buffers, the
  stencil body runs to the end and leaves each buffer at what the proof data says.
-/
import proofs.«143429_j3083786518603_1_alg».proof.Proof.K.Data

set_option maxRecDepth 16384

noncomputable section

namespace Cert.Kernel.St

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t))

set_option maxHeartbeats 1600000 in
/-- The body at a first row tile: the inputs' memrefs hold their blocks, the outputs' anything; the run that
    resets the accumulators applies. -/
theorem sound_first (c : Dev nD) (t : Fin cfg0.N) (h0 : t.val % 32 = 0) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5, after6, after7]
  rw [outsAt_first m c t h0]
  unfold firstAt outFirst
  dsimp only
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runFirst c (grid0.coords t) _ _ _ _ _ _ _ _ _ _ _ _ _ _ _ _ ((isFirst_iff t).mpr h0)
    (iblk m c 0 t) (iblk m c 1 t) (iblk m c 2 t) (iblk m c 3 t) (iblk m c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, ⟨%e5, H5⟩, ⟨%e6, H6⟩, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (coverFirst5 (F := F) c _ _ _ _ _ _ _ _ _ _ _ _ _ _ _ _ _ _ _ _ _ _ _)
  isplitl [H6]
  · unfold owns; iexists _; isplitr
    swap; · iexact H6
    ipureintro; exact View.read_writes_of_cover _ _ _ _ _ (coverFirst6 (F := F) c _ _ _ _ _ _ _ _ _ _ _ _ _ _ _ _ _ _ _ _ _ _ _)
  unfold owns; iexists _; isplitr
  swap; · iexact H7
  ipureintro; exact View.read_writes_of_cover _ _ _ _ _ (coverFirst7 (F := F) c _ _ _ _ _ _ _ _ _ _ _ _ _ _ _ _ _ _ _ _ _ _ _)

set_option maxHeartbeats 1600000 in
/-- The body at a later row tile: the accumulators hold what the tile before left; the run that updates them
    applies. -/
theorem sound_later (c : Dev nD) (t : Fin cfg0.N) (h0 : ¬t.val % 32 = 0) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5, after6, after7]
  rw [outsAt_later m c t h0]
  simp only [before6_later m c t h0, before7_later m c t h0]
  unfold laterAt outLater
  dsimp only
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runLater c (grid0.coords t) _ _ _ _ _ _ _ _ _ _ _ _ _ _ _ _ (fun h => h0 ((isFirst_iff t).mp h))
    (iblk m c 0 t) (iblk m c 1 t) (iblk m c 2 t) (iblk m c 3 t) (iblk m c 4 t) _ _).2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  iintro ⟨H0, H1, H2, H3, H4, ⟨%e5, H5⟩, ⟨%e6, H6⟩, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (coverLater5 (F := F) c _ _ _ _ _ _ _ _ _ _ _ _ _ _ _ _ _ _ _ _ _ _ _ _ _)
  isplitl [H6]
  · unfold owns; iexists _; isplitr
    swap; · iexact H6
    ipureintro; exact View.read_writes_of_cover _ _ _ _ _ (coverLater6 (F := F) c _ _ _ _ _ _ _ _ _ _ _ _ _ _ _ _ _ _ _ _ _ _ _ _ _)
  unfold owns; iexists _; isplitr
  swap; · iexact H7
  ipureintro; exact View.read_writes_of_cover _ _ _ _ _ (coverLater7 (F := F) c _ _ _ _ _ _ _ _ _ _ _ _ _ _ _ _ _ _ _ _ _ _ _ _ _)

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 32 = 0
  · exact sound_first m c t h0
  · exact sound_later m c t h0

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.St

end
-- ==== Proof.LibSharedAround.lean ====
/-
  The frame run of a one-region pipeline whose input windows may share an array, when the main function goes on
  after the region with lines of host operations.

  A kernel may be handed one array through several input windows.  The buffers behind the windows' arrays are then
  fewer than the windows, and neither the launch nor the lines after the region can treat "each window's array at
  the full share" as a family of distinct buffers.  What replaces it is said by three entailments about the
  distinct buffers behind the arrays (`arrBufs`): at the entry they make the proof data's arrays at the entry
  contents (`hsplit`); at the exit the arrays, at what the write-backs leave, are those buffers again at a
  valuation `VN` of the proof's choosing (`hjoin`), and back (`hsplitN`).  `VN` agrees with the entry valuation on
  every buffer that is no window's array (`hVN`).  The lines after the region run within the core's unscoped buffers
  and write no array.

  The conclusion: every weakly fair execution terminates; every window's array ends at the proof data's
  `arrAt · N`, and every other unscoped buffer at the fold of the lines over `VN`.
-/
import Idealize.ShloMosaic.Lib.Pipeline.Kit
import Idealize.ShloMosaic.Lib.Pipeline.Frame
import Idealize.ShloMosaic.Lib.Pipeline.FrameSuffix

noncomputable section

namespace Idealize.ShloMosaic

open Idealize.SL
open Idealize.SL.BI (sProp bigSep bigSep_congr)
open scoped Idealize.SL.BI
open Idealize.SL.BI.BIBase Idealize.SL.BI.Laws Idealize.SL.Sem Idealize.SL.ProofMode
open Idealize.SL.RA
open TcCoe

namespace Pipeline

open Idealize.ShloMosaic.Rounds

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (hinj : Function.Injective (cellOf (nD := nD) (τ := τ) cfgs))
  (hw : WinFacts₀ (cfgs p).spec)
  (defs₀ : Defs nD τ sig Val Λ₀) (𝒱₀ : Variants)

local notation "cfg" => cfgs p
local notation "𝔻" => Pipeline.defs (fun q => Cfg.toPCfg (Val := Val) (cfgs q)) defs₀

/-- What the run leaves: the arrays at the proof data's final contents, every other unscoped buffer at the fold of
    the lines after the region over the exit valuation. -/
def SharedAroundPost (VN : Dev nD → Valuation τ sig Val) (opss : List (List (HloOp τ sig Val)))
    (r : PUnit × MemSt nD τ sig Val) : Prop :=
  ∀ c : Dev nD, (∀ w, r.2.mem (((cfg).spec w).arr.view.loc (c.tc : Thread nD τ)) = (dats p c).arrAt w (cfg).N)
    ∧ ∀ b ∈ restRefs sig (cfg).spec, r.2.mem ((c.tc : Thread nD τ).loc b) = StableHlo.after opss.flatten (VN c) (Proc.devRef .tc b)

include hinj hw in
set_option backward.isDefEq.respectTransparency.types false in
/-- THE FRAME RUN for windows that may share arrays, the region followed by host lines. -/
theorem θ_run_frame_shared_around
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (hne : ∀ w : Fin (cfg).W, 0 < ((cfg).spec w).block.numel)
    (harr : ∀ w, ((cfg).spec w).arr.IsWhole) (hstage : ∀ w s, (((cfg).spec w).stage s).IsWhole)
    (howed : ∀ c t, (dats p c).owed t = 0)
    (V₀ VN : Dev nD → Valuation τ sig Val) (opss : List (List (HloOp τ sig Val)))
    (hsub : ∀ ops ∈ opss, ∀ op ∈ ops, op.bufs ⊆ ucRefs τ sig)
    (hfresh : ∀ ops ∈ opss, ∀ op ∈ ops, op.fresh = ∅)
    (hkeep : ∀ ops ∈ opss, ∀ op ∈ ops, ∀ w, Proc.devRef .tc (arrRef (cfg).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hsplit : ∀ c, (arrBufs (cfg).spec c (fun b => V₀ c (Proc.devRef .tc b)) : sProp 𝕄) ⊢ (dats p c).arrays ((dats p c).arrAt · 0))
    (hVN : ∀ c, ∀ b ∈ restRefs sig (cfg).spec, VN c (Proc.devRef .tc b) = V₀ c (Proc.devRef .tc b))
    (hjoin : ∀ c, (dats p c).arrays ((dats p c).arrAt · (cfg).N) ⊢ (arrBufs (cfg).spec c (fun b => VN c (Proc.devRef .tc b)) : sProp 𝕄))
    (hsplitN : ∀ c, (arrBufs (cfg).spec c (fun b => VN c (Proc.devRef .tc b)) : sProp 𝕄) ⊢ (dats p c).arrays ((dats p c).arrAt · (cfg).N))
    (hin : ∀ c, (ΦA (cfg).spec c : sProp 𝕄) ⊢ (dats p c).Φ 0)
    (hout : ∀ c, (dats p c).Φ (Fin.last (cfg).N) ⊢ (ΦA (cfg).spec c : sProp 𝕄)) :
    θ_run 𝔻 (onTc main) (s₀ m g) (SharedAroundPost cfgs dats p VN opss) := by
  classical
  have htail : ∀ (c : Dev nD) (Q' : PUnit → sProp 𝕄),
      iprop((iprop((dats p c).arrays ((dats p c).arrAt · (cfg).N)
              ∗ unscopedRest (Ix := Unit) (Name := ℕ) (U := UR sig nD τ) (Lvl := ℕ) (cfg).spec c (fun b => StableHlo.after opss.flatten (VN c) (Proc.devRef .tc b))) -∗ Q' ⟨⟩)
          ∗ boundary (c.tc : Thread nD τ) ∗ (dats p c).arrays ((dats p c).arrAt · (cfg).N)
          ∗ unscopedRest (Ix := Unit) (Name := ℕ) (U := UR sig nD τ) (Lvl := ℕ) (cfg).spec c (fun b => V₀ c (Proc.devRef .tc b)))
        ⊢ wp frame (wpE 𝔻 (Variants.lift 𝒱₀) (c.tc : Thread nD τ) none) Set.univ (chain (opss.map StableHlo.seq)) Q' := by
    intro c Q'
    have hZ : (unscopedRest (Ix := Unit) (Name := ℕ) (U := UR sig nD τ) (Lvl := ℕ) (cfg).spec c (fun b => V₀ c (Proc.devRef .tc b)) : sProp 𝕄)
        = unscopedRest (cfg).spec c (fun b => VN c (Proc.devRef .tc b)) := by
      unfold unscopedRest
      exact bigSep_congr fun b hb => by dsimp only; rw [hVN c b hb]
    -- the buffers behind the arrays and the rest of the unscoped buffers are all the unscoped buffers
    have hheld : ∀ Wv : Valuation τ sig Val,
        (iprop(arrBufs (cfg).spec c (fun b => Wv (Proc.devRef .tc b)) ∗ unscopedRest (cfg).spec c (fun b => Wv (Proc.devRef .tc b))) : sProp 𝕄)
          = StableHlo.held (c.tc : Thread nD τ) (ucRefs τ sig) Wv := fun Wv => by
      rw [← unscopedBufs_split₀ cfgs p hw.arr_unscoped c, unscopedBufs_held]
    -- the lines write no array
    have hA : (arrBufs (Ix := Unit) (Name := ℕ) (U := UR sig nD τ) (Lvl := ℕ) (cfg).spec c (fun b => StableHlo.after opss.flatten (VN c) (Proc.devRef .tc b)) : sProp 𝕄)
        = arrBufs (cfg).spec c (fun b => VN c (Proc.devRef .tc b)) := by
      unfold arrBufs
      refine bigSep_congr fun b hb => ?_
      obtain ⟨w, -, rfl⟩ := Finset.mem_image.mp hb
      dsimp only
      rw [StableHlo.after_of_forall_not_mem _ _ fun op hop => ?_]
      obtain ⟨ops, hops, hop⟩ := List.mem_flatten.mp hop
      exact hkeep ops hops op hop w
    have hpre : iprop((dats p c).arrays ((dats p c).arrAt · (cfg).N)
          ∗ unscopedRest (Ix := Unit) (Name := ℕ) (U := UR sig nD τ) (Lvl := ℕ) (cfg).spec c (fun b => V₀ c (Proc.devRef .tc b)))
        ⊢ (StableHlo.held (c.tc : Thread nD τ) (ucRefs τ sig) (VN c) : sProp 𝕄) := by
      rw [hZ, ← hheld]
      exact sep_mono (hjoin c) .rfl
    have hpost : (StableHlo.held (c.tc : Thread nD τ) (ucRefs τ sig) (StableHlo.after opss.flatten (VN c)) : sProp 𝕄)
        ⊢ iprop((dats p c).arrays ((dats p c).arrAt · (cfg).N)
          ∗ unscopedRest (Ix := Unit) (Name := ℕ) (U := UR sig nD τ) (Lvl := ℕ) (cfg).spec c (fun b => StableHlo.after opss.flatten (VN c) (Proc.devRef .tc b))) := by
      rw [← hheld, hA]
      exact sep_mono (hsplitN c) .rfl
    rw [← List.append_nil (opss.map StableHlo.seq)]
    iintro ⟨Hk, Hb, HAZ⟩
    ihave Hh := hpre $$ HAZ
    iapply (wp_seqs_then (fun q => (cfgs q).toPCfg (Val := Val)) defs₀ 𝒱₀ c (ucRefs τ sig) [] opss hsub hfresh (VN c)) $$ [Hb Hh]
    · isplitl [Hb] <;> iassumption
    iintro ⟨-, Hh⟩
    rw [chain_nil, wp_pure]
    imodintro
    iapply Hk
    iapply hpost
    iexact Hh
  exact θ_run_region_pf_tail (fun q => (cfgs q).toPCfg (Val := Val)) (fun q => (cfgs q).toPCfg_adm) dats () hinj p hw
    (OwnSemFacts.none (cfg).spec) (PreFacts.none _) emb₁ defs₀ 𝒱₀ m g main
    (fun _ => chain (opss.map StableHlo.seq)) hbody hne harr hstage howed
    (G := fun _ => iprop(emp)) (u₀ := initOf (cells cfgs hinj) (launchToks cfgs hinj))
    (hu₀ := by
      iintro Hu; imodintro
      isplitl [Hu]; · iapply (show (ownU _ : sProp 𝕄) ⊢ BI.own (emb₁ (initOf (cells cfgs hinj) (launchToks cfgs hinj))) from .rfl); iexact Hu
      iapply (show (BI.emp : sProp 𝕄) ⊢ bigSep Finset.univ (fun _ : Dev nD => (BI.emp : sProp 𝕄)) from by rw [BI.bigSep_emp_const])
      iempintro)
    (V := fun c b => V₀ c (Proc.devRef .tc b)) (hmain := hmain)
    (hsplit := hsplit)
    (hpf := fun _ k => k.elim0)
    (X := fun c => iprop(∃ r, prngReg c r)) (Y := fun c => iprop(∃ r, prngReg c r))
    (Z := fun c => unscopedRest (Ix := Unit) (Name := ℕ) (U := UR sig nD τ) (Lvl := ℕ) (cfg).spec c (fun b => V₀ c (Proc.devRef .tc b)))
    (Z' := fun c => unscopedRest (Ix := Unit) (Name := ℕ) (U := UR sig nD τ) (Lvl := ℕ) (cfg).spec c (fun b => StableHlo.after opss.flatten (VN c) (Proc.devRef .tc b)))
    (hX := fun c => by
      rw [unscopedRestP_none]
      iintro ⟨HU, -, -, -, Hp, -⟩; imodintro
      isplitl [Hp]; · iexists _; iexact Hp
      iexact HU)
    (hin := fun c => (show _ ⊢ (ΦA (cfg).spec c : sProp 𝕄) by
      unfold ΦA; iintro ⟨Hp, -, Hr⟩
      isplitl [Hr] <;> iassumption).trans (hin c))
    (hout := fun c => (hout c).trans (by
      rw [ownSems0_none]; unfold ΦA
      iintro ⟨Hr, Hp⟩
      isplitl [Hp]; · iexact Hp
      isplitr; · iempintro
      iexact Hr))
    (htail := htail)
    (QY := fun c s => ∀ b ∈ restRefs sig (cfg).spec, s.mem ((c.tc : Thread nD τ).loc b) = StableHlo.after opss.flatten (VN c) (Proc.devRef .tc b))
    (hY := fun c s' => by
      iintro ⟨-, HU, HSI⟩
      unfold unscopedRest
      imodintro
      iapply (pointsTo_read_all (restRefs sig (cfg).spec) (fun b => (c.tc : Thread nD τ).loc b) (fun b => StableHlo.after opss.flatten (VN c) (Proc.devRef .tc b)) s')
      isplitl [HU] <;> iassumption)
    (hQ := fun s h c => ⟨(h c).1, (h c).2.2⟩)

end Pipeline

end Idealize.ShloMosaic

end
-- ==== Proof.K.Launch.lean ====
/-
  The run of the whole program: the pipeline's region, with x handed to it through three windows, followed by
  the ten host lines that reduce the two accumulators.  The three windows that read x hold a third of its buffer
  each; at the entry the buffer's full share is split among them, at the exit the thirds are joined again.  The
  exit valuation holds the three result arrays at what the write-backs left and everything else as at the entry.
-/
import proofs.«143429_j3083786518603_1_alg».proof.Proof.K.Frame
import proofs.«143429_j3083786518603_1_alg».proof.Proof.LibSharedAround

set_option maxRecDepth 16384

noncomputable section

namespace Cert.Kernel.St

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## The host lines' side conditions -/

/-- Each host line touches unscoped TensorCore buffers only. -/
theorem host_sub : ∀ ops ∈ ([hostOps1] : List (List (HloOp τ sig (Elt F)))), ∀ op ∈ ops, op.bufs ⊆ Pipeline.ucRefs τ sig := by
  intro ops hops op hop
  obtain rfl : ops = hostOps1 := List.mem_singleton.mp hops
  exact Pipeline.sub_ucRefs op ((List.forall_iff_forall_mem.mp hostOps1_sub) op hop)

/-- None leaves a buffer at undetermined contents. -/
theorem host_fresh : ∀ ops ∈ ([hostOps1] : List (List (HloOp τ sig (Elt F)))), ∀ op ∈ ops, op.fresh = ∅ := by
  intro ops hops op hop
  obtain rfl : ops = hostOps1 := List.mem_singleton.mp hops
  simp only [hostOps1, List.mem_cons, List.mem_nil_iff, or_false] at hop
  rcases hop with rfl | rfl | rfl | rfl | rfl | rfl | rfl | rfl | rfl | rfl <;> rfl

/-- The buffer behind each window's array. -/
theorem arrRef_cases (w : Fin 8) : Pipeline.arrRef spec0 w = main_arg0 ∨ Pipeline.arrRef spec0 w = main_arg1 ∨ Pipeline.arrRef spec0 w = main_arg2
    ∨ Pipeline.arrRef spec0 w = main_v0_0 ∨ Pipeline.arrRef spec0 w = main_v0_1 ∨ Pipeline.arrRef spec0 w = main_v0_2 := by
  revert w; decide

/-- Each host line writes its own result, which is no window's array. -/
theorem host_keep : ∀ ops ∈ ([hostOps1] : List (List (HloOp τ sig (Elt F)))), ∀ op ∈ ops,
    ∀ w, Proc.devRef .tc (Pipeline.arrRef spec0 w) ∉ op.writes := by
  intro ops hops op hop w
  obtain rfl : ops = hostOps1 := List.mem_singleton.mp hops
  simp only [hostOps1, List.mem_cons, List.mem_nil_iff, or_false] at hop
  rcases hop with rfl | rfl | rfl | rfl | rfl | rfl | rfl | rfl | rfl | rfl <;>
    simp only [StableHlo.nullary_writes, StableHlo.unary_writes, StableHlo.binary_writes, StableHlo.reshape_writes, Finset.mem_singleton] <;>
    rcases arrRef_cases w with h | h | h | h | h | h <;> rw [h] <;> exact StableHlo.devRef_ne_of_ne (by decide)

/-! ## The arrays' buffers: x's buffer in thirds -/

section Shares

variable {c : Dev nD}

/-- A buffer's full share is its three thirds. -/
theorem thirds (ℓ : Loc nD τ sig) (f : Buf (Elt F) ℓ) :
    (ℓ ↦{fullShare} f : sProp 𝕄) ⊣⊢ iprop((ℓ ↦{fullShare.left} f) ∗ (ℓ ↦{fullShare.right.left} f) ∗ (ℓ ↦{fullShare.right.right} f)) := by
  refine ⟨?_, ?_⟩
  · iintro H
    ihave H := (pointsTo_share (PosShare.mem_left_op_right fullShare)).1 $$ H
    icases H with ⟨Hl, Hr⟩
    ihave Hr := (pointsTo_share (PosShare.mem_left_op_right fullShare.right)).1 $$ Hr
    icases Hr with ⟨Hrl, Hrr⟩
    isplitl [Hl]; · iexact Hl
    isplitl [Hrl] <;> iassumption
  · iintro ⟨Hl, Hrl, Hrr⟩
    iapply (pointsTo_share (PosShare.mem_left_op_right fullShare)).2
    isplitl [Hl]; · iexact Hl
    iapply (pointsTo_share (PosShare.mem_left_op_right fullShare.right)).2
    isplitl [Hrl] <;> iassumption

/-- The distinct buffers behind the windows' arrays, one by one. -/
theorem arrBufs_list (V : (b : Ref sig .tc) → Buf (Elt F) ((c.tc : Thread nD τ).loc b)) :
    (Pipeline.arrBufs spec0 c V : sProp 𝕄)
      = iprop((((c.tc : Thread nD τ).loc main_arg0) ↦{fullShare} V main_arg0) ∗ (((c.tc : Thread nD τ).loc main_arg1) ↦{fullShare} V main_arg1)
          ∗ (((c.tc : Thread nD τ).loc main_arg2) ↦{fullShare} V main_arg2) ∗ (((c.tc : Thread nD τ).loc main_v0_0) ↦{fullShare} V main_v0_0)
          ∗ (((c.tc : Thread nD τ).loc main_v0_1) ↦{fullShare} V main_v0_1) ∗ (((c.tc : Thread nD τ).loc main_v0_2) ↦{fullShare} V main_v0_2)) := by
  unfold Pipeline.arrBufs
  exact bigSep_eq_bigSepL_of_eq [main_arg0, main_arg1, main_arg2, main_v0_0, main_v0_1, main_v0_2] (by decide) (by decide) _

/-- The pipeline's arrays window by window, for proof data that give the three windows on x a third of its buffer
    each and every other input window its whole buffer. -/
theorem arrays_list (dat : Dat τ (Elt F) Unit ℕ (UR sig nD τ) ℕ cfg0 c)
    (h0 : dat.q 0 = fullShare.left) (h1 : dat.q 1 = fullShare.right.left) (h2 : dat.q 2 = fullShare.right.right)
    (h3 : dat.q 3 = fullShare) (h4 : dat.q 4 = fullShare)
    (G : (w : Fin cfg0.W) → Buf (Elt F) ((cfg0.win w).arr.view.loc (c.tc : Thread nD τ))) :
    (dat.arrays G : sProp 𝕄)
      = iprop((((c.tc : Thread nD τ).loc main_arg0) ↦{fullShare.left} G 0) ∗ (((c.tc : Thread nD τ).loc main_arg0) ↦{fullShare.right.left} G 1)
          ∗ (((c.tc : Thread nD τ).loc main_arg0) ↦{fullShare.right.right} G 2) ∗ (((c.tc : Thread nD τ).loc main_arg1) ↦{fullShare} G 3)
          ∗ (((c.tc : Thread nD τ).loc main_arg2) ↦{fullShare} G 4) ∗ (((c.tc : Thread nD τ).loc main_v0_0) ↦{fullShare} G 5)
          ∗ (((c.tc : Thread nD τ).loc main_v0_1) ↦{fullShare} G 6) ∗ (((c.tc : Thread nD τ).loc main_v0_2) ↦{fullShare} G 7)) := by
  have hs0 : dat.share 0 = fullShare.left := h0 ▸ rfl
  have hs1 : dat.share 1 = fullShare.right.left := h1 ▸ rfl
  have hs2 : dat.share 2 = fullShare.right.right := h2 ▸ rfl
  have hs3 : dat.share 3 = fullShare := h3 ▸ rfl
  have hs4 : dat.share 4 = fullShare := h4 ▸ rfl
  have hs5 : dat.share 5 = fullShare := rfl
  have hs6 : dat.share 6 = fullShare := rfl
  have hs7 : dat.share 7 = fullShare := rfl
  have hA : (dat.arrays G : sProp 𝕄)
      = bigSep Finset.univ fun w : Fin 8 => (((c.tc : Thread nD τ).loc (Pipeline.arrRef spec0 w)) ↦{dat.share w} G w : sProp 𝕄) := by
    unfold Dat.arrays
    exact bigSep_congr fun w _ => by rw [(arr_whole0 w).set_eq_univ]
  rw [hA, bigSep_W0, hs0, hs1, hs2, hs3, hs4, hs5, hs6, hs7]

/-- The buffers behind the arrays, whole, are the pipeline's arrays at the same contents, and back: x's buffer is
    split in thirds among its three windows, and the thirds, at one contents, join again. -/
theorem arrays_iff_bufs (dat : Dat τ (Elt F) Unit ℕ (UR sig nD τ) ℕ cfg0 c)
    (h0 : dat.q 0 = fullShare.left) (h1 : dat.q 1 = fullShare.right.left) (h2 : dat.q 2 = fullShare.right.right)
    (h3 : dat.q 3 = fullShare) (h4 : dat.q 4 = fullShare)
    (V : (b : Ref sig .tc) → Buf (Elt F) ((c.tc : Thread nD τ).loc b))
    (G : (w : Fin cfg0.W) → Buf (Elt F) ((cfg0.win w).arr.view.loc (c.tc : Thread nD τ)))
    (hG : ∀ w, G w = V (Pipeline.arrRef spec0 w)) :
    (Pipeline.arrBufs spec0 c V : sProp 𝕄) ⊣⊢ dat.arrays G := by
  have g0 : G 0 = V main_arg0 := hG 0
  have g1 : G 1 = V main_arg0 := hG 1
  have g2 : G 2 = V main_arg0 := hG 2
  have g3 : G 3 = V main_arg1 := hG 3
  have g4 : G 4 = V main_arg2 := hG 4
  have g5 : G 5 = V main_v0_0 := hG 5
  have g6 : G 6 = V main_v0_1 := hG 6
  have g7 : G 7 = V main_v0_2 := hG 7
  rw [arrBufs_list, arrays_list dat h0 h1 h2 h3 h4, g0, g1, g2, g3, g4, g5, g6, g7]
  refine ⟨?_, ?_⟩
  · iintro ⟨H0, H1, H2, H3, H4, H5⟩
    ihave H0 := (thirds _ _).1 $$ H0
    icases H0 with ⟨Ha, Hb, Hc⟩
    isplitl [Ha]; · iexact Ha
    isplitl [Hb]; · iexact Hb
    isplitl [Hc]; · iexact Hc
    isplitl [H1]; · iexact H1
    isplitl [H2]; · iexact H2
    isplitl [H3]; · iexact H3
    isplitl [H4] <;> iassumption
  · iintro ⟨Ha, Hb, Hc, H1, H2, H3, H4, H5⟩
    isplitl [Ha Hb Hc]
    · iapply (thirds _ _).2
      isplitl [Ha]; · iexact Ha
      isplitl [Hb] <;> iassumption
    isplitl [H1]; · iexact H1
    isplitl [H2]; · iexact H2
    isplitl [H3]; · iexact H3
    isplitl [H4] <;> iassumption

end Shares

variable (m : (ℓ : Loc nD τ sig) → Buf (Elt F) ℓ) (ρ : Dev nD → PrngReg)

/-- The buffers' contents when the region is left: the three result arrays at what the write-backs left, every
    other buffer as the region found it. -/
def VN (c : Dev nD) : Valuation τ sig (Elt F) :=
  Function.update (Function.update (Function.update (V0 m c)
    (Proc.devRef .tc main_v0_0) ((dats m 0 c).arrAt 5 cfg0.N))
    (Proc.devRef .tc main_v0_1) ((dats m 0 c).arrAt 6 cfg0.N))
    (Proc.devRef .tc main_v0_2) ((dats m 0 c).arrAt 7 cfg0.N)

theorem VN_res (c : Dev nD) : VN m c (Proc.devRef .tc main_v0_0) = (dats m 0 c).arrAt 5 cfg0.N := by
  unfold VN
  rw [Function.update_of_ne (StableHlo.devRef_ne_of_ne (by decide)), Function.update_of_ne (StableHlo.devRef_ne_of_ne (by decide)),
    Function.update_self]
theorem VN_sum (c : Dev nD) : VN m c (Proc.devRef .tc main_v0_1) = (dats m 0 c).arrAt 6 cfg0.N := by
  unfold VN
  rw [Function.update_of_ne (StableHlo.devRef_ne_of_ne (by decide)), Function.update_self]
theorem VN_max (c : Dev nD) : VN m c (Proc.devRef .tc main_v0_2) = (dats m 0 c).arrAt 7 cfg0.N := by
  unfold VN
  rw [Function.update_self]

/-- Off the three result arrays the exit valuation is the entry valuation. -/
theorem VN_of_ne (c : Dev nD) (b : Ref sig .tc) (h5 : b ≠ main_v0_0) (h6 : b ≠ main_v0_1) (h7 : b ≠ main_v0_2) :
    VN m c (Proc.devRef .tc b) = V0 m c (Proc.devRef .tc b) := by
  unfold VN
  rw [Function.update_of_ne (StableHlo.devRef_ne_of_ne h7), Function.update_of_ne (StableHlo.devRef_ne_of_ne h6),
    Function.update_of_ne (StableHlo.devRef_ne_of_ne h5)]

/-- In particular on every buffer that is no window's array. -/
theorem VN_rest (c : Dev nD) : ∀ b ∈ Pipeline.restRefs sig spec0, VN m c (Proc.devRef .tc b) = V0 m c (Proc.devRef .tc b) := by
  intro b hb
  have hnot : ∀ w : Fin 8, b ≠ Pipeline.arrRef spec0 w := fun w h =>
    (Finset.mem_sdiff.mp hb).2 (Finset.mem_image.mpr ⟨w, Finset.mem_univ _, h.symm⟩)
  exact VN_of_ne m c b (hnot 5) (hnot 6) (hnot 7)

/-- The arrays at the entry are the entry valuation's. -/
theorem arrAt_zero (c : Dev nD) (w : Fin 8) : (dats m 0 c).arrAt w 0 = V0 m c (Proc.devRef .tc (Pipeline.arrRef spec0 w)) :=
  A_eq m c w

/-- The arrays at the exit are the exit valuation's: an input's array is never written, a result's is where the exit
    valuation was changed. -/
theorem arrAt_last (c : Dev nD) : ∀ w : Fin 8, (dats m 0 c).arrAt w cfg0.N = VN m c (Proc.devRef .tc (Pipeline.arrRef spec0 w))
  | 0 => ((dats m 0 c).arrAt_in 0 rfl _).trans ((A_eq m c 0).trans (VN_of_ne m c main_arg0 (by decide) (by decide) (by decide)).symm)
  | 1 => ((dats m 0 c).arrAt_in 1 rfl _).trans ((A_eq m c 1).trans (VN_of_ne m c main_arg0 (by decide) (by decide) (by decide)).symm)
  | 2 => ((dats m 0 c).arrAt_in 2 rfl _).trans ((A_eq m c 2).trans (VN_of_ne m c main_arg0 (by decide) (by decide) (by decide)).symm)
  | 3 => ((dats m 0 c).arrAt_in 3 rfl _).trans ((A_eq m c 3).trans (VN_of_ne m c main_arg1 (by decide) (by decide) (by decide)).symm)
  | 4 => ((dats m 0 c).arrAt_in 4 rfl _).trans ((A_eq m c 4).trans (VN_of_ne m c main_arg2 (by decide) (by decide) (by decide)).symm)
  | 5 => (VN_res m c).symm
  | 6 => (VN_sum m c).symm
  | 7 => (VN_max m c).symm
  | ⟨_ + 8, h⟩ => absurd h (Nat.not_lt.2 (Nat.le_add_left _ _))

/-- At the entry x's whole buffer is split among its three windows. -/
theorem split_entry (c : Dev nD) :
    (Pipeline.arrBufs spec0 c (fun b => V0 m c (Proc.devRef .tc b)) : sProp 𝕄) ⊢ (dats m 0 c).arrays ((dats m 0 c).arrAt · 0) :=
  (arrays_iff_bufs (dats m 0 c) rfl rfl rfl rfl rfl (fun b => V0 m c (Proc.devRef .tc b)) _ (arrAt_zero m c)).1

/-- At the exit the thirds are joined, -/
theorem join_exit (c : Dev nD) :
    (dats m 0 c).arrays ((dats m 0 c).arrAt · cfg0.N) ⊢ (Pipeline.arrBufs spec0 c (fun b => VN m c (Proc.devRef .tc b)) : sProp 𝕄) :=
  (arrays_iff_bufs (dats m 0 c) rfl rfl rfl rfl rfl (fun b => VN m c (Proc.devRef .tc b)) _ (arrAt_last m c)).2

/-- and can be split again. -/
theorem split_exit (c : Dev nD) :
    (Pipeline.arrBufs spec0 c (fun b => VN m c (Proc.devRef .tc b)) : sProp 𝕄) ⊢ (dats m 0 c).arrays ((dats m 0 c).arrAt · cfg0.N) :=
  (arrays_iff_bufs (dats m 0 c) rfl rfl rfl rfl rfl (fun b => VN m c (Proc.devRef .tc b)) _ (arrAt_last m c)).1

set_option backward.isDefEq.respectTransparency.types false in
/-- Every weakly fair execution terminates; every window's array ends at the proof data's final contents and every
    other unscoped buffer at the host lines' fold over the exit valuation. -/
theorem run_main : θ_run defs (onTc (τ := τ) (main (F := F))) (s₀ m ρ) (Pipeline.SharedAroundPost cfgs (dats m) 0 (VN m) [hostOps1 (F := F)]) :=
  Pipeline.θ_run_frame_shared_around cfgs (dats m) (0 : Fin 1) cellOf_inj winFacts₀0 defs₀ Variants.none m ρ main
    (hbody := fun c => (body_obligation m c).loose) block_pos0 arr_whole0 stage_whole0 (howed := fun _ _ => rfl)
    (V₀ := V0 m) (VN := VN m) (opss := [hostOps1]) host_sub host_fresh host_keep (hmain m Variants.none)
    (hsplit := split_entry m) (hVN := VN_rest m) (hjoin := join_exit m) (hsplitN := split_exit m)
    (hin := fun c => .rfl) (hout := fun c => .rfl)

/-- The frame: the program runs and its three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats m 0 c).arrAt_in 0 rfl _).trans (A_eq m c 0)),
     ((h c).1 3).trans (((dats m 0 c).arrAt_in 3 rfl _).trans (A_eq m c 3)),
     ((h c).1 4).trans (((dats m 0 c).arrAt_in 4 rfl _).trans (A_eq m c 4))⟩) (run_main m ρ)

end Cert.Kernel.St

end
-- ==== Proof.KI.Common.lean ====
/-
  What the two runs of the stencil body and the proof data share.

  The grid is (batch, row tile): 2 × 32 points, the row tile the fast axis.  At a point the body
  sees five input blocks — eight rows of x, the row above and the row below them (both read from x
  again, their row index clamped into the array), eight rows of the coefficients, eight rows of the
  target — and three output blocks: eight rows of the stencil's result and the two 8 × 128
  accumulators (sum of squared errors, largest absolute error) of the batch.  The body's one branch
  resets the accumulators at the first row tile of a batch.
-/
import proofs.«143429_j3083786518603_1_alg».proof.Proof.Gen.KernelIdeal.Launch
import proofs.«143429_j3083786518603_1_alg».proof.Proof.Gen.KernelIdeal.Skeleton
import proofs.«143429_j3083786518603_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.St

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers as the region finds them -/

/-- Core `c`'s TensorCore buffers when the region is entered: as launched (nothing runs before it). -/
abbrev V0 (c : Dev nD) : Valuation τ sig (Elt F) := StableHlo.after ([] : List (List (HloOp τ sig (Elt F)))).flatten (fun b => m (c, b))

abbrev V (c : Dev nD) (b : Ref sig .tc) : Buf (Elt F) ((c : Thread nD τ).loc b) := V0 m c (Proc.devRef .tc b)

theorem V_eq (c : Dev nD) (b : Ref sig .tc) : V m c b = m ((c : Thread nD τ).loc b) := rfl

/-- The main function is the region followed by one stretch of host lines. -/
theorem hmain (𝒱₀ : Variants) :
    Pipeline.HMainK (Ix := Unit) (Name := ℕ) (U := UR sig nD τ) (Lvl := ℕ) cfgs 0 defs₀ 𝒱₀ m (main (F := F))
      (fun c b => V0 m c (Proc.devRef .tc b)) (fun _ => Pipeline.chain ([hostOps1 (F := F)].map StableHlo.seq)) :=
  Pipeline.hmain_around cfgs 0 defs₀ 𝒱₀ m main [] [hostOps1] (by trivial) (by trivial) fun c => (main_chain c).trans rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the entry contents and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof
    data whose array is the entry contents and whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof
    data whose array is the entry contents and whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof
    data whose array is the entry contents and whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for any proof
    data whose array is the entry contents and whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's branch -/

/-- The condition of the body's one branch (reset the accumulators), from the grid coordinates. -/
abbrev isFirst (i : grid0.Coords) : Prop := (Scalar.cmpi .ne (Scalar.extui (Scalar.cmpi .eq (BitVec.ofNat 32 (i 1).val) 0#32)) 0#32) = 1#1

/-- It holds exactly at the first row tile of each batch. -/
theorem isFirst_iff : ∀ t : Fin cfg0.N, isFirst (grid0.coords t) ↔ t.val % 32 = 0 :=
  (by decide +kernel : ∀ t : Fin grid0.N, isFirst (grid0.coords t) ↔ t.val % 32 = 0)

/-! ## The staging memrefs at a point -/

abbrev VO5 : View sig .tc .vmem S1x8x256x256 .f32 := (Memref.whole cc0_stg5_0 : Memref sig .tc .vmem S1x8x256x256 .f32).view
abbrev VO6 : View sig .tc .vmem S1x8x128 .f32 := (Memref.whole cc0_stg6_0 : Memref sig .tc .vmem S1x8x128 .f32).view
abbrev VO7 : View sig .tc .vmem S1x8x128 .f32 := (Memref.whole cc0_stg7_0 : Memref sig .tc .vmem S1x8x128 .f32).view

abbrev ms0 (t : Fin cfg0.N) : Memref sig .tc .vmem S1x8x256x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1x256x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x256x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x8x256x7 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x8x256x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x8x256x256 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x8x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x8x128 .f32 := win0_7.stage (cfg0.slots t 7)
abbrev hs7 (t : Fin cfg0.N) : (ms7 t).IsWhole := hstage0_7 ((cfg0.slots t 7).cast nbuf0_7)

end Cert.KernelIdeal.St

end
-- ==== Proof.KI.RunFirst.lean ====
/-
  The stencil body at the first row tile of a batch: the accumulators are reset and then updated.
  On whole staging memrefs — the five inputs' at their blocks, the three outputs' at anything — the body
  runs to the end, leaves the inputs' as they were and each output's buffer with the pieces its stores wrote;
  the pieces are found by the run.
-/
import proofs.«143429_j3083786518603_1_alg».proof.Proof.KI.Common

set_option maxRecDepth 16384

noncomputable section

namespace Cert.KernelIdeal.St

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body where the branch is taken. -/
noncomputable def runFirst (c : Dev nD) (i : grid0.Coords)
    (a0 : Memref sig .tc .vmem S1x8x256x256 .f32) (h0 : a0.IsWhole) (a1 : Memref sig .tc .vmem S1x1x256x256 .f32) (h1 : a1.IsWhole)
    (a2 : Memref sig .tc .vmem S1x1x256x256 .f32) (h2 : a2.IsWhole) (a3 : Memref sig .tc .vmem S1x8x256x7 .f32) (h3 : a3.IsWhole)
    (a4 : Memref sig .tc .vmem S1x8x256x256 .f32) (h4 : a4.IsWhole) (a5 : Memref sig .tc .vmem S1x8x256x256 .f32) (h5 : a5.IsWhole)
    (a6 : Memref sig .tc .vmem S1x8x128 .f32) (h6 : a6.IsWhole) (a7 : Memref sig .tc .vmem S1x8x128 .f32) (h7 : a7.IsWhole)
    (hc : isFirst i)
    (x0 : Vec F S1x8x256x256 .f32) (x1 : Vec F S1x1x256x256 .f32) (x2 : Vec F S1x1x256x256 .f32) (x3 : Vec F S1x8x256x7 .f32) (x4 : Vec F S1x8x256x256 .f32) :
    { L : List (View.Piece (Elt F) S1x8x256x256 .f32) × List (View.Piece (Elt F) S1x8x128 .f32) × List (View.Piece (Elt F) S1x8x128 .f32) //
      ∀ (E : Set ℕ) (K : PUnit → sProp 𝕄),
        iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4
            ∗ (∃ d, owns (c : Thread nD τ) a5 fullShare d) ∗ (∃ d, owns (c : Thread nD τ) a6 fullShare d) ∗ (∃ d, owns (c : Thread nD τ) a7 fullShare d)
            ∗ (iprop(owns (c : Thread nD τ) a0 fullShare x0 ∗ owns (c : Thread nD τ) a1 fullShare x1 ∗ owns (c : Thread nD τ) a2 fullShare x2
                ∗ owns (c : Thread nD τ) a3 fullShare x3 ∗ owns (c : Thread nD τ) a4 fullShare x4
                ∗ (∃ f, a5.view.loc (c : Thread nD τ) ↦[a5.view.set]{fullShare} a5.view.writes (Elt F) f L.1)
                ∗ (∃ f, a6.view.loc (c : Thread nD τ) ↦[a6.view.set]{fullShare} a6.view.writes (Elt F) f L.2.1)
                ∗ (∃ f, a7.view.loc (c : Thread nD τ) ↦[a7.view.set]{fullShare} a7.view.writes (Elt F) f L.2.2)) -∗ K ⟨⟩))
          ⊢ wp frame (wpE (defs₀ (F := F)) Variants.none c none) E (cc0__stencil_kernel i a0 h0 a1 h1 a2 h2 a3 h3 a4 h4 a5 h5 a6 h6 a7 h7) K } := by
  refine ⟨⟨?_, ?_, ?_⟩, fun E K => ?run⟩
  case run =>
    simp only [cc0__stencil_kernel_eq_skeleton]; unfold cc0__stencil_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
    obtain rfl := h0.eq_unread hf0; obtain rfl := h1.eq_unread hf1; obtain rfl := h2.eq_unread hf2
    obtain rfl := h3.eq_unread hf3; obtain rfl := h4.eq_unread hf4
    sl_exec (disch := first | exact hc)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; iexact H5
    isplitl [H6]
    · iexists _; iexact H6
    iexists _; iexact H7

end Cert.KernelIdeal.St

end
-- ==== Proof.KI.RunLater.lean ====
/-
  The stencil body at a later row tile of a batch: the accumulators are read at what the tile before left
  and updated.  On whole staging memrefs — the five inputs' at their blocks, the result's at anything, the
  two accumulators' at their running contents — the body runs to the end, leaves the inputs' as they were and
  each output's buffer with the pieces its stores wrote; the pieces are found by the run.
-/
import proofs.«143429_j3083786518603_1_alg».proof.Proof.KI.RunFirst

set_option maxRecDepth 16384

noncomputable section

namespace Cert.KernelIdeal.St

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body where the branch is not taken. -/
noncomputable def runLater (c : Dev nD) (i : grid0.Coords)
    (a0 : Memref sig .tc .vmem S1x8x256x256 .f32) (h0 : a0.IsWhole) (a1 : Memref sig .tc .vmem S1x1x256x256 .f32) (h1 : a1.IsWhole)
    (a2 : Memref sig .tc .vmem S1x1x256x256 .f32) (h2 : a2.IsWhole) (a3 : Memref sig .tc .vmem S1x8x256x7 .f32) (h3 : a3.IsWhole)
    (a4 : Memref sig .tc .vmem S1x8x256x256 .f32) (h4 : a4.IsWhole) (a5 : Memref sig .tc .vmem S1x8x256x256 .f32) (h5 : a5.IsWhole)
    (a6 : Memref sig .tc .vmem S1x8x128 .f32) (h6 : a6.IsWhole) (a7 : Memref sig .tc .vmem S1x8x128 .f32) (h7 : a7.IsWhole)
    (hc : ¬isFirst i)
    (x0 : Vec F S1x8x256x256 .f32) (x1 : Vec F S1x1x256x256 .f32) (x2 : Vec F S1x1x256x256 .f32) (x3 : Vec F S1x8x256x7 .f32) (x4 : Vec F S1x8x256x256 .f32)
    (s6 : Vec F S1x8x128 .f32) (s7 : Vec F S1x8x128 .f32) :
    { L : List (View.Piece (Elt F) S1x8x256x256 .f32) × List (View.Piece (Elt F) S1x8x128 .f32) × List (View.Piece (Elt F) S1x8x128 .f32) //
      ∀ (E : Set ℕ) (K : PUnit → sProp 𝕄),
        iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4
            ∗ (∃ d, owns (c : Thread nD τ) a5 fullShare d) ∗ owns (c : Thread nD τ) a6 fullShare s6 ∗ owns (c : Thread nD τ) a7 fullShare s7
            ∗ (iprop(owns (c : Thread nD τ) a0 fullShare x0 ∗ owns (c : Thread nD τ) a1 fullShare x1 ∗ owns (c : Thread nD τ) a2 fullShare x2
                ∗ owns (c : Thread nD τ) a3 fullShare x3 ∗ owns (c : Thread nD τ) a4 fullShare x4
                ∗ (∃ f, a5.view.loc (c : Thread nD τ) ↦[a5.view.set]{fullShare} a5.view.writes (Elt F) f L.1)
                ∗ (∃ f, a6.view.loc (c : Thread nD τ) ↦[a6.view.set]{fullShare} a6.view.writes (Elt F) f L.2.1)
                ∗ (∃ f, a7.view.loc (c : Thread nD τ) ↦[a7.view.set]{fullShare} a7.view.writes (Elt F) f L.2.2)) -∗ K ⟨⟩))
          ⊢ wp frame (wpE (defs₀ (F := F)) Variants.none c none) E (cc0__stencil_kernel i a0 h0 a1 h1 a2 h2 a3 h3 a4 h4 a5 h5 a6 h6 a7 h7) K } := by
  refine ⟨⟨?_, ?_, ?_⟩, fun E K => ?run⟩
  case run =>
    simp only [cc0__stencil_kernel_eq_skeleton]; unfold cc0__stencil_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
    obtain rfl := h0.eq_unread hf0; obtain rfl := h1.eq_unread hf1; obtain rfl := h2.eq_unread hf2
    obtain rfl := h3.eq_unread hf3; obtain rfl := h4.eq_unread hf4
    obtain rfl := h6.eq_unread hf6; obtain rfl := h7.eq_unread hf7
    sl_exec (disch := first | exact hc)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; iexact H5
    isplitl [H6]
    · iexists _; iexact H6
    iexists _; iexact H7

end Cert.KernelIdeal.St

end
-- ==== Proof.KI.Data.lean ====
/-
  What the three outputs' staging buffers hold point by point, and the proof data of the stencil's pipeline.

  The result block is written whole at every point.  The two accumulators are reset at the first row tile of a
  batch and otherwise read at what the tile before left; their block is written back only after the last row
  tile of the batch, so between two tiles of one batch the staging buffer keeps what the body left.
-/
import proofs.«143429_j3083786518603_1_alg».proof.Proof.KI.RunLater

set_option maxRecDepth 16384

noncomputable section

namespace Cert.KernelIdeal.St

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Each run's pieces cover the blocks -/

section Pieces

variable (c : Dev nD) (i : grid0.Coords)
    (a0 : Memref sig .tc .vmem S1x8x256x256 .f32) (h0 : a0.IsWhole) (a1 : Memref sig .tc .vmem S1x1x256x256 .f32) (h1 : a1.IsWhole)
    (a2 : Memref sig .tc .vmem S1x1x256x256 .f32) (h2 : a2.IsWhole) (a3 : Memref sig .tc .vmem S1x8x256x7 .f32) (h3 : a3.IsWhole)
    (a4 : Memref sig .tc .vmem S1x8x256x256 .f32) (h4 : a4.IsWhole) (a5 : Memref sig .tc .vmem S1x8x256x256 .f32) (h5 : a5.IsWhole)
    (a6 : Memref sig .tc .vmem S1x8x128 .f32) (h6 : a6.IsWhole) (a7 : Memref sig .tc .vmem S1x8x128 .f32) (h7 : a7.IsWhole)
    (x0 : Vec F S1x8x256x256 .f32) (x1 : Vec F S1x1x256x256 .f32) (x2 : Vec F S1x1x256x256 .f32) (x3 : Vec F S1x8x256x7 .f32) (x4 : Vec F S1x8x256x256 .f32)

theorem coverFirst5 (hc : isFirst i) (y : S1x8x256x256.Idx) :
    ∃ pc ∈ (runFirst c i a0 h0 a1 h1 a2 h2 a3 h3 a4 h4 a5 h5 a6 h6 a7 h7 hc x0 x1 x2 x3 x4).1.1, y ∈ pc.1.set :=
  View.cover_of_tiledL _ S1x8x256x256.size (by sl_kernel_rfl) y
theorem coverFirst6 (hc : isFirst i) (y : S1x8x128.Idx) :
    ∃ pc ∈ (runFirst c i a0 h0 a1 h1 a2 h2 a3 h3 a4 h4 a5 h5 a6 h6 a7 h7 hc x0 x1 x2 x3 x4).1.2.1, y ∈ pc.1.set :=
  View.cover_of_tiledL _ S1x8x128.size (by sl_kernel_rfl) y
theorem coverFirst7 (hc : isFirst i) (y : S1x8x128.Idx) :
    ∃ pc ∈ (runFirst c i a0 h0 a1 h1 a2 h2 a3 h3 a4 h4 a5 h5 a6 h6 a7 h7 hc x0 x1 x2 x3 x4).1.2.2, y ∈ pc.1.set :=
  View.cover_of_tiledL _ S1x8x128.size (by sl_kernel_rfl) y

/-- What the first-tile run leaves in the three outputs' staging buffers: its pieces read back. -/
def outFirst (hc : isFirst i) : Vec F S1x8x256x256 .f32 × Vec F S1x8x128 .f32 × Vec F S1x8x128 .f32 :=
  (VO5.read (Elt F) (VO5.writes (Elt F) VO5.junk (runFirst c i a0 h0 a1 h1 a2 h2 a3 h3 a4 h4 a5 h5 a6 h6 a7 h7 hc x0 x1 x2 x3 x4).1.1),
   VO6.read (Elt F) (VO6.writes (Elt F) VO6.junk (runFirst c i a0 h0 a1 h1 a2 h2 a3 h3 a4 h4 a5 h5 a6 h6 a7 h7 hc x0 x1 x2 x3 x4).1.2.1),
   VO7.read (Elt F) (VO7.writes (Elt F) VO7.junk (runFirst c i a0 h0 a1 h1 a2 h2 a3 h3 a4 h4 a5 h5 a6 h6 a7 h7 hc x0 x1 x2 x3 x4).1.2.2))

variable (s6 : Vec F S1x8x128 .f32) (s7 : Vec F S1x8x128 .f32)

theorem coverLater5 (hc : ¬isFirst i) (y : S1x8x256x256.Idx) :
    ∃ pc ∈ (runLater c i a0 h0 a1 h1 a2 h2 a3 h3 a4 h4 a5 h5 a6 h6 a7 h7 hc x0 x1 x2 x3 x4 s6 s7).1.1, y ∈ pc.1.set :=
  View.cover_of_tiledL _ S1x8x256x256.size (by sl_kernel_rfl) y
theorem coverLater6 (hc : ¬isFirst i) (y : S1x8x128.Idx) :
    ∃ pc ∈ (runLater c i a0 h0 a1 h1 a2 h2 a3 h3 a4 h4 a5 h5 a6 h6 a7 h7 hc x0 x1 x2 x3 x4 s6 s7).1.2.1, y ∈ pc.1.set :=
  View.cover_of_tiledL _ S1x8x128.size (by sl_kernel_rfl) y
theorem coverLater7 (hc : ¬isFirst i) (y : S1x8x128.Idx) :
    ∃ pc ∈ (runLater c i a0 h0 a1 h1 a2 h2 a3 h3 a4 h4 a5 h5 a6 h6 a7 h7 hc x0 x1 x2 x3 x4 s6 s7).1.2.2, y ∈ pc.1.set :=
  View.cover_of_tiledL _ S1x8x128.size (by sl_kernel_rfl) y

/-- What a later-tile run leaves in the three outputs' staging buffers: its pieces read back. -/
def outLater (hc : ¬isFirst i) : Vec F S1x8x256x256 .f32 × Vec F S1x8x128 .f32 × Vec F S1x8x128 .f32 :=
  (VO5.read (Elt F) (VO5.writes (Elt F) VO5.junk (runLater c i a0 h0 a1 h1 a2 h2 a3 h3 a4 h4 a5 h5 a6 h6 a7 h7 hc x0 x1 x2 x3 x4 s6 s7).1.1),
   VO6.read (Elt F) (VO6.writes (Elt F) VO6.junk (runLater c i a0 h0 a1 h1 a2 h2 a3 h3 a4 h4 a5 h5 a6 h6 a7 h7 hc x0 x1 x2 x3 x4 s6 s7).1.2.1),
   VO7.read (Elt F) (VO7.writes (Elt F) VO7.junk (runLater c i a0 h0 a1 h1 a2 h2 a3 h3 a4 h4 a5 h5 a6 h6 a7 h7 hc x0 x1 x2 x3 x4 s6 s7).1.2.2))

end Pieces

/-! ## The outputs point by point -/

/-- The first-tile contents at point `t`, on the point's memrefs and input blocks. -/
def firstAt (c : Dev nD) (t : Fin cfg0.N) (hc : isFirst (grid0.coords t)) : Vec F S1x8x256x256 .f32 × Vec F S1x8x128 .f32 × Vec F S1x8x128 .f32 :=
  outFirst c (grid0.coords t) (ms0 t) (hs0 t) (ms1 t) (hs1 t) (ms2 t) (hs2 t) (ms3 t) (hs3 t) (ms4 t) (hs4 t) (ms5 t) (hs5 t) (ms6 t) (hs6 t) (ms7 t) (hs7 t)
    (iblk m c 0 t) (iblk m c 1 t) (iblk m c 2 t) (iblk m c 3 t) (iblk m c 4 t) hc

/-- The later-tile contents at point `t`, over the accumulators' contents `s6`, `s7`. -/
def laterAt (c : Dev nD) (t : Fin cfg0.N) (hc : ¬isFirst (grid0.coords t)) (s6 s7 : Vec F S1x8x128 .f32) :
    Vec F S1x8x256x256 .f32 × Vec F S1x8x128 .f32 × Vec F S1x8x128 .f32 :=
  outLater c (grid0.coords t) (ms0 t) (hs0 t) (ms1 t) (hs1 t) (ms2 t) (hs2 t) (ms3 t) (hs3 t) (ms4 t) (hs4 t) (ms5 t) (hs5 t) (ms6 t) (hs6 t) (ms7 t) (hs7 t)
    (iblk m c 0 t) (iblk m c 1 t) (iblk m c 2 t) (iblk m c 3 t) (iblk m c 4 t) s6 s7 hc

/-- What the outputs' staging buffers hold after the body at position `n`: at the first row tile of a batch the
    reset-and-update contents, otherwise the update over what position `n - 1` left in the accumulators. -/
def outsAt (c : Dev nD) : (n : ℕ) → n < cfg0.N → Vec F S1x8x256x256 .f32 × Vec F S1x8x128 .f32 × Vec F S1x8x128 .f32
  | 0, hn => firstAt m c ⟨0, hn⟩ ((isFirst_iff ⟨0, hn⟩).mpr (Nat.zero_mod _))
  | n + 1, hn =>
    if h0 : (n + 1) % 32 = 0 then firstAt m c ⟨n + 1, hn⟩ ((isFirst_iff ⟨n + 1, hn⟩).mpr h0)
    else laterAt m c ⟨n + 1, hn⟩ (fun h => h0 ((isFirst_iff ⟨n + 1, hn⟩).mp h))
      (outsAt c n (Nat.lt_of_succ_lt hn)).2.1 (outsAt c n (Nat.lt_of_succ_lt hn)).2.2

theorem outsAt_first (c : Dev nD) (t : Fin cfg0.N) (h0 : t.val % 32 = 0) :
    outsAt m c t.val t.isLt = firstAt m c t ((isFirst_iff t).mpr h0) := by
  obtain ⟨n, hn⟩ := t
  cases n with
  | zero => exact rfl
  | succ n => exact (dif_pos h0).trans rfl

theorem outsAt_later (c : Dev nD) (t : Fin cfg0.N) (h0 : ¬t.val % 32 = 0) :
    outsAt m c t.val t.isLt = laterAt m c t (fun h => h0 ((isFirst_iff t).mp h))
      (outsAt m c (t.val - 1) (Nat.lt_of_le_of_lt (Nat.sub_le _ _) t.isLt)).2.1
      (outsAt m c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

/-! ## The proof data -/

/-- The proof data of the pipeline on core `c`: the arrays as the region finds them; after the body each input's
    buffer at its block and the outputs' at `outsAt`; the three windows that read x hold a third of it each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt m c t.val t.isLt).1
    | ⟨6, _⟩ => (outsAt m c t.val t.isLt).2.1
    | ⟨7, _⟩ => (outsAt m c t.val t.isLt).2.2
  Φ _ := Pipeline.ΦA spec0 c
  q w := match w with
    | ⟨0, _⟩ => fullShare.left
    | ⟨1, _⟩ => fullShare.right.left
    | ⟨2, _⟩ => fullShare.right.right
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = (outsAt m c t.val t.isLt).1 := by dsimp only [dats]
theorem after6 (c : Dev nD) (t : Fin cfg0.N) : (dats m 0 c).after 6 t = (outsAt m c t.val t.isLt).2.1 := by dsimp only [dats]
theorem after7 (c : Dev nD) (t : Fin cfg0.N) : (dats m 0 c).after 7 t = (outsAt m c t.val t.isLt).2.2 := by dsimp only [dats]

theorem before0 (c : Dev nD) (t : Fin cfg0.N) (d) : (dats m 0 c).before 0 t d = iblk m c 0 t := before0_of m (dats m 0 c) (A_eq m c 0) (after0 m c) t d
theorem before1 (c : Dev nD) (t : Fin cfg0.N) (d) : (dats m 0 c).before 1 t d = iblk m c 1 t := before1_of m (dats m 0 c) (A_eq m c 1) (after1 m c) t d
theorem before2 (c : Dev nD) (t : Fin cfg0.N) (d) : (dats m 0 c).before 2 t d = iblk m c 2 t := before2_of m (dats m 0 c) (A_eq m c 2) (after2 m c) t d
theorem before3 (c : Dev nD) (t : Fin cfg0.N) (d) : (dats m 0 c).before 3 t d = iblk m c 3 t := before3_of m (dats m 0 c) (A_eq m c 3) (after3 m c) t d
theorem before4 (c : Dev nD) (t : Fin cfg0.N) (d) : (dats m 0 c).before 4 t d = iblk m c 4 t := before4_of m (dats m 0 c) (A_eq m c 4) (after4 m c) t d

/-- At a later row tile of a batch the sum accumulator's staging buffer holds what the tile before left: the block
    is not written back between two tiles of one batch. -/
theorem before6_later (c : Dev nD) (t : Fin cfg0.N) (h0 : ¬t.val % 32 = 0) (d) :
    (dats m 0 c).before 6 t d = (outsAt m c (t.val - 1) (Nat.lt_of_le_of_lt (Nat.sub_le _ _) t.isLt)).2.1 := by
  have hN : t.val < 64 := lt_of_lt_of_eq t.isLt (show cfg0.N = 64 from N_0)
  rw [Dat.before_out_kept _ 6 rfl t (by omega) (Bool.eq_false_iff.mpr fun h => by have := (flush0_6 _).mp h; dsimp only at this; omega)
    (fun _ => rfl) (fun _ _ => rfl)]
  dsimp only [dats]

/-- The same for the maximum accumulator. -/
theorem before7_later (c : Dev nD) (t : Fin cfg0.N) (h0 : ¬t.val % 32 = 0) (d) :
    (dats m 0 c).before 7 t d = (outsAt m c (t.val - 1) (Nat.lt_of_le_of_lt (Nat.sub_le _ _) t.isLt)).2.2 := by
  have hN : t.val < 64 := lt_of_lt_of_eq t.isLt (show cfg0.N = 64 from N_0)
  rw [Dat.before_out_kept _ 7 rfl t (by omega) (Bool.eq_false_iff.mpr fun h => by have := (flush0_7 _).mp h; dsimp only at this; omega)
    (fun _ => rfl) (fun _ _ => rfl)]
  dsimp only [dats]

end Cert.KernelIdeal.St

end
-- ==== Proof.KI.Frame.lean ====
/-
  The body's obligation at every point: handed the point's input blocks and the outputs' staging buffers, the
  stencil body runs to the end and leaves each buffer at what the proof data says.
-/
import proofs.«143429_j3083786518603_1_alg».proof.Proof.KI.Data

set_option maxRecDepth 16384

noncomputable section

namespace Cert.KernelIdeal.St

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t))

set_option maxHeartbeats 1600000 in
/-- The body at a first row tile: the inputs' memrefs hold their blocks, the outputs' anything; the run that
    resets the accumulators applies. -/
theorem sound_first (c : Dev nD) (t : Fin cfg0.N) (h0 : t.val % 32 = 0) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5, after6, after7]
  rw [outsAt_first m c t h0]
  unfold firstAt outFirst
  dsimp only
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runFirst c (grid0.coords t) _ _ _ _ _ _ _ _ _ _ _ _ _ _ _ _ ((isFirst_iff t).mpr h0)
    (iblk m c 0 t) (iblk m c 1 t) (iblk m c 2 t) (iblk m c 3 t) (iblk m c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, ⟨%e5, H5⟩, ⟨%e6, H6⟩, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (coverFirst5 (F := F) c _ _ _ _ _ _ _ _ _ _ _ _ _ _ _ _ _ _ _ _ _ _ _)
  isplitl [H6]
  · unfold owns; iexists _; isplitr
    swap; · iexact H6
    ipureintro; exact View.read_writes_of_cover _ _ _ _ _ (coverFirst6 (F := F) c _ _ _ _ _ _ _ _ _ _ _ _ _ _ _ _ _ _ _ _ _ _ _)
  unfold owns; iexists _; isplitr
  swap; · iexact H7
  ipureintro; exact View.read_writes_of_cover _ _ _ _ _ (coverFirst7 (F := F) c _ _ _ _ _ _ _ _ _ _ _ _ _ _ _ _ _ _ _ _ _ _ _)

set_option maxHeartbeats 1600000 in
/-- The body at a later row tile: the accumulators hold what the tile before left; the run that updates them
    applies. -/
theorem sound_later (c : Dev nD) (t : Fin cfg0.N) (h0 : ¬t.val % 32 = 0) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5, after6, after7]
  rw [outsAt_later m c t h0]
  simp only [before6_later m c t h0, before7_later m c t h0]
  unfold laterAt outLater
  dsimp only
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runLater c (grid0.coords t) _ _ _ _ _ _ _ _ _ _ _ _ _ _ _ _ (fun h => h0 ((isFirst_iff t).mp h))
    (iblk m c 0 t) (iblk m c 1 t) (iblk m c 2 t) (iblk m c 3 t) (iblk m c 4 t) _ _).2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  iintro ⟨H0, H1, H2, H3, H4, ⟨%e5, H5⟩, ⟨%e6, H6⟩, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (coverLater5 (F := F) c _ _ _ _ _ _ _ _ _ _ _ _ _ _ _ _ _ _ _ _ _ _ _ _ _)
  isplitl [H6]
  · unfold owns; iexists _; isplitr
    swap; · iexact H6
    ipureintro; exact View.read_writes_of_cover _ _ _ _ _ (coverLater6 (F := F) c _ _ _ _ _ _ _ _ _ _ _ _ _ _ _ _ _ _ _ _ _ _ _ _ _)
  unfold owns; iexists _; isplitr
  swap; · iexact H7
  ipureintro; exact View.read_writes_of_cover _ _ _ _ _ (coverLater7 (F := F) c _ _ _ _ _ _ _ _ _ _ _ _ _ _ _ _ _ _ _ _ _ _ _ _ _)

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 32 = 0
  · exact sound_first m c t h0
  · exact sound_later m c t h0

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.St

end
-- ==== Proof.KI.Launch.lean ====
/-
  The run of the whole program: the pipeline's region, with x handed to it through three windows, followed by
  the ten host lines that reduce the two accumulators.  The three windows that read x hold a third of its buffer
  each; at the entry the buffer's full share is split among them, at the exit the thirds are joined again.  The
  exit valuation holds the three result arrays at what the write-backs left and everything else as at the entry.
-/
import proofs.«143429_j3083786518603_1_alg».proof.Proof.KI.Frame
import proofs.«143429_j3083786518603_1_alg».proof.Proof.LibSharedAround

set_option maxRecDepth 16384

noncomputable section

namespace Cert.KernelIdeal.St

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The host lines' side conditions -/

/-- Each host line touches unscoped TensorCore buffers only. -/
theorem host_sub : ∀ ops ∈ ([hostOps1] : List (List (HloOp τ sig (Elt F)))), ∀ op ∈ ops, op.bufs ⊆ Pipeline.ucRefs τ sig := by
  intro ops hops op hop
  obtain rfl : ops = hostOps1 := List.mem_singleton.mp hops
  exact Pipeline.sub_ucRefs op ((List.forall_iff_forall_mem.mp hostOps1_sub) op hop)

/-- None leaves a buffer at undetermined contents. -/
theorem host_fresh : ∀ ops ∈ ([hostOps1] : List (List (HloOp τ sig (Elt F)))), ∀ op ∈ ops, op.fresh = ∅ := by
  intro ops hops op hop
  obtain rfl : ops = hostOps1 := List.mem_singleton.mp hops
  simp only [hostOps1, List.mem_cons, List.mem_nil_iff, or_false] at hop
  rcases hop with rfl | rfl | rfl | rfl | rfl | rfl | rfl | rfl | rfl | rfl <;> rfl

/-- The buffer behind each window's array. -/
theorem arrRef_cases (w : Fin 8) : Pipeline.arrRef spec0 w = main_arg0 ∨ Pipeline.arrRef spec0 w = main_arg1 ∨ Pipeline.arrRef spec0 w = main_arg2
    ∨ Pipeline.arrRef spec0 w = main_v0_0 ∨ Pipeline.arrRef spec0 w = main_v0_1 ∨ Pipeline.arrRef spec0 w = main_v0_2 := by
  revert w; decide

/-- Each host line writes its own result, which is no window's array. -/
theorem host_keep : ∀ ops ∈ ([hostOps1] : List (List (HloOp τ sig (Elt F)))), ∀ op ∈ ops,
    ∀ w, Proc.devRef .tc (Pipeline.arrRef spec0 w) ∉ op.writes := by
  intro ops hops op hop w
  obtain rfl : ops = hostOps1 := List.mem_singleton.mp hops
  simp only [hostOps1, List.mem_cons, List.mem_nil_iff, or_false] at hop
  rcases hop with rfl | rfl | rfl | rfl | rfl | rfl | rfl | rfl | rfl | rfl <;>
    simp only [StableHlo.nullary_writes, StableHlo.unary_writes, StableHlo.binary_writes, StableHlo.reshape_writes, Finset.mem_singleton] <;>
    rcases arrRef_cases w with h | h | h | h | h | h <;> rw [h] <;> exact StableHlo.devRef_ne_of_ne (by decide)

/-! ## The arrays' buffers: x's buffer in thirds -/

section Shares

variable {c : Dev nD}

/-- A buffer's full share is its three thirds. -/
theorem thirds (ℓ : Loc nD τ sig) (f : Buf (Elt F) ℓ) :
    (ℓ ↦{fullShare} f : sProp 𝕄) ⊣⊢ iprop((ℓ ↦{fullShare.left} f) ∗ (ℓ ↦{fullShare.right.left} f) ∗ (ℓ ↦{fullShare.right.right} f)) := by
  refine ⟨?_, ?_⟩
  · iintro H
    ihave H := (pointsTo_share (PosShare.mem_left_op_right fullShare)).1 $$ H
    icases H with ⟨Hl, Hr⟩
    ihave Hr := (pointsTo_share (PosShare.mem_left_op_right fullShare.right)).1 $$ Hr
    icases Hr with ⟨Hrl, Hrr⟩
    isplitl [Hl]; · iexact Hl
    isplitl [Hrl] <;> iassumption
  · iintro ⟨Hl, Hrl, Hrr⟩
    iapply (pointsTo_share (PosShare.mem_left_op_right fullShare)).2
    isplitl [Hl]; · iexact Hl
    iapply (pointsTo_share (PosShare.mem_left_op_right fullShare.right)).2
    isplitl [Hrl] <;> iassumption

/-- The distinct buffers behind the windows' arrays, one by one. -/
theorem arrBufs_list (V : (b : Ref sig .tc) → Buf (Elt F) ((c.tc : Thread nD τ).loc b)) :
    (Pipeline.arrBufs spec0 c V : sProp 𝕄)
      = iprop((((c.tc : Thread nD τ).loc main_arg0) ↦{fullShare} V main_arg0) ∗ (((c.tc : Thread nD τ).loc main_arg1) ↦{fullShare} V main_arg1)
          ∗ (((c.tc : Thread nD τ).loc main_arg2) ↦{fullShare} V main_arg2) ∗ (((c.tc : Thread nD τ).loc main_v0_0) ↦{fullShare} V main_v0_0)
          ∗ (((c.tc : Thread nD τ).loc main_v0_1) ↦{fullShare} V main_v0_1) ∗ (((c.tc : Thread nD τ).loc main_v0_2) ↦{fullShare} V main_v0_2)) := by
  unfold Pipeline.arrBufs
  exact bigSep_eq_bigSepL_of_eq [main_arg0, main_arg1, main_arg2, main_v0_0, main_v0_1, main_v0_2] (by decide) (by decide) _

/-- The pipeline's arrays window by window, for proof data that give the three windows on x a third of its buffer
    each and every other input window its whole buffer. -/
theorem arrays_list (dat : Dat τ (Elt F) Unit ℕ (UR sig nD τ) ℕ cfg0 c)
    (h0 : dat.q 0 = fullShare.left) (h1 : dat.q 1 = fullShare.right.left) (h2 : dat.q 2 = fullShare.right.right)
    (h3 : dat.q 3 = fullShare) (h4 : dat.q 4 = fullShare)
    (G : (w : Fin cfg0.W) → Buf (Elt F) ((cfg0.win w).arr.view.loc (c.tc : Thread nD τ))) :
    (dat.arrays G : sProp 𝕄)
      = iprop((((c.tc : Thread nD τ).loc main_arg0) ↦{fullShare.left} G 0) ∗ (((c.tc : Thread nD τ).loc main_arg0) ↦{fullShare.right.left} G 1)
          ∗ (((c.tc : Thread nD τ).loc main_arg0) ↦{fullShare.right.right} G 2) ∗ (((c.tc : Thread nD τ).loc main_arg1) ↦{fullShare} G 3)
          ∗ (((c.tc : Thread nD τ).loc main_arg2) ↦{fullShare} G 4) ∗ (((c.tc : Thread nD τ).loc main_v0_0) ↦{fullShare} G 5)
          ∗ (((c.tc : Thread nD τ).loc main_v0_1) ↦{fullShare} G 6) ∗ (((c.tc : Thread nD τ).loc main_v0_2) ↦{fullShare} G 7)) := by
  have hs0 : dat.share 0 = fullShare.left := h0 ▸ rfl
  have hs1 : dat.share 1 = fullShare.right.left := h1 ▸ rfl
  have hs2 : dat.share 2 = fullShare.right.right := h2 ▸ rfl
  have hs3 : dat.share 3 = fullShare := h3 ▸ rfl
  have hs4 : dat.share 4 = fullShare := h4 ▸ rfl
  have hs5 : dat.share 5 = fullShare := rfl
  have hs6 : dat.share 6 = fullShare := rfl
  have hs7 : dat.share 7 = fullShare := rfl
  have hA : (dat.arrays G : sProp 𝕄)
      = bigSep Finset.univ fun w : Fin 8 => (((c.tc : Thread nD τ).loc (Pipeline.arrRef spec0 w)) ↦{dat.share w} G w : sProp 𝕄) := by
    unfold Dat.arrays
    exact bigSep_congr fun w _ => by rw [(arr_whole0 w).set_eq_univ]
  rw [hA, bigSep_W0, hs0, hs1, hs2, hs3, hs4, hs5, hs6, hs7]

/-- The buffers behind the arrays, whole, are the pipeline's arrays at the same contents, and back: x's buffer is
    split in thirds among its three windows, and the thirds, at one contents, join again. -/
theorem arrays_iff_bufs (dat : Dat τ (Elt F) Unit ℕ (UR sig nD τ) ℕ cfg0 c)
    (h0 : dat.q 0 = fullShare.left) (h1 : dat.q 1 = fullShare.right.left) (h2 : dat.q 2 = fullShare.right.right)
    (h3 : dat.q 3 = fullShare) (h4 : dat.q 4 = fullShare)
    (V : (b : Ref sig .tc) → Buf (Elt F) ((c.tc : Thread nD τ).loc b))
    (G : (w : Fin cfg0.W) → Buf (Elt F) ((cfg0.win w).arr.view.loc (c.tc : Thread nD τ)))
    (hG : ∀ w, G w = V (Pipeline.arrRef spec0 w)) :
    (Pipeline.arrBufs spec0 c V : sProp 𝕄) ⊣⊢ dat.arrays G := by
  have g0 : G 0 = V main_arg0 := hG 0
  have g1 : G 1 = V main_arg0 := hG 1
  have g2 : G 2 = V main_arg0 := hG 2
  have g3 : G 3 = V main_arg1 := hG 3
  have g4 : G 4 = V main_arg2 := hG 4
  have g5 : G 5 = V main_v0_0 := hG 5
  have g6 : G 6 = V main_v0_1 := hG 6
  have g7 : G 7 = V main_v0_2 := hG 7
  rw [arrBufs_list, arrays_list dat h0 h1 h2 h3 h4, g0, g1, g2, g3, g4, g5, g6, g7]
  refine ⟨?_, ?_⟩
  · iintro ⟨H0, H1, H2, H3, H4, H5⟩
    ihave H0 := (thirds _ _).1 $$ H0
    icases H0 with ⟨Ha, Hb, Hc⟩
    isplitl [Ha]; · iexact Ha
    isplitl [Hb]; · iexact Hb
    isplitl [Hc]; · iexact Hc
    isplitl [H1]; · iexact H1
    isplitl [H2]; · iexact H2
    isplitl [H3]; · iexact H3
    isplitl [H4] <;> iassumption
  · iintro ⟨Ha, Hb, Hc, H1, H2, H3, H4, H5⟩
    isplitl [Ha Hb Hc]
    · iapply (thirds _ _).2
      isplitl [Ha]; · iexact Ha
      isplitl [Hb] <;> iassumption
    isplitl [H1]; · iexact H1
    isplitl [H2]; · iexact H2
    isplitl [H3]; · iexact H3
    isplitl [H4] <;> iassumption

end Shares

variable (m : (ℓ : Loc nD τ sig) → Buf (Elt F) ℓ) (ρ : Dev nD → PrngReg)

/-- The buffers' contents when the region is left: the three result arrays at what the write-backs left, every
    other buffer as the region found it. -/
def VN (c : Dev nD) : Valuation τ sig (Elt F) :=
  Function.update (Function.update (Function.update (V0 m c)
    (Proc.devRef .tc main_v0_0) ((dats m 0 c).arrAt 5 cfg0.N))
    (Proc.devRef .tc main_v0_1) ((dats m 0 c).arrAt 6 cfg0.N))
    (Proc.devRef .tc main_v0_2) ((dats m 0 c).arrAt 7 cfg0.N)

theorem VN_res (c : Dev nD) : VN m c (Proc.devRef .tc main_v0_0) = (dats m 0 c).arrAt 5 cfg0.N := by
  unfold VN
  rw [Function.update_of_ne (StableHlo.devRef_ne_of_ne (by decide)), Function.update_of_ne (StableHlo.devRef_ne_of_ne (by decide)),
    Function.update_self]
theorem VN_sum (c : Dev nD) : VN m c (Proc.devRef .tc main_v0_1) = (dats m 0 c).arrAt 6 cfg0.N := by
  unfold VN
  rw [Function.update_of_ne (StableHlo.devRef_ne_of_ne (by decide)), Function.update_self]
theorem VN_max (c : Dev nD) : VN m c (Proc.devRef .tc main_v0_2) = (dats m 0 c).arrAt 7 cfg0.N := by
  unfold VN
  rw [Function.update_self]

/-- Off the three result arrays the exit valuation is the entry valuation. -/
theorem VN_of_ne (c : Dev nD) (b : Ref sig .tc) (h5 : b ≠ main_v0_0) (h6 : b ≠ main_v0_1) (h7 : b ≠ main_v0_2) :
    VN m c (Proc.devRef .tc b) = V0 m c (Proc.devRef .tc b) := by
  unfold VN
  rw [Function.update_of_ne (StableHlo.devRef_ne_of_ne h7), Function.update_of_ne (StableHlo.devRef_ne_of_ne h6),
    Function.update_of_ne (StableHlo.devRef_ne_of_ne h5)]

/-- In particular on every buffer that is no window's array. -/
theorem VN_rest (c : Dev nD) : ∀ b ∈ Pipeline.restRefs sig spec0, VN m c (Proc.devRef .tc b) = V0 m c (Proc.devRef .tc b) := by
  intro b hb
  have hnot : ∀ w : Fin 8, b ≠ Pipeline.arrRef spec0 w := fun w h =>
    (Finset.mem_sdiff.mp hb).2 (Finset.mem_image.mpr ⟨w, Finset.mem_univ _, h.symm⟩)
  exact VN_of_ne m c b (hnot 5) (hnot 6) (hnot 7)

/-- The arrays at the entry are the entry valuation's. -/
theorem arrAt_zero (c : Dev nD) (w : Fin 8) : (dats m 0 c).arrAt w 0 = V0 m c (Proc.devRef .tc (Pipeline.arrRef spec0 w)) :=
  A_eq m c w

/-- The arrays at the exit are the exit valuation's: an input's array is never written, a result's is where the exit
    valuation was changed. -/
theorem arrAt_last (c : Dev nD) : ∀ w : Fin 8, (dats m 0 c).arrAt w cfg0.N = VN m c (Proc.devRef .tc (Pipeline.arrRef spec0 w))
  | 0 => ((dats m 0 c).arrAt_in 0 rfl _).trans ((A_eq m c 0).trans (VN_of_ne m c main_arg0 (by decide) (by decide) (by decide)).symm)
  | 1 => ((dats m 0 c).arrAt_in 1 rfl _).trans ((A_eq m c 1).trans (VN_of_ne m c main_arg0 (by decide) (by decide) (by decide)).symm)
  | 2 => ((dats m 0 c).arrAt_in 2 rfl _).trans ((A_eq m c 2).trans (VN_of_ne m c main_arg0 (by decide) (by decide) (by decide)).symm)
  | 3 => ((dats m 0 c).arrAt_in 3 rfl _).trans ((A_eq m c 3).trans (VN_of_ne m c main_arg1 (by decide) (by decide) (by decide)).symm)
  | 4 => ((dats m 0 c).arrAt_in 4 rfl _).trans ((A_eq m c 4).trans (VN_of_ne m c main_arg2 (by decide) (by decide) (by decide)).symm)
  | 5 => (VN_res m c).symm
  | 6 => (VN_sum m c).symm
  | 7 => (VN_max m c).symm
  | ⟨_ + 8, h⟩ => absurd h (Nat.not_lt.2 (Nat.le_add_left _ _))

/-- At the entry x's whole buffer is split among its three windows. -/
theorem split_entry (c : Dev nD) :
    (Pipeline.arrBufs spec0 c (fun b => V0 m c (Proc.devRef .tc b)) : sProp 𝕄) ⊢ (dats m 0 c).arrays ((dats m 0 c).arrAt · 0) :=
  (arrays_iff_bufs (dats m 0 c) rfl rfl rfl rfl rfl (fun b => V0 m c (Proc.devRef .tc b)) _ (arrAt_zero m c)).1

/-- At the exit the thirds are joined, -/
theorem join_exit (c : Dev nD) :
    (dats m 0 c).arrays ((dats m 0 c).arrAt · cfg0.N) ⊢ (Pipeline.arrBufs spec0 c (fun b => VN m c (Proc.devRef .tc b)) : sProp 𝕄) :=
  (arrays_iff_bufs (dats m 0 c) rfl rfl rfl rfl rfl (fun b => VN m c (Proc.devRef .tc b)) _ (arrAt_last m c)).2

/-- and can be split again. -/
theorem split_exit (c : Dev nD) :
    (Pipeline.arrBufs spec0 c (fun b => VN m c (Proc.devRef .tc b)) : sProp 𝕄) ⊢ (dats m 0 c).arrays ((dats m 0 c).arrAt · cfg0.N) :=
  (arrays_iff_bufs (dats m 0 c) rfl rfl rfl rfl rfl (fun b => VN m c (Proc.devRef .tc b)) _ (arrAt_last m c)).1

set_option backward.isDefEq.respectTransparency.types false in
/-- Every weakly fair execution terminates; every window's array ends at the proof data's final contents and every
    other unscoped buffer at the host lines' fold over the exit valuation. -/
theorem run_main : θ_run defs (onTc (τ := τ) (main (F := F))) (s₀ m ρ) (Pipeline.SharedAroundPost cfgs (dats m) 0 (VN m) [hostOps1 (F := F)]) :=
  Pipeline.θ_run_frame_shared_around cfgs (dats m) (0 : Fin 1) cellOf_inj winFacts₀0 defs₀ Variants.none m ρ main
    (hbody := fun c => (body_obligation m c).loose) block_pos0 arr_whole0 stage_whole0 (howed := fun _ _ => rfl)
    (V₀ := V0 m) (VN := VN m) (opss := [hostOps1]) host_sub host_fresh host_keep (hmain m Variants.none)
    (hsplit := split_entry m) (hVN := VN_rest m) (hjoin := join_exit m) (hsplitN := split_exit m)
    (hin := fun c => .rfl) (hout := fun c => .rfl)

/-- The frame: the program runs and its three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats m 0 c).arrAt_in 0 rfl _).trans (A_eq m c 0)),
     ((h c).1 3).trans (((dats m 0 c).arrAt_in 3 rfl _).trans (A_eq m c 3)),
     ((h c).1 4).trans (((dats m 0 c).arrAt_in 4 rfl _).trans (A_eq m c 4))⟩) (run_main m ρ)

end Cert.KernelIdeal.St

end
-- ==== Proof.Spec.lean ====
/-
  The seven-point stencil with a squared-error sum and a largest absolute error, as functions of the three
  argument arrays over the extended reals.

  x and the target have shape [2, 256, 256, 256] (batch, h, w, z); the coefficients [2, 256, 256, 7].
  A neighbour outside the array counts as zero.  The result at (b, h, w, z) is
    x·c6 + west·c0 + east·c1 + south·c2 + north·c3 + bottom·c4 + top·c5
  with west / east the neighbours along w, south / north along h, bottom / top along z, and the
  coefficients read at (b, h, w, ·).  The error is the result minus the target; the loss is the sum of the
  squared errors over the whole array (from zero) divided by the element count 2^25, and the third result is the
  largest absolute error.
-/
import Idealize.ShloMosaic.PureOps.Ideal
import Idealize.ShloMosaic.Lib.ValueIdx

noncomputable section

open scoped BigOperators

namespace Cert.Spec

open Idealize.ShloMosaic Idealize.ShloMosaic.ValueIdx

/-- The shape of x, of the target and of the result. -/
abbrev SX : Shape := ⟨4, ![2, 256, 256, 256]⟩
/-- The shape of the coefficients. -/
abbrev SC : Shape := ⟨4, ![2, 256, 256, 7]⟩

variable (x : SX.Idx → EReal) (cf : SC.Idx → EReal) (rf : SX.Idx → EReal)

/-- x at coordinates. -/
abbrev xat (b : Fin 2) (h w z : Fin 256) : EReal := x (ix4 b h w z)
/-- Coefficient `k` at (b, h, w). -/
abbrev cat (b : Fin 2) (h w : Fin 256) (k : Fin 7) : EReal := cf (ix4 b h w k)

/-- The neighbour one step down an axis, zero at the lower edge. -/
def prev (f : Fin 256 → EReal) (k : Fin 256) : EReal := if h : k.val = 0 then 0 else f ⟨k.val - 1, by omega⟩
/-- The neighbour one step up an axis, zero at the upper edge. -/
def next (f : Fin 256 → EReal) (k : Fin 256) : EReal := if h : k.val = 255 then 0 else f ⟨k.val + 1, by omega⟩

/-- The stencil's result at coordinates, the terms in the order the kernel adds them. -/
def stencilAt (b : Fin 2) (h w z : Fin 256) : EReal :=
  xat x b h w z * cat cf b h w 6
    + prev (fun k => xat x b h k z) w * cat cf b h w 0
    + next (fun k => xat x b h k z) w * cat cf b h w 1
    + prev (fun k => xat x b k w z) h * cat cf b h w 2
    + next (fun k => xat x b k w z) h * cat cf b h w 3
    + prev (fun k => xat x b h w k) z * cat cf b h w 4
    + next (fun k => xat x b h w k) z * cat cf b h w 5

/-- The stencil's result as an array. -/
def out : SX.Idx → EReal := fun i => stencilAt x cf (i 0) (i 1) (i 2) (i 3)

/-- The error at coordinates. -/
def errAt (b : Fin 2) (h w z : Fin 256) : EReal := stencilAt x cf b h w z - rf (ix4 b h w z)

/-- The error as an array. -/
def err : SX.Idx → EReal := fun i => errAt x cf rf (i 0) (i 1) (i 2) (i 3)

/-- The sum of the squared errors over the whole array, from zero. -/
def sumSq : EReal := 0 + ∑ i : SX.Idx, err x cf rf i * err x cf rf i

/-- The loss: the sum of squares divided by the element count (the f32 word of 2^25). -/
def loss : EReal := Ideal.div (sumSq x cf rf) (Ideal.ofBits .f32 0x4C000000#32)

/-- The largest absolute error, from −∞. -/
def maxAbs : EReal := Finset.univ.fold max (Ideal.ofBits .f32 0xFF800000#32) (fun i : SX.Idx => max (err x cf rf i) (-(err x cf rf i)))

end Cert.Spec

end
-- ==== Proof.BlockSpec.lean ====
/-
  The stencil on the blocks of one row tile: eight rows `X` of x, the row `above` them and the row `below` them,
  the eight rows `C` of coefficients.  At the first tile of a batch there is no row above, at the last none
  below: the neighbour is zero there.  Inside the tile the h-neighbours are the tile's own rows.
-/
import proofs.«143429_j3083786518603_1_alg».proof.Proof.Spec

noncomputable section

namespace Cert.Spec

open Idealize.ShloMosaic Idealize.ShloMosaic.ValueIdx

/-- The row below row `r` of the tile in h-order (the "south" neighbour: h − 1). -/
def tileSouth (first : Prop) [Decidable first] (X : Fin 8 → Fin 256 → Fin 256 → EReal) (above : Fin 256 → Fin 256 → EReal)
    (r : Fin 8) (w z : Fin 256) : EReal :=
  if hr : r.val = 0 then (if first then 0 else above w z) else X ⟨r.val - 1, by omega⟩ w z

/-- The "north" neighbour: h + 1. -/
def tileNorth (last : Prop) [Decidable last] (X : Fin 8 → Fin 256 → Fin 256 → EReal) (below : Fin 256 → Fin 256 → EReal)
    (r : Fin 8) (w z : Fin 256) : EReal :=
  if hr : r.val = 7 then (if last then 0 else below w z) else X ⟨r.val + 1, by omega⟩ w z

/-- The stencil's result on one tile, the terms in the order the kernel adds them. -/
def blkStencil (first last : Prop) [Decidable first] [Decidable last] (X : Fin 8 → Fin 256 → Fin 256 → EReal)
    (above below : Fin 256 → Fin 256 → EReal) (C : Fin 8 → Fin 256 → Fin 7 → EReal) (r : Fin 8) (w z : Fin 256) : EReal :=
  X r w z * C r w 6
    + prev (fun k => X r k z) w * C r w 0
    + next (fun k => X r k z) w * C r w 1
    + tileSouth first X above r w z * C r w 2
    + tileNorth last X below r w z * C r w 3
    + prev (fun k => X r w k) z * C r w 4
    + next (fun k => X r w k) z * C r w 5

end Cert.Spec

end
-- ==== Proof.KI.PayloadOps.lean ====
/-
  The stencil body's single operations read at an index: the casts between a block [1, 8, 256, 256] and its
  eight rows [8, 256, 256], the rows cut from and joined to a tile, a roll along an axis with its edge mask,
  one coefficient column spread along z, and the sums and maxima over one axis.
-/
import proofs.«143429_j3083786518603_1_alg».proof.Proof.Gen.KernelIdeal.Skeleton
import proofs.«143429_j3083786518603_1_alg».proof.Proof.BlockSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.St

open Idealize.ShloMosaic Idealize.ShloMosaic.ValueIdx Cert.KernelIdeal Cert.KernelIdeal.Gen

/-! ## Words: a comparison of two small numbers -/

/-- Two numbers below 2^32 are equal exactly when their 32-bit words are. -/
theorem cmpi_eq_ofNat (n m : Nat) (hn : n < 2 ^ 32) (hm : m < 2 ^ 32) :
    IntOp.cmpi .eq (BitVec.ofNat 32 n) (BitVec.ofNat 32 m) = if n = m then 1#1 else 0#1 := by
  unfold IntOp.cmpi
  by_cases h : n = m
  · subst h; simp
  · rw [if_neg h]
    have hne : BitVec.ofNat 32 n ≠ BitVec.ofNat 32 m := fun e => h (by
      have := congrArg BitVec.toNat e
      simp only [BitVec.toNat_ofNat] at this
      omega)
    rw [beq_eq_false_iff_ne.mpr hne]
    rfl

/-- A select on the comparison of two small numbers is the `if` on their equality. -/
theorem select_cmpi_eq_ofNat {α : Type} (n m : Nat) (hn : n < 2 ^ 32) (hm : m < 2 ^ 32) (A B : α) :
    Scalar.select (IntOp.cmpi .eq (BitVec.ofNat 32 n) (BitVec.ofNat 32 m)) A B = if n = m then A else B := by
  rw [cmpi_eq_ofNat n m hn hm]
  by_cases h : n = m
  · rw [if_pos h, if_pos h]; exact select_one A B
  · rw [if_neg h, if_neg h]; exact select_zero A B

/-! ## Layout: casts, cuts, a column spread, a roll -/

section Layout
variable {α : Type}

/-- A rank-3 array cut along axis 0 from `o` reads, at `(j, b, e)`, the source at `(k, b, e)` with `k = o + j`. -/
theorem slice3_axis0_apply {n0 n1 n2 m : Nat} (o : Nat) (X : (⟨3, ![n0, n1, n2]⟩ : Shape).Idx → α)
    (h : (⟨3, ![n0, n1, n2]⟩ : Shape).Slices ![o, 0, 0] ⟨3, ![m, n1, n2]⟩)
    (j : Fin m) (b : Fin n1) (e : Fin n2) (k : Fin n0) (hk : k.val = o + j.val) :
    extractStridedSlice ⟨3, ![m, n1, n2]⟩ ![o, 0, 0] X h (ix3 j b e) = X (ix3 k b e) :=
  extractStridedSlice_apply _ _ _ _ _ (fun ax => by
    match ax with
    | ⟨0, _⟩ => exact hk
    | ⟨1, _⟩ => exact (Nat.zero_add _).symm
    | ⟨2, _⟩ => exact (Nat.zero_add _).symm)

/-- Column `o` of the coefficients, spread along z: at `(r, w, z)` it is the coefficient `(r, w, k)` with `k = o`. -/
theorem coeffCol_apply (o : Nat) (v : S8x256x7.Idx → α) (h : S8x256x7.Slices ![0, 0, o] S8x256x1)
    (hb : S8x256x1.Broadcasts S8x256x256) (r : Fin 8) (w z : Fin 256) (k : Fin 7) (hk : k.val = o) :
    broadcastTo S8x256x256 (extractStridedSlice S8x256x1 ![0, 0, o] v h) hb (ix3 r w z) = v (ix3 r w k) :=
  (broadcastTo_apply _ hb (ix3 r w z) (ix3 r w (0 : Fin 1)) (fun a => by
    match a with
    | ⟨0, _⟩ => rfl
    | ⟨1, _⟩ => rfl
    | ⟨2, _⟩ => rfl)).trans
  (extractStridedSlice_apply _ _ h _ _ (fun a => by
    match a with
    | ⟨0, _⟩ => exact (Nat.zero_add _).symm
    | ⟨1, _⟩ => exact (Nat.zero_add _).symm
    | ⟨2, _⟩ => exact hk.trans (Nat.add_zero _).symm))

/-- A roll along axis 1 (w) by the amount `sb`: at `(r, w, z)` it reads `(r, k, z)`, `k` being `w` moved back by the
    amount around the end. -/
theorem rollW_apply (sb : BitVec 32) (x : S8x256x256.Idx → α) (h : S8x256x256.Rotates 1 none) (r : Fin 8) (w z : Fin 256)
    (k : Fin 256) (hk : k.val = (w.val + 256 - sb.toNat % 256) % 256) :
    dynamicRotate 1 sb none x h (ix3 r w z) = x (ix3 r k z) := by
  unfold dynamicRotate
  refine congrArg x (funext fun b => ?_)
  match b with
  | ⟨0, _⟩ => rfl
  | ⟨1, _⟩ => exact Fin.ext hk.symm
  | ⟨2, _⟩ => rfl

/-- A roll along axis 2 (z) by the amount `sb`: at `(r, w, z)` it reads `(r, w, k)`. -/
theorem rollZ_apply (sb : BitVec 32) (x : S8x256x256.Idx → α) (h : S8x256x256.Rotates 2 none) (r : Fin 8) (w z : Fin 256)
    (k : Fin 256) (hk : k.val = (z.val + 256 - sb.toNat % 256) % 256) :
    dynamicRotate 2 sb none x h (ix3 r w z) = x (ix3 r w k) := by
  unfold dynamicRotate
  refine congrArg x (funext fun b => ?_)
  match b with
  | ⟨0, _⟩ => rfl
  | ⟨1, _⟩ => rfl
  | ⟨2, _⟩ => exact Fin.ext hk.symm

end Layout

/-! ## The blocks as rows, and the neighbours along w and z -/

section Rows
variable {F : FTy → Type} [FloatOps F]

/-- The x block (and the target block) viewed as eight rows: row `r` at `(w, z)` is the block at `(0, r, w, z)`. -/
theorem pay5_apply (x0 : Vec F S1x8x256x256 .f32) (r : Fin 8) (w z : Fin 256) :
    k0_pay5 x0 (ix3 r w z) = x0 (ix4 0 r w z) :=
  shapeCast_1abc_abc_apply x0 _ r w z

theorem pay7_apply (x4 : Vec F S1x8x256x256 .f32) (r : Fin 8) (w z : Fin 256) :
    k0_pay7 x4 (ix3 r w z) = x4 (ix4 0 r w z) :=
  shapeCast_1abc_abc_apply x4 _ r w z

/-- The coefficient block viewed as eight rows. -/
theorem pay6_apply (x3 : Vec F S1x8x256x7 .f32) (r : Fin 8) (w : Fin 256) (k : Fin 7) :
    k0_pay6 x3 (ix3 r w k) = x3 (ix4 0 r w k) :=
  shapeCast_1abc_abc_apply x3 _ r w k

end Rows

open Cert.Spec

/-- The zero row is zero everywhere. -/
theorem pay8_apply (j : S1x256x256.Idx) : k0_pay8 (F := Ideal) j = 0 := Ideal.ofBits_zero_f32

/-- The roll by 1 along w with the entry at w = 0 masked: the neighbour one step down w. -/
theorem west_apply (x : FVec Ideal S8x256x256 .f32) (hi : S8x256x256.Iotas .tc 32 [1]) (hr : S8x256x256.Rotates 1 none)
    (r : Fin 8) (w z : Fin 256) :
    select (cmpi .eq (iota .tc S8x256x256 32 [1] hi) (broadcast S8x256x256 0#32))
        (broadcast S8x256x256 (Scalar.ofBits (F := Ideal) .f32 0x00000000#32)) (dynamicRotate 1 1#32 none x hr) (ix3 r w z)
      = prev (fun k => x (ix3 r k z)) w := by
  have hw := w.isLt
  show Scalar.select (IntOp.cmpi .eq (iota .tc S8x256x256 32 [1] hi (ix3 r w z)) (BitVec.ofNat 32 0))
    (Scalar.ofBits (F := Ideal) .f32 0x00000000#32) (dynamicRotate 1 1#32 none x hr (ix3 r w z)) = _
  rw [iota_single_apply]
  show Scalar.select (IntOp.cmpi .eq (BitVec.ofNat 32 w.val) (BitVec.ofNat 32 0)) _ _ = _
  rw [select_cmpi_eq_ofNat w.val 0 (by omega) (by omega)]
  unfold prev
  by_cases h0 : w.val = 0
  · rw [if_pos h0, dif_pos h0]; exact Ideal.ofBits_zero_f32
  · rw [if_neg h0, dif_neg h0]
    exact rollW_apply 1#32 x hr r w z ⟨w.val - 1, by omega⟩ (by show w.val - 1 = (w.val + 256 - 1 % 256) % 256; omega)

/-- The roll by 255 along w with the entry at w = 255 masked: the neighbour one step up w. -/
theorem east_apply (x : FVec Ideal S8x256x256 .f32) (hi : S8x256x256.Iotas .tc 32 [1]) (hr : S8x256x256.Rotates 1 none)
    (r : Fin 8) (w z : Fin 256) :
    select (cmpi .eq (iota .tc S8x256x256 32 [1] hi) (broadcast S8x256x256 255#32))
        (broadcast S8x256x256 (Scalar.ofBits (F := Ideal) .f32 0x00000000#32)) (dynamicRotate 1 255#32 none x hr) (ix3 r w z)
      = next (fun k => x (ix3 r k z)) w := by
  have hw := w.isLt
  show Scalar.select (IntOp.cmpi .eq (iota .tc S8x256x256 32 [1] hi (ix3 r w z)) (BitVec.ofNat 32 255))
    (Scalar.ofBits (F := Ideal) .f32 0x00000000#32) (dynamicRotate 1 255#32 none x hr (ix3 r w z)) = _
  rw [iota_single_apply]
  show Scalar.select (IntOp.cmpi .eq (BitVec.ofNat 32 w.val) (BitVec.ofNat 32 255)) _ _ = _
  rw [select_cmpi_eq_ofNat w.val 255 (by omega) (by omega)]
  unfold next
  by_cases h0 : w.val = 255
  · rw [if_pos h0, dif_pos h0]; exact Ideal.ofBits_zero_f32
  · rw [if_neg h0, dif_neg h0]
    exact rollW_apply 255#32 x hr r w z ⟨w.val + 1, by omega⟩ (by show w.val + 1 = (w.val + 256 - 255 % 256) % 256; omega)

/-- The roll by 1 along z with the entry at z = 0 masked: the neighbour one step down z. -/
theorem bottom_apply (x : FVec Ideal S8x256x256 .f32) (hi : S8x256x256.Iotas .tc 32 [2]) (hr : S8x256x256.Rotates 2 none)
    (r : Fin 8) (w z : Fin 256) :
    select (cmpi .eq (iota .tc S8x256x256 32 [2] hi) (broadcast S8x256x256 0#32))
        (broadcast S8x256x256 (Scalar.ofBits (F := Ideal) .f32 0x00000000#32)) (dynamicRotate 2 1#32 none x hr) (ix3 r w z)
      = prev (fun k => x (ix3 r w k)) z := by
  have hz := z.isLt
  show Scalar.select (IntOp.cmpi .eq (iota .tc S8x256x256 32 [2] hi (ix3 r w z)) (BitVec.ofNat 32 0))
    (Scalar.ofBits (F := Ideal) .f32 0x00000000#32) (dynamicRotate 2 1#32 none x hr (ix3 r w z)) = _
  rw [iota_single_apply]
  show Scalar.select (IntOp.cmpi .eq (BitVec.ofNat 32 z.val) (BitVec.ofNat 32 0)) _ _ = _
  rw [select_cmpi_eq_ofNat z.val 0 (by omega) (by omega)]
  unfold prev
  by_cases h0 : z.val = 0
  · rw [if_pos h0, dif_pos h0]; exact Ideal.ofBits_zero_f32
  · rw [if_neg h0, dif_neg h0]
    exact rollZ_apply 1#32 x hr r w z ⟨z.val - 1, by omega⟩ (by show z.val - 1 = (z.val + 256 - 1 % 256) % 256; omega)

/-- The roll by 255 along z with the entry at z = 255 masked: the neighbour one step up z. -/
theorem top_apply (x : FVec Ideal S8x256x256 .f32) (hi : S8x256x256.Iotas .tc 32 [2]) (hr : S8x256x256.Rotates 2 none)
    (r : Fin 8) (w z : Fin 256) :
    select (cmpi .eq (iota .tc S8x256x256 32 [2] hi) (broadcast S8x256x256 255#32))
        (broadcast S8x256x256 (Scalar.ofBits (F := Ideal) .f32 0x00000000#32)) (dynamicRotate 2 255#32 none x hr) (ix3 r w z)
      = next (fun k => x (ix3 r w k)) z := by
  have hz := z.isLt
  show Scalar.select (IntOp.cmpi .eq (iota .tc S8x256x256 32 [2] hi (ix3 r w z)) (BitVec.ofNat 32 255))
    (Scalar.ofBits (F := Ideal) .f32 0x00000000#32) (dynamicRotate 2 255#32 none x hr (ix3 r w z)) = _
  rw [iota_single_apply]
  show Scalar.select (IntOp.cmpi .eq (BitVec.ofNat 32 z.val) (BitVec.ofNat 32 255)) _ _ = _
  rw [select_cmpi_eq_ofNat z.val 255 (by omega) (by omega)]
  unfold next
  by_cases h0 : z.val = 255
  · rw [if_pos h0, dif_pos h0]; exact Ideal.ofBits_zero_f32
  · rw [if_neg h0, dif_neg h0]
    exact rollZ_apply 255#32 x hr r w z ⟨z.val + 1, by omega⟩ (by show z.val + 1 = (z.val + 256 - 255 % 256) % 256; omega)

/-! ## The neighbours along h: a row joined in front of, or behind, seven of the tile's rows -/

/-- The row above joined in front of rows 0..6: at row `r` the tile's row `r − 1`, and at row 0 the row above the tile, or
    zero at a batch's first tile. -/
theorem pay9_apply (i : grid0.Coords) (x0 : Vec Ideal S1x8x256x256 .f32) (x1 : Vec Ideal S1x1x256x256 .f32)
    (r : Fin 8) (w z : Fin 256) :
    k0_pay9 (F := Ideal) i x0 x1 (ix3 r w z)
      = tileSouth ((i 1).val = 0) (fun r w z => x0 (ix4 0 r w z)) (fun w z => x1 (ix4 0 0 w z)) r w z := by
  have h32 : (i 1).val < 32 := (i 1).isLt
  have hr8 := r.isLt
  unfold tileSouth
  by_cases hr : r.val = 0
  · rw [dif_pos hr]
    refine (concatenate_pair_apply_left (t := S8x256x256) (s₁ := S1x256x256) (s₂ := S7x256x256) 0 _ _
      concatenates_S1x256x256_S7x256x256_S8x256x256_d0 (ix3 r w z) rfl
      (ix3 (0 : Fin 1) w z) (fun b => by
        match b with
        | ⟨0, _⟩ => exact hr.symm
        | ⟨1, _⟩ => rfl
        | ⟨2, _⟩ => rfl)).trans ?_
    show Scalar.select (IntOp.cmpi .eq (BitVec.ofNat 32 (i 1).val) (BitVec.ofNat 32 0)) (k0_pay8 (F := Ideal))
      (shapeCast S1x256x256 x1 shapeCasts_S1x1x256x256_S1x256x256) (ix3 (0 : Fin 1) w z) = _
    rw [select_cmpi_eq_ofNat (i 1).val 0 (by omega) (by omega)]
    by_cases hi : (i 1).val = 0
    · rw [if_pos hi, if_pos hi]; exact Ideal.ofBits_zero_f32
    · rw [if_neg hi, if_neg hi]; exact shapeCast_1abc_abc_apply x1 _ (0 : Fin 1) w z
  · rw [dif_neg hr]
    refine (concatenate_pair_apply_right (t := S8x256x256) (s₁ := S1x256x256) (s₂ := S7x256x256) 0 _ _
      concatenates_S1x256x256_S7x256x256_S8x256x256_d0 (ix3 r w z) rfl rfl
      (ix3 (⟨r.val - 1, by omega⟩ : Fin 7) w z) (fun b hb => by
        match b, hb with
        | ⟨0, _⟩, hb => exact absurd rfl hb
        | ⟨1, _⟩, _ => rfl
        | ⟨2, _⟩, _ => rfl) (by show r.val - 1 + 1 = r.val; omega)).trans ?_
    refine (slice3_axis0_apply 0 _ slices_S8x256x256_o0_0_0_S7x256x256 ⟨r.val - 1, by omega⟩ w z ⟨r.val - 1, by omega⟩
      (by show r.val - 1 = 0 + (r.val - 1); omega)).trans ?_
    exact pay5_apply x0 _ w z

/-- Rows 1..7 with the row below joined behind: at row `r` the tile's row `r + 1`, and at row 7 the row below the tile, or
    zero at a batch's last tile. -/
theorem pay10_apply (i : grid0.Coords) (x0 : Vec Ideal S1x8x256x256 .f32) (x2 : Vec Ideal S1x1x256x256 .f32)
    (r : Fin 8) (w z : Fin 256) :
    k0_pay10 (F := Ideal) i x0 x2 (ix3 r w z)
      = tileNorth ((i 1).val = 31) (fun r w z => x0 (ix4 0 r w z)) (fun w z => x2 (ix4 0 0 w z)) r w z := by
  have h32 : (i 1).val < 32 := (i 1).isLt
  have hr8 := r.isLt
  unfold tileNorth
  by_cases hr : r.val = 7
  · rw [dif_pos hr]
    refine (concatenate_pair_apply_right (t := S8x256x256) (s₁ := S7x256x256) (s₂ := S1x256x256) 0 _ _
      concatenates_S7x256x256_S1x256x256_S8x256x256_d0 (ix3 r w z) rfl rfl
      (ix3 (0 : Fin 1) w z) (fun b hb => by
        match b, hb with
        | ⟨0, _⟩, hb => exact absurd rfl hb
        | ⟨1, _⟩, _ => rfl
        | ⟨2, _⟩, _ => rfl) (by show 0 + 7 = r.val; omega)).trans ?_
    show Scalar.select (IntOp.cmpi .eq (BitVec.ofNat 32 (i 1).val) (BitVec.ofNat 32 31)) (k0_pay8 (F := Ideal))
      (shapeCast S1x256x256 x2 shapeCasts_S1x1x256x256_S1x256x256) (ix3 (0 : Fin 1) w z) = _
    rw [select_cmpi_eq_ofNat (i 1).val 31 (by omega) (by omega)]
    by_cases hi : (i 1).val = 31
    · rw [if_pos hi, if_pos hi]; exact Ideal.ofBits_zero_f32
    · rw [if_neg hi, if_neg hi]; exact shapeCast_1abc_abc_apply x2 _ (0 : Fin 1) w z
  · rw [dif_neg hr]
    refine (concatenate_pair_apply_left (t := S8x256x256) (s₁ := S7x256x256) (s₂ := S1x256x256) 0 _ _
      concatenates_S7x256x256_S1x256x256_S8x256x256_d0 (ix3 r w z) rfl
      (ix3 (⟨r.val, by omega⟩ : Fin 7) w z) (fun b => by
        match b with
        | ⟨0, _⟩ => rfl
        | ⟨1, _⟩ => rfl
        | ⟨2, _⟩ => rfl)).trans ?_
    refine (slice3_axis0_apply 1 _ slices_S8x256x256_o1_0_0_S7x256x256 ⟨r.val, by omega⟩ w z ⟨r.val + 1, by omega⟩
      (by show r.val + 1 = 1 + r.val; omega)).trans ?_
    exact pay5_apply x0 _ w z

/-- The masked roll by 1 along w of the tile's rows. -/
theorem pay11_apply (x0 : Vec Ideal S1x8x256x256 .f32) (r : Fin 8) (w z : Fin 256) :
    k0_pay11 (F := Ideal) x0 (ix3 r w z) = prev (fun k => x0 (ix4 0 r k z)) w := by
  refine (west_apply (k0_pay5 x0) iota_S8x256x256_d1_w32 rotates_S8x256x256_d1 r w z).trans ?_
  exact congrArg (fun f => prev f w) (funext fun k => pay5_apply x0 r k z)

/-! ## The weighted sum of the seven terms -/

/-- The stencil's sum at `(r, w, z)`: the centre and its six neighbours, each times its coefficient column, in the order
    the body adds them. The neighbours along h and the one down w come in as given arrays. -/
theorem pay12_apply (v4 : FVec Ideal S8x256x256 .f32) (v10 : FVec Ideal S8x256x7 .f32) (v19 v21 v27 : FVec Ideal S8x256x256 .f32)
    (r : Fin 8) (w z : Fin 256) :
    k0_pay12 (F := Ideal) v4 v10 v19 v21 (iota .tc S8x256x256 32 [1] iota_S8x256x256_d1_w32) v27 255#32 (ix3 r w z)
      = v4 (ix3 r w z) * v10 (ix3 r w 6)
        + v27 (ix3 r w z) * v10 (ix3 r w 0)
        + next (fun k => v4 (ix3 r k z)) w * v10 (ix3 r w 1)
        + v19 (ix3 r w z) * v10 (ix3 r w 2)
        + v21 (ix3 r w z) * v10 (ix3 r w 3)
        + prev (fun k => v4 (ix3 r w k)) z * v10 (ix3 r w 4)
        + next (fun k => v4 (ix3 r w k)) z * v10 (ix3 r w 5) := by
  have e0 := coeffCol_apply 0 v10 slices_S8x256x7_o0_0_0_S8x256x1 broadcasts_S8x256x1_S8x256x256 r w z 0 rfl
  have e1 := coeffCol_apply 1 v10 slices_S8x256x7_o0_0_1_S8x256x1 broadcasts_S8x256x1_S8x256x256 r w z 1 rfl
  have e2 := coeffCol_apply 2 v10 slices_S8x256x7_o0_0_2_S8x256x1 broadcasts_S8x256x1_S8x256x256 r w z 2 rfl
  have e3 := coeffCol_apply 3 v10 slices_S8x256x7_o0_0_3_S8x256x1 broadcasts_S8x256x1_S8x256x256 r w z 3 rfl
  have e4 := coeffCol_apply 4 v10 slices_S8x256x7_o0_0_4_S8x256x1 broadcasts_S8x256x1_S8x256x256 r w z 4 rfl
  have e5 := coeffCol_apply 5 v10 slices_S8x256x7_o0_0_5_S8x256x1 broadcasts_S8x256x1_S8x256x256 r w z 5 rfl
  have e6 := coeffCol_apply 6 v10 slices_S8x256x7_o0_0_6_S8x256x1 broadcasts_S8x256x1_S8x256x256 r w z 6 rfl
  have hE := east_apply v4 iota_S8x256x256_d1_w32 rotates_S8x256x256_d1 r w z
  have hB := bottom_apply v4 iota_S8x256x256_d2_w32 rotates_S8x256x256_d2 r w z
  have hT := top_apply v4 iota_S8x256x256_d2_w32 rotates_S8x256x256_d2 r w z
  rw [← e0, ← e1, ← e2, ← e3, ← e4, ← e5, ← e6, ← hE, ← hB, ← hT]
  rfl

/-! ## The sums and the maxima over a tile, one axis at a time -/

section Reduce
variable {α : Type}

/-- The entry at position (0, 0) of a one-entry array. -/
theorem extractAt_00 (f : S1x1.Idx → α) (h : ∀ a, (![0, 0] : Fin 2 → Nat) a < S1x1.size a) :
    extractAt ![0, 0] f h = f (ix2 (0 : Fin 1) (0 : Fin 1)) :=
  congrArg f (funext fun a => match a with | ⟨0, _⟩ => rfl | ⟨1, _⟩ => rfl)

end Reduce

/-- The sum over z. -/
theorem sumZ_apply (v : FVec Ideal S8x256x256 .f32) (r : Fin 8) (w : Fin 256) :
    multiReduction .add [2] S8x256 v 0x00000000#32 reduces_S8x256x256_S8x256 (.inl rfl) rfl (ix2 r w)
      = ∑ z : Fin 256, v (ix3 r w z) :=
  (Ideal.multiReduction_add_single v _ reduces_S8x256x256_S8x256 _ _ (ix2 r w)).trans
    (Finset.sum_congr rfl fun z _ => congrArg v (funext fun c =>
      match c with | ⟨0, _⟩ => Fin.ext rfl | ⟨1, _⟩ => Fin.ext rfl | ⟨2, _⟩ => Fin.ext rfl))

/-- The sum over w. -/
theorem sumW_apply (v : FVec Ideal S8x256 .f32) (r : Fin 8) :
    multiReduction .add [1] S8 v 0x00000000#32 reduces_S8x256_S8 (.inl rfl) rfl (ix1 r) = ∑ w : Fin 256, v (ix2 r w) :=
  (Ideal.multiReduction_add_single v _ reduces_S8x256_S8 _ _ (ix1 r)).trans
    (Finset.sum_congr rfl fun w _ => congrArg v (funext fun c =>
      match c with | ⟨0, _⟩ => Fin.ext rfl | ⟨1, _⟩ => Fin.ext rfl))

/-- The sum over the eight rows. -/
theorem sumR_apply (v : FVec Ideal S1x8 .f32) :
    multiReduction .add [1] S1 v 0x00000000#32 reduces_S1x8_S1 (.inl rfl) rfl (ix1 (0 : Fin 1)) = ∑ r : Fin 8, v (ix2 (0 : Fin 1) r) :=
  (Ideal.multiReduction_add_single v _ reduces_S1x8_S1 _ _ (ix1 (0 : Fin 1))).trans
    (Finset.sum_congr rfl fun r _ => congrArg v (funext fun c =>
      match c with | ⟨0, _⟩ => Fin.ext rfl | ⟨1, _⟩ => Fin.ext rfl))

/-- The three sums in a row, with the casts between them: the sum over the whole tile. -/
theorem tileSum_apply (v : FVec Ideal S8x256x256 .f32) :
    extractAt ![0, 0]
        (shapeCast S1x1
          (multiReduction .add [1] S1
            (shapeCast S1x8
              (multiReduction .add [1] S8
                (multiReduction .add [2] S8x256 v 0x00000000#32 reduces_S8x256x256_S8x256 (.inl rfl) rfl)
                0x00000000#32 reduces_S8x256_S8 (.inl rfl) rfl)
              shapeCasts_S8_S1x8)
            0x00000000#32 reduces_S1x8_S1 (.inl rfl) rfl)
          shapeCasts_S1_S1x1)
        inpos_S1x1_p0_0
      = ∑ r : Fin 8, ∑ w : Fin 256, ∑ z : Fin 256, v (ix3 r w z) := by
  refine (extractAt_00 _ _).trans ?_
  refine (shapeCast_a_1a_apply _ shapeCasts_S1_S1x1 (0 : Fin 1) (0 : Fin 1)).trans ?_
  refine (sumR_apply _).trans (Finset.sum_congr rfl fun r _ => ?_)
  refine (shapeCast_a_1a_apply _ shapeCasts_S8_S1x8 (0 : Fin 1) r).trans ?_
  refine (sumW_apply _ r).trans (Finset.sum_congr rfl fun w _ => ?_)
  exact sumZ_apply v r w

/-- The maximum over z, from −∞. -/
theorem maxZ_apply (v : FVec Ideal S8x256x256 .f32) (r : Fin 8) (w : Fin 256) :
    multiReduction .maximumf [2] S8x256 v 0xFF800000#32 reduces_S8x256x256_S8x256 (.inl rfl) rfl (ix2 r w)
      = Finset.univ.fold max (Ideal.ofBits .f32 0xFF800000#32) fun z : Fin 256 => v (ix3 r w z) :=
  (Ideal.multiReduction_maximumf_single v _ reduces_S8x256x256_S8x256 _ _ (ix2 r w)).trans
    (congrArg (fun f => Finset.univ.fold max (Ideal.ofBits .f32 0xFF800000#32) f) (funext fun z => congrArg v (funext fun c =>
      match c with | ⟨0, _⟩ => Fin.ext rfl | ⟨1, _⟩ => Fin.ext rfl | ⟨2, _⟩ => Fin.ext rfl)))

/-- The maximum over w. -/
theorem maxW_apply (v : FVec Ideal S8x256 .f32) (r : Fin 8) :
    multiReduction .maximumf [1] S8 v 0xFF800000#32 reduces_S8x256_S8 (.inl rfl) rfl (ix1 r)
      = Finset.univ.fold max (Ideal.ofBits .f32 0xFF800000#32) fun w : Fin 256 => v (ix2 r w) :=
  (Ideal.multiReduction_maximumf_single v _ reduces_S8x256_S8 _ _ (ix1 r)).trans
    (congrArg (fun f => Finset.univ.fold max (Ideal.ofBits .f32 0xFF800000#32) f) (funext fun w => congrArg v (funext fun c =>
      match c with | ⟨0, _⟩ => Fin.ext rfl | ⟨1, _⟩ => Fin.ext rfl)))

/-- The maximum over the eight rows. -/
theorem maxR_apply (v : FVec Ideal S1x8 .f32) :
    multiReduction .maximumf [1] S1 v 0xFF800000#32 reduces_S1x8_S1 (.inl rfl) rfl (ix1 (0 : Fin 1))
      = Finset.univ.fold max (Ideal.ofBits .f32 0xFF800000#32) fun r : Fin 8 => v (ix2 (0 : Fin 1) r) :=
  (Ideal.multiReduction_maximumf_single v _ reduces_S1x8_S1 _ _ (ix1 (0 : Fin 1))).trans
    (congrArg (fun f => Finset.univ.fold max (Ideal.ofBits .f32 0xFF800000#32) f) (funext fun r => congrArg v (funext fun c =>
      match c with | ⟨0, _⟩ => Fin.ext rfl | ⟨1, _⟩ => Fin.ext rfl)))

/-- The three maxima in a row, with the casts between them: the largest entry of the whole tile. -/
theorem tileMax_apply (v : FVec Ideal S8x256x256 .f32) :
    extractAt ![0, 0]
        (shapeCast S1x1
          (multiReduction .maximumf [1] S1
            (shapeCast S1x8
              (multiReduction .maximumf [1] S8
                (multiReduction .maximumf [2] S8x256 v 0xFF800000#32 reduces_S8x256x256_S8x256 (.inl rfl) rfl)
                0xFF800000#32 reduces_S8x256_S8 (.inl rfl) rfl)
              shapeCasts_S8_S1x8)
            0xFF800000#32 reduces_S1x8_S1 (.inl rfl) rfl)
          shapeCasts_S1_S1x1)
        inpos_S1x1_p0_0
      = Finset.univ.fold max (Ideal.ofBits .f32 0xFF800000#32) fun r : Fin 8 =>
          Finset.univ.fold max (Ideal.ofBits .f32 0xFF800000#32) fun w : Fin 256 =>
            Finset.univ.fold max (Ideal.ofBits .f32 0xFF800000#32) fun z : Fin 256 => v (ix3 r w z) := by
  refine (extractAt_00 _ _).trans ?_
  refine (shapeCast_a_1a_apply _ shapeCasts_S1_S1x1 (0 : Fin 1) (0 : Fin 1)).trans ?_
  refine (maxR_apply _).trans (congrArg (fun f => Finset.univ.fold max (Ideal.ofBits .f32 0xFF800000#32) f) (funext fun r => ?_))
  refine (shapeCast_a_1a_apply _ shapeCasts_S8_S1x8 (0 : Fin 1) r).trans ?_
  refine (maxW_apply _ r).trans (congrArg (fun f => Finset.univ.fold max (Ideal.ofBits .f32 0xFF800000#32) f) (funext fun w => ?_))
  exact maxZ_apply v r w

end Cert.KernelIdeal.St

end
-- ==== Proof.KI.Payload.lean ====
/-
  The stencil body's arithmetic read at an index, over the extended reals: the result block, the error block,
  and the two accumulator updates, as functions of the five input blocks and of the row tile's number.
-/
import proofs.«143429_j3083786518603_1_alg».proof.Proof.Gen.KernelIdeal.Skeleton
import proofs.«143429_j3083786518603_1_alg».proof.Proof.BlockSpec
import proofs.«143429_j3083786518603_1_alg».proof.Proof.KI.PayloadOps
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.St

open Idealize.ShloMosaic Idealize.ShloMosaic.ValueIdx Cert.KernelIdeal Cert.KernelIdeal.Gen

variable {F : FTy → Type} [FloatOps F]

/-- The result block the body stores, from its input blocks (x rows, row above, row below, coefficients). -/
abbrev outVec (i : grid0.Coords) (x0 : Vec F S1x8x256x256 .f32) (x1 x2 : Vec F S1x1x256x256 .f32) (x3 : Vec F S1x8x256x7 .f32) : FVec F S1x8x256x256 .f32 :=
  k0_pay13 (k0_pay5 x0) (k0_pay6 x3) (k0_pay9 i x0 x1) (k0_pay10 i x0 x2) (iota .tc S8x256x256 32 [1] iota_S8x256x256_d1_w32) (k0_pay11 x0) 255#32

/-- The error block: the result minus the target block. -/
abbrev errVec (i : grid0.Coords) (x0 : Vec F S1x8x256x256 .f32) (x1 x2 : Vec F S1x1x256x256 .f32) (x3 : Vec F S1x8x256x7 .f32) (x4 : Vec F S1x8x256x256 .f32) : FVec F S8x256x256 .f32 :=
  k0_pay14 (k0_pay5 x0) (k0_pay6 x3) (k0_pay7 x4) (k0_pay9 i x0 x1) (k0_pay10 i x0 x2) (iota .tc S8x256x256 32 [1] iota_S8x256x256_d1_w32) (k0_pay11 x0) 255#32

/-- The tile's stencil over the blocks' entries. -/
abbrev blkOf (i : grid0.Coords) (x0 : Vec Ideal S1x8x256x256 .f32) (x1 x2 : Vec Ideal S1x1x256x256 .f32) (x3 : Vec Ideal S1x8x256x7 .f32)
    (r : Fin 8) (w z : Fin 256) : EReal :=
  Cert.Spec.blkStencil ((i 1).val = 0) ((i 1).val = 31) (fun r w z => x0 (ix4 0 r w z)) (fun w z => x1 (ix4 0 0 w z)) (fun w z => x2 (ix4 0 0 w z))
    (fun r w k => x3 (ix4 0 r w k)) r w z

/-- The weighted sum over the body's own arrays — the tile's rows, its rows moved along h, its rows rolled along w — is
    the tile's stencil over the blocks' entries. -/
theorem stencil_apply (i : grid0.Coords) (x0 : Vec Ideal S1x8x256x256 .f32) (x1 x2 : Vec Ideal S1x1x256x256 .f32) (x3 : Vec Ideal S1x8x256x7 .f32)
    (r : Fin 8) (w z : Fin 256) :
    k0_pay12 (F := Ideal) (k0_pay5 x0) (k0_pay6 x3) (k0_pay9 i x0 x1) (k0_pay10 i x0 x2)
        (iota .tc S8x256x256 32 [1] iota_S8x256x256_d1_w32) (k0_pay11 x0) 255#32 (ix3 r w z)
      = blkOf i x0 x1 x2 x3 r w z := by
  refine (pay12_apply _ _ _ _ _ r w z).trans ?_
  simp only [pay5_apply, pay6_apply, pay9_apply, pay10_apply, pay11_apply]
  rfl

/-- The stored result block at (r, w, z) is the tile's stencil there. -/
theorem outVec_apply (i : grid0.Coords) (x0 : Vec Ideal S1x8x256x256 .f32) (x1 x2 : Vec Ideal S1x1x256x256 .f32) (x3 : Vec Ideal S1x8x256x7 .f32)
    (r : Fin 8) (w z : Fin 256) :
    outVec (F := Ideal) i x0 x1 x2 x3 (ix4 0 r w z) = blkOf i x0 x1 x2 x3 r w z :=
  (shapeCast_abc_1abc_apply _ shapeCasts_S8x256x256_S1x8x256x256 (0 : Fin 1) r w z).trans (stencil_apply i x0 x1 x2 x3 r w z)

/-- The error block at (r, w, z) is the tile's stencil minus the target there. -/
theorem errVec_apply (i : grid0.Coords) (x0 : Vec Ideal S1x8x256x256 .f32) (x1 x2 : Vec Ideal S1x1x256x256 .f32) (x3 : Vec Ideal S1x8x256x7 .f32)
    (x4 : Vec Ideal S1x8x256x256 .f32) (r : Fin 8) (w z : Fin 256) :
    errVec (F := Ideal) i x0 x1 x2 x3 x4 (ix3 r w z) = blkOf i x0 x1 x2 x3 r w z - x4 (ix4 0 r w z) :=
  congrArg₂ (· - ·) (stencil_apply i x0 x1 x2 x3 r w z) (pay7_apply x4 r w z)

/-- The sum accumulator's update: every entry grows by the sum of the squared errors of the tile. -/
theorem pay1_apply (e : FVec Ideal S8x256x256 .f32) (s : Vec Ideal S1x8x128 .f32) (j : S1x8x128.Idx) :
    k0_pay1 (F := Ideal) e s j = s j + ∑ r : Fin 8, ∑ w : Fin 256, ∑ z : Fin 256, e (ix3 r w z) * e (ix3 r w z) := by
  unfold k0_pay1
  refine (addf_apply _ _ j).trans ?_
  refine congrArg₂ (· + ·) (congrFun (shapeCast_self s shapeCasts_S1x8x128_S1x8x128) j) ?_
  refine (broadcast_apply _ j).trans ?_
  exact tileSum_apply (mulf e e)

/-- The maximum accumulator's update: every entry rises to the largest absolute error of the tile. -/
theorem pay2_apply (e : FVec Ideal S8x256x256 .f32) (s : Vec Ideal S1x8x128 .f32) (j : S1x8x128.Idx) :
    k0_pay2 (F := Ideal) e s j = max (s j) (Finset.univ.fold max (Ideal.ofBits .f32 0xFF800000#32) fun r : Fin 8 =>
      Finset.univ.fold max (Ideal.ofBits .f32 0xFF800000#32) fun w : Fin 256 =>
        Finset.univ.fold max (Ideal.ofBits .f32 0xFF800000#32) fun z : Fin 256 => max (e (ix3 r w z)) (-(e (ix3 r w z)))) := by
  unfold k0_pay2
  refine (maximumf_apply _ _ j).trans ?_
  refine congrArg₂ max (congrFun (shapeCast_self s shapeCasts_S1x8x128_S1x8x128) j) ?_
  refine (broadcast_apply _ j).trans ?_
  exact tileMax_apply (absf e)

/-- The reset values are zero. -/
theorem pay3_apply (j : S1x8x128.Idx) : k0_pay3 (F := Ideal) j = 0 := Ideal.ofBits_zero_f32
theorem pay4_apply (j : S1x8x128.Idx) : k0_pay4 (F := Ideal) j = 0 := Ideal.ofBits_zero_f32

end Cert.KernelIdeal.St

end
-- ==== Proof.KI.Pieces.lean ====
/-
  What the two runs leave in the outputs' staging buffers, as values: the result block is the stored stencil
  block of the point's input blocks; at a first row tile the accumulators are the update of the zero block, at a
  later one the update of what they held.
-/
import proofs.«143429_j3083786518603_1_alg».proof.Proof.KI.Data
import proofs.«143429_j3083786518603_1_alg».proof.Proof.KI.Payload

set_option maxRecDepth 16384

noncomputable section

namespace Cert.KernelIdeal.St

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz4 : (![0, 0, 0, 0] : Fin 4 → Nat) = fun _ => 0 := funext fun a => by fin_cases a <;> rfl
theorem hz3 : (![0, 0, 0] : Fin 3 → Nat) = fun _ => 0 := funext fun a => by fin_cases a <;> rfl

section Runs

variable (c : Dev nD) (i : grid0.Coords)
    (a0 : Memref sig .tc .vmem S1x8x256x256 .f32) (h0 : a0.IsWhole) (a1 : Memref sig .tc .vmem S1x1x256x256 .f32) (h1 : a1.IsWhole)
    (a2 : Memref sig .tc .vmem S1x1x256x256 .f32) (h2 : a2.IsWhole) (a3 : Memref sig .tc .vmem S1x8x256x7 .f32) (h3 : a3.IsWhole)
    (a4 : Memref sig .tc .vmem S1x8x256x256 .f32) (h4 : a4.IsWhole) (a5 : Memref sig .tc .vmem S1x8x256x256 .f32) (h5 : a5.IsWhole)
    (a6 : Memref sig .tc .vmem S1x8x128 .f32) (h6 : a6.IsWhole) (a7 : Memref sig .tc .vmem S1x8x128 .f32) (h7 : a7.IsWhole)
    (x0 : Vec F S1x8x256x256 .f32) (x1 : Vec F S1x1x256x256 .f32) (x2 : Vec F S1x1x256x256 .f32) (x3 : Vec F S1x8x256x7 .f32) (x4 : Vec F S1x8x256x256 .f32)

set_option maxHeartbeats 1600000 in
/-- First row tile: the result block. -/
theorem outFirst_res (hc : isFirst i) :
    (outFirst c i a0 h0 a1 h1 a2 h2 a3 h3 a4 h4 a5 h5 a6 h6 a7 h7 x0 x1 x2 x3 x4 hc).1 = outVec i x0 x1 x2 x3 := by
  unfold outFirst
  dsimp only
  rw [View.read_writes_eq_canon _ _ _ (coverFirst5 c i a0 h0 a1 h1 a2 h2 a3 h3 a4 h4 a5 h5 a6 h6 a7 h7 x0 x1 x2 x3 x4 hc)]
  unfold runFirst
  dsimp only
  sl_unfold_words
  rw [View.canon_unit_zero hz4]
  simp only [View.readAt_eq_ld, h0.read_unread, h1.read_unread, h2.read_unread, h3.read_unread, h4.read_unread, View.ld_unit_zero (S := S1x8x256x256) hz4, View.ld_unit_zero (S := S1x1x256x256) hz4, View.ld_unit_zero (S := S1x8x256x7) hz4]

set_option maxHeartbeats 1600000 in
/-- First row tile: the sum accumulator is the update of the zero block. -/
theorem outFirst_sum (hc : isFirst i) :
    (outFirst c i a0 h0 a1 h1 a2 h2 a3 h3 a4 h4 a5 h5 a6 h6 a7 h7 x0 x1 x2 x3 x4 hc).2.1 = k0_pay1 (errVec i x0 x1 x2 x3 x4) (k0_pay3 (F := F)) := by
  unfold outFirst
  dsimp only
  rw [View.read_writes_eq_canon _ _ _ (coverFirst6 c i a0 h0 a1 h1 a2 h2 a3 h3 a4 h4 a5 h5 a6 h6 a7 h7 x0 x1 x2 x3 x4 hc)]
  unfold runFirst
  dsimp only
  sl_unfold_words
  rw [View.canon_cons_unit_zero (S := S1x8x128) hz3, View.readCov_unit_zero (S := S1x8x128) _ hz3]
  simp only [View.readAt_eq_ld, h0.read_unread, h1.read_unread, h2.read_unread, h3.read_unread, h4.read_unread, View.ld_unit_zero (S := S1x8x256x256) hz4, View.ld_unit_zero (S := S1x1x256x256) hz4, View.ld_unit_zero (S := S1x8x256x7) hz4]

set_option maxHeartbeats 1600000 in
/-- First row tile: the maximum accumulator is the update of the zero block. -/
theorem outFirst_max (hc : isFirst i) :
    (outFirst c i a0 h0 a1 h1 a2 h2 a3 h3 a4 h4 a5 h5 a6 h6 a7 h7 x0 x1 x2 x3 x4 hc).2.2 = k0_pay2 (errVec i x0 x1 x2 x3 x4) (k0_pay4 (F := F)) := by
  unfold outFirst
  dsimp only
  rw [View.read_writes_eq_canon _ _ _ (coverFirst7 c i a0 h0 a1 h1 a2 h2 a3 h3 a4 h4 a5 h5 a6 h6 a7 h7 x0 x1 x2 x3 x4 hc)]
  unfold runFirst
  dsimp only
  sl_unfold_words
  rw [View.canon_cons_unit_zero (S := S1x8x128) hz3, View.readCov_unit_zero (S := S1x8x128) _ hz3]
  simp only [View.readAt_eq_ld, h0.read_unread, h1.read_unread, h2.read_unread, h3.read_unread, h4.read_unread, View.ld_unit_zero (S := S1x8x256x256) hz4, View.ld_unit_zero (S := S1x1x256x256) hz4, View.ld_unit_zero (S := S1x8x256x7) hz4]

variable (s6 : Vec F S1x8x128 .f32) (s7 : Vec F S1x8x128 .f32)

set_option maxHeartbeats 1600000 in
/-- Later row tile: the result block. -/
theorem outLater_res (hc : ¬isFirst i) :
    (outLater c i a0 h0 a1 h1 a2 h2 a3 h3 a4 h4 a5 h5 a6 h6 a7 h7 x0 x1 x2 x3 x4 s6 s7 hc).1 = outVec i x0 x1 x2 x3 := by
  unfold outLater
  dsimp only
  rw [View.read_writes_eq_canon _ _ _ (coverLater5 c i a0 h0 a1 h1 a2 h2 a3 h3 a4 h4 a5 h5 a6 h6 a7 h7 x0 x1 x2 x3 x4 s6 s7 hc)]
  unfold runLater
  dsimp only
  sl_unfold_words
  rw [View.canon_unit_zero hz4]
  simp only [View.readAt_eq_ld, h0.read_unread, h1.read_unread, h2.read_unread, h3.read_unread, h4.read_unread, View.ld_unit_zero (S := S1x8x256x256) hz4, View.ld_unit_zero (S := S1x1x256x256) hz4, View.ld_unit_zero (S := S1x8x256x7) hz4]

set_option maxHeartbeats 1600000 in
/-- Later row tile: the sum accumulator is the update of what it held. -/
theorem outLater_sum (hc : ¬isFirst i) :
    (outLater c i a0 h0 a1 h1 a2 h2 a3 h3 a4 h4 a5 h5 a6 h6 a7 h7 x0 x1 x2 x3 x4 s6 s7 hc).2.1 = k0_pay1 (errVec i x0 x1 x2 x3 x4) s6 := by
  unfold outLater
  dsimp only
  rw [View.read_writes_eq_canon _ _ _ (coverLater6 c i a0 h0 a1 h1 a2 h2 a3 h3 a4 h4 a5 h5 a6 h6 a7 h7 x0 x1 x2 x3 x4 s6 s7 hc)]
  unfold runLater
  dsimp only
  sl_unfold_words
  rw [View.canon_unit_zero hz3]
  simp only [View.readAt_eq_ld, h0.read_unread, h1.read_unread, h2.read_unread, h3.read_unread, h4.read_unread, View.ld_unit_zero (S := S1x8x256x256) hz4, View.ld_unit_zero (S := S1x1x256x256) hz4, View.ld_unit_zero (S := S1x8x256x7) hz4, h6.read_unread, View.ld_unit_zero (S := S1x8x128) hz3]

set_option maxHeartbeats 1600000 in
/-- Later row tile: the maximum accumulator is the update of what it held. -/
theorem outLater_max (hc : ¬isFirst i) :
    (outLater c i a0 h0 a1 h1 a2 h2 a3 h3 a4 h4 a5 h5 a6 h6 a7 h7 x0 x1 x2 x3 x4 s6 s7 hc).2.2 = k0_pay2 (errVec i x0 x1 x2 x3 x4) s7 := by
  unfold outLater
  dsimp only
  rw [View.read_writes_eq_canon _ _ _ (coverLater7 c i a0 h0 a1 h1 a2 h2 a3 h3 a4 h4 a5 h5 a6 h6 a7 h7 x0 x1 x2 x3 x4 s6 s7 hc)]
  unfold runLater
  dsimp only
  sl_unfold_words
  rw [View.canon_unit_zero hz3]
  simp only [View.readAt_eq_ld, h0.read_unread, h1.read_unread, h2.read_unread, h3.read_unread, h4.read_unread, View.ld_unit_zero (S := S1x8x256x256) hz4, View.ld_unit_zero (S := S1x1x256x256) hz4, View.ld_unit_zero (S := S1x8x256x7) hz4, h7.read_unread, View.ld_unit_zero (S := S1x8x128) hz3]

end Runs

/-! ## At a point -/

theorem firstAt_res (c : Dev nD) (t : Fin cfg0.N) (hc : isFirst (grid0.coords t)) :
    (firstAt m c t hc).1 = outVec (grid0.coords t) (iblk m c 0 t) (iblk m c 1 t) (iblk m c 2 t) (iblk m c 3 t) := by
  unfold firstAt; exact outFirst_res ..
theorem firstAt_sum (c : Dev nD) (t : Fin cfg0.N) (hc : isFirst (grid0.coords t)) :
    (firstAt m c t hc).2.1 = k0_pay1 (errVec (grid0.coords t) (iblk m c 0 t) (iblk m c 1 t) (iblk m c 2 t) (iblk m c 3 t) (iblk m c 4 t)) (k0_pay3 (F := F)) := by
  unfold firstAt; exact outFirst_sum ..
theorem firstAt_max (c : Dev nD) (t : Fin cfg0.N) (hc : isFirst (grid0.coords t)) :
    (firstAt m c t hc).2.2 = k0_pay2 (errVec (grid0.coords t) (iblk m c 0 t) (iblk m c 1 t) (iblk m c 2 t) (iblk m c 3 t) (iblk m c 4 t)) (k0_pay4 (F := F)) := by
  unfold firstAt; exact outFirst_max ..
theorem laterAt_res (c : Dev nD) (t : Fin cfg0.N) (hc : ¬isFirst (grid0.coords t)) (s6 s7 : Vec F S1x8x128 .f32) :
    (laterAt m c t hc s6 s7).1 = outVec (grid0.coords t) (iblk m c 0 t) (iblk m c 1 t) (iblk m c 2 t) (iblk m c 3 t) := by
  unfold laterAt; exact outLater_res ..
theorem laterAt_sum (c : Dev nD) (t : Fin cfg0.N) (hc : ¬isFirst (grid0.coords t)) (s6 s7 : Vec F S1x8x128 .f32) :
    (laterAt m c t hc s6 s7).2.1 = k0_pay1 (errVec (grid0.coords t) (iblk m c 0 t) (iblk m c 1 t) (iblk m c 2 t) (iblk m c 3 t) (iblk m c 4 t)) s6 := by
  unfold laterAt; exact outLater_sum ..
theorem laterAt_max (c : Dev nD) (t : Fin cfg0.N) (hc : ¬isFirst (grid0.coords t)) (s6 s7 : Vec F S1x8x128 .f32) :
    (laterAt m c t hc s6 s7).2.2 = k0_pay2 (errVec (grid0.coords t) (iblk m c 0 t) (iblk m c 1 t) (iblk m c 2 t) (iblk m c 3 t) (iblk m c 4 t)) s7 := by
  unfold laterAt; exact outLater_max ..

end Cert.KernelIdeal.St

end
-- ==== Proof.Tiles.lean ====
/-
  The same three quantities as the kernel nests them: a row tile is eight consecutive rows; a tile's sum (maximum)
  runs over its rows, then w, then z; a batch's running sum starts from zero and adds the tiles in order, its
  running maximum starts from zero and takes the tiles' maxima in order; the two batches are combined last.
  Stated for any function of the coordinates, with the two laws that turn the nested forms into one sum and
  one maximum over the whole array.
-/
import proofs.«143429_j3083786518603_1_alg».proof.Proof.Spec
import Mathlib.Data.Finset.Fold
import Mathlib.Algebra.BigOperators.Fin
import Mathlib.Data.EReal.Basic

noncomputable section

open scoped BigOperators

namespace Cert.Spec

open Idealize.ShloMosaic Idealize.ShloMosaic.ValueIdx

variable (f : Fin 2 → Fin 256 → Fin 256 → Fin 256 → EReal)

/-- Row `r` of row tile `i`. -/
def row (i : Fin 32) (r : Fin 8) : Fin 256 := ⟨8 * i.val + r.val, by omega⟩

/-- The f32 word of −∞ as an extended real: where the kernel's and the reference's maxima start. -/
abbrev negInf : EReal := Ideal.ofBits .f32 0xFF800000#32

/-- One tile's sum, as the kernel's three reductions nest it. -/
def tileSum (b : Fin 2) (i : Fin 32) : EReal := ∑ r : Fin 8, ∑ w : Fin 256, ∑ z : Fin 256, f b (row i r) w z

/-- One tile's maximum, as the kernel's three reductions nest it. -/
def tileMax (b : Fin 2) (i : Fin 32) : EReal :=
  Finset.univ.fold max negInf fun r : Fin 8 => Finset.univ.fold max negInf fun w : Fin 256 => Finset.univ.fold max negInf fun z : Fin 256 => f b (row i r) w z

/-- A tile's sum by its number (zero past the last tile). -/
def tileSumN (b : Fin 2) (i : ℕ) : EReal := if h : i < 32 then tileSum f b ⟨i, h⟩ else 0
/-- A tile's maximum by its number (zero past the last tile). -/
def tileMaxN (b : Fin 2) (i : ℕ) : EReal := if h : i < 32 then tileMax f b ⟨i, h⟩ else 0

/-- The running sum of batch `b` after tile `n`: zero, then the tiles added in order. -/
def runSum (b : Fin 2) : ℕ → EReal
  | 0 => 0 + tileSumN f b 0
  | n + 1 => runSum b n + tileSumN f b (n + 1)

/-- The running maximum of batch `b` after tile `n`: zero, then the tiles' maxima taken in order. -/
def runMax (b : Fin 2) : ℕ → EReal
  | 0 => max 0 (tileMaxN f b 0)
  | n + 1 => max (runMax b n) (tileMaxN f b (n + 1))

/-- The kernel's sum over everything: the two batches' final running sums, from zero. -/
def nestedSum : EReal := 0 + ∑ b : Fin 2, runSum f b 31

/-- The kernel's maximum over everything: the two batches' final running maxima, from −∞. -/
def nestedMax : EReal := Finset.univ.fold max negInf fun b : Fin 2 => runMax f b 31

/-! ## Re-indexing: rows as (tile, row in tile), indices as coordinates -/

/-- A row is a tile and a row within the tile: `h = 8·(h / 8) + h % 8`. -/
def rowEquiv : Fin 32 × Fin 8 ≃ Fin 256 where
  toFun p := row p.1 p.2
  invFun h := (⟨h.val / 8, by omega⟩, ⟨h.val % 8, Nat.mod_lt _ (by omega)⟩)
  left_inv p := by
    rcases p with ⟨i, r⟩
    refine Prod.ext (Fin.ext ?_) (Fin.ext ?_)
    · show (8 * i.val + r.val) / 8 = i.val
      omega
    · show (8 * i.val + r.val) % 8 = r.val
      omega
  right_inv h := by
    refine Fin.ext ?_
    show 8 * (h.val / 8) + h.val % 8 = h.val
    omega

/-- Every row is a row of some tile. -/
theorem row_div_mod (h : Fin 256) : row ⟨h.val / 8, by omega⟩ ⟨h.val % 8, Nat.mod_lt _ (by omega)⟩ = h :=
  rowEquiv.right_inv h

/-- A sum over the rows is the sum over the tiles of the sums over each tile's rows. -/
theorem sum_rows {M : Type*} [AddCommMonoid M] (g : Fin 256 → M) :
    ∑ h : Fin 256, g h = ∑ i : Fin 32, ∑ r : Fin 8, g (row i r) := by
  rw [← Equiv.sum_comp rowEquiv g, Fintype.sum_prod_type]
  rfl

/-- An index of the array is its four coordinates. -/
def idxEquiv4 : SX.Idx ≃ Fin 2 × Fin 256 × Fin 256 × Fin 256 where
  toFun i := (i 0, i 1, i 2, i 3)
  invFun p := ix4 p.1 p.2.1 p.2.2.1 p.2.2.2
  left_inv i := (eq_ix4 i).symm
  right_inv _ := rfl

/-- A sum over the array is the fourfold sum over the coordinates. -/
theorem sum_idx4 {M : Type*} [AddCommMonoid M] (g : Fin 2 → Fin 256 → Fin 256 → Fin 256 → M) :
    ∑ i : SX.Idx, g (i 0) (i 1) (i 2) (i 3) = ∑ b : Fin 2, ∑ h : Fin 256, ∑ w : Fin 256, ∑ z : Fin 256, g b h w z := by
  rw [← Equiv.sum_comp idxEquiv4.symm (fun i : SX.Idx => g (i 0) (i 1) (i 2) (i 3)), Fintype.sum_prod_type]
  refine Finset.sum_congr rfl fun b _ => ?_
  rw [Fintype.sum_prod_type]
  refine Finset.sum_congr rfl fun h _ => ?_
  rw [Fintype.sum_prod_type]
  rfl

/-! ## The sum -/

/-- The running sum after tile `n` is the sum of the tiles `0 … n`. -/
theorem runSum_eq (b : Fin 2) (n : ℕ) : runSum f b n = ∑ i ∈ Finset.range (n + 1), tileSumN f b i := by
  induction n with
  | zero => simp [runSum]
  | succ n ih => rw [runSum, ih, Finset.sum_range_succ _ (n + 1)]

/-- A batch's final running sum is the sum of its thirty-two tiles. -/
theorem runSum_last (b : Fin 2) : runSum f b 31 = ∑ i : Fin 32, tileSum f b i := by
  rw [runSum_eq, ← Fin.sum_univ_eq_sum_range (fun i => tileSumN f b i) 32]
  refine Finset.sum_congr rfl fun i _ => ?_
  exact dif_pos i.isLt

/-- Sums regroup: the nested sum is the sum over the whole array. -/
theorem nestedSum_eq : nestedSum f = 0 + ∑ i : SX.Idx, f (i 0) (i 1) (i 2) (i 3) := by
  rw [nestedSum, sum_idx4 f]
  congr 1
  refine Finset.sum_congr rfl fun b _ => ?_
  rw [runSum_last, sum_rows]
  rfl

/-! ## The maximum -/

/-- A running maximum `fold max` is above each of its terms. -/
theorem le_foldMax {ι : Type*} [Fintype ι] (c : EReal) (g : ι → EReal) (x : ι) : g x ≤ Finset.univ.fold max c g :=
  (Finset.le_fold_max _).mpr (Or.inr ⟨x, Finset.mem_univ x, le_rfl⟩)

/-- A running maximum `fold max` is above its start. -/
theorem start_le_foldMax {ι : Type*} [Fintype ι] (c : EReal) (g : ι → EReal) : c ≤ Finset.univ.fold max c g :=
  (Finset.le_fold_max _).mpr (Or.inl le_rfl)

/-- A running maximum `fold max` is below any bound of its start and of its terms. -/
theorem foldMax_le {ι : Type*} [Fintype ι] (c : EReal) (g : ι → EReal) (B : EReal) (hc : c ≤ B) (hg : ∀ x, g x ≤ B) :
    Finset.univ.fold max c g ≤ B :=
  (Finset.fold_max_le _).mpr ⟨hc, fun x _ => hg x⟩

/-- Each element of a tile is below the tile's maximum. -/
theorem le_tileMax (b : Fin 2) (i : Fin 32) (r : Fin 8) (w z : Fin 256) : f b (row i r) w z ≤ tileMax f b i := by
  unfold tileMax
  refine le_trans ?_ (le_foldMax negInf _ r)
  refine le_trans ?_ (le_foldMax negInf _ w)
  exact le_foldMax negInf (fun z : Fin 256 => f b (row i r) w z) z

/-- A tile's maximum is below any bound of −∞ and of the tile's elements. -/
theorem tileMax_le (b : Fin 2) (i : Fin 32) (B : EReal) (h0 : negInf ≤ B) (hB : ∀ r w z, f b (row i r) w z ≤ B) :
    tileMax f b i ≤ B := by
  unfold tileMax
  exact foldMax_le _ _ _ h0 fun r => foldMax_le _ _ _ h0 fun w => foldMax_le _ _ _ h0 fun z => hB r w z

/-- A tile's maximum by its number, for a number below thirty-two. -/
theorem tileMaxN_of_lt (b : Fin 2) (k : ℕ) (h : k < 32) : tileMaxN f b k = tileMax f b ⟨k, h⟩ := dif_pos h

/-- Each tile's maximum is below the running maximum from that tile on. -/
theorem tileMaxN_le_runMax (b : Fin 2) (k n : ℕ) (hk : k ≤ n) : tileMaxN f b k ≤ runMax f b n := by
  induction n with
  | zero =>
    obtain rfl : k = 0 := by omega
    exact le_max_right _ _
  | succ n ih =>
    rcases Nat.lt_or_ge k (n + 1) with h | h
    · exact le_trans (ih (by omega)) (le_max_left _ _)
    · obtain rfl : k = n + 1 := by omega
      exact le_max_right _ _

/-- The running maximum is below any bound of zero and of the tiles' maxima. -/
theorem runMax_le (b : Fin 2) (B : EReal) (h0 : 0 ≤ B) (hB : ∀ k, tileMaxN f b k ≤ B) (n : ℕ) : runMax f b n ≤ B := by
  induction n with
  | zero => exact max_le h0 (hB 0)
  | succ n ih => exact max_le ih (hB (n + 1))

/-- Maxima regroup, the extra zero being harmless under a nonnegative function. -/
theorem nestedMax_eq (hf : ∀ b h w z, 0 ≤ f b h w z) :
    nestedMax f = Finset.univ.fold max negInf fun i : SX.Idx => f (i 0) (i 1) (i 2) (i 3) := by
  refine le_antisymm ?_ ?_
  · -- every quantity the kernel's nesting meets is below the maximum over the whole array
    set R := Finset.univ.fold max negInf fun i : SX.Idx => f (i 0) (i 1) (i 2) (i 3) with hR
    have hel : ∀ b h w z, f b h w z ≤ R := fun b h w z =>
      le_foldMax negInf (fun i : SX.Idx => f (i 0) (i 1) (i 2) (i 3)) (ix4 b h w z)
    have hneg : negInf ≤ R := start_le_foldMax _ _
    have h0 : (0 : EReal) ≤ R := le_trans (hf 0 0 0 0) (hel 0 0 0 0)
    refine foldMax_le _ _ _ hneg fun b => runMax_le f b R h0 (fun k => ?_) 31
    unfold tileMaxN
    split
    · exact tileMax_le f b _ R hneg fun r w z => hel b _ w z
    · exact h0
  · -- every element of the array sits in some tile of some batch
    refine foldMax_le _ _ _ (start_le_foldMax _ _) fun i => ?_
    have hrow := row_div_mod (i 1)
    have hlt : (i 1).val / 8 < 32 := by have := (i 1).isLt; omega
    calc f (i 0) (i 1) (i 2) (i 3)
        = f (i 0) (row ⟨(i 1).val / 8, hlt⟩ ⟨(i 1).val % 8, Nat.mod_lt _ (by omega)⟩) (i 2) (i 3) := by rw [hrow]
      _ ≤ tileMax f (i 0) ⟨(i 1).val / 8, hlt⟩ := le_tileMax f _ _ _ _ _
      _ = tileMaxN f (i 0) ((i 1).val / 8) := (tileMaxN_of_lt f _ _ hlt).symm
      _ ≤ runMax f (i 0) 31 := tileMaxN_le_runMax f _ _ _ (by omega)
      _ ≤ nestedMax f := le_foldMax negInf (fun b : Fin 2 => runMax f b 31) (i 0)

end Cert.Spec

end
-- ==== Proof.KI.Blocks.lean ====
/-
  The input blocks of a point are pieces of the argument arrays: point t = 32·b + i is row tile i of batch b;
  the x, coefficient and target blocks are rows 8i … 8i+7 of batch b, the row above is row 8i−1 and the row
  below row 8i+8 (read from a clamped row when there is none: the body does not use it then).  So the tile's
  stencil over the blocks is the array's stencil at the tile's rows.
-/
import proofs.«143429_j3083786518603_1_alg».proof.Proof.KI.Common
import proofs.«143429_j3083786518603_1_alg».proof.Proof.KI.Payload
import proofs.«143429_j3083786518603_1_alg».proof.Proof.Tiles

noncomputable section

namespace Cert.KernelIdeal.St

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (m : (ℓ : Loc nD τ sig) → Buf (Elt Ideal) ℓ)

/-- The batch of point `t`. -/
def tb (t : Fin cfg0.N) : Fin 2 := ⟨t.val / 32, by have := lt_of_lt_of_eq t.isLt (show cfg0.N = 64 from N_0); omega⟩
/-- The row tile of point `t`. -/
def ti (t : Fin cfg0.N) : Fin 32 := ⟨t.val % 32, Nat.mod_lt _ (by decide)⟩

/-- The grid's coordinates of a point, decided over the sixty-four points. -/
theorem coords_facts : ∀ t : Fin cfg0.N, (grid0.coords t 0).val = t.val / 32 ∧ (grid0.coords t 1).val = t.val % 32 :=
  (by decide +kernel : ∀ t : Fin grid0.N, (grid0.coords t 0).val = t.val / 32 ∧ (grid0.coords t 1).val = t.val % 32)

theorem coords_batch (t : Fin cfg0.N) : (grid0.coords t 0).val = (tb t).val := (coords_facts t).1
theorem coords_tile (t : Fin cfg0.N) : (grid0.coords t 1).val = (ti t).val := (coords_facts t).2

/-- The block indices of the x window, decided over the grid. -/
theorem idx0 : ∀ t : Fin cfg0.N, win0_0.index t (0 : Fin 4) = t.val / 32 ∧ win0_0.index t (1 : Fin 4) = t.val % 32
    ∧ win0_0.index t (2 : Fin 4) = 0 ∧ win0_0.index t (3 : Fin 4) = 0 :=
  (by decide +kernel : ∀ t : Fin grid0.N, win0_0.index t (0 : Fin 4) = t.val / 32 ∧ win0_0.index t (1 : Fin 4) = t.val % 32
    ∧ win0_0.index t (2 : Fin 4) = 0 ∧ win0_0.index t (3 : Fin 4) = 0)

/-- The block indices of the window of the row above: the row is 8i − 1, or row 0 at the first tile. -/
theorem idx1 : ∀ t : Fin cfg0.N, win0_1.index t (0 : Fin 4) = t.val / 32
    ∧ win0_1.index t (1 : Fin 4) = (if t.val % 32 = 0 then 0 else 8 * (t.val % 32) - 1)
    ∧ win0_1.index t (2 : Fin 4) = 0 ∧ win0_1.index t (3 : Fin 4) = 0 :=
  (by decide +kernel : ∀ t : Fin grid0.N, win0_1.index t (0 : Fin 4) = t.val / 32
    ∧ win0_1.index t (1 : Fin 4) = (if t.val % 32 = 0 then 0 else 8 * (t.val % 32) - 1)
    ∧ win0_1.index t (2 : Fin 4) = 0 ∧ win0_1.index t (3 : Fin 4) = 0)

/-- The block indices of the window of the row below: the row is 8i + 8, or row 255 at the last tile. -/
theorem idx2 : ∀ t : Fin cfg0.N, win0_2.index t (0 : Fin 4) = t.val / 32
    ∧ win0_2.index t (1 : Fin 4) = (if t.val % 32 = 31 then 255 else 8 * (t.val % 32) + 8)
    ∧ win0_2.index t (2 : Fin 4) = 0 ∧ win0_2.index t (3 : Fin 4) = 0 :=
  (by decide +kernel : ∀ t : Fin grid0.N, win0_2.index t (0 : Fin 4) = t.val / 32
    ∧ win0_2.index t (1 : Fin 4) = (if t.val % 32 = 31 then 255 else 8 * (t.val % 32) + 8)
    ∧ win0_2.index t (2 : Fin 4) = 0 ∧ win0_2.index t (3 : Fin 4) = 0)

/-- The block indices of the coefficient window. -/
theorem idx3 : ∀ t : Fin cfg0.N, win0_3.index t (0 : Fin 4) = t.val / 32 ∧ win0_3.index t (1 : Fin 4) = t.val % 32
    ∧ win0_3.index t (2 : Fin 4) = 0 ∧ win0_3.index t (3 : Fin 4) = 0 :=
  (by decide +kernel : ∀ t : Fin grid0.N, win0_3.index t (0 : Fin 4) = t.val / 32 ∧ win0_3.index t (1 : Fin 4) = t.val % 32
    ∧ win0_3.index t (2 : Fin 4) = 0 ∧ win0_3.index t (3 : Fin 4) = 0)

/-- The block indices of the target window. -/
theorem idx4 : ∀ t : Fin cfg0.N, win0_4.index t (0 : Fin 4) = t.val / 32 ∧ win0_4.index t (1 : Fin 4) = t.val % 32
    ∧ win0_4.index t (2 : Fin 4) = 0 ∧ win0_4.index t (3 : Fin 4) = 0 :=
  (by decide +kernel : ∀ t : Fin grid0.N, win0_4.index t (0 : Fin 4) = t.val / 32 ∧ win0_4.index t (1 : Fin 4) = t.val % 32
    ∧ win0_4.index t (2 : Fin 4) = 0 ∧ win0_4.index t (3 : Fin 4) = 0)

/-- The three argument arrays of core `c` as the region finds them, as functions on the specification's shapes. -/
abbrev xArr (c : Dev nD) : Cert.Spec.SX.Idx → EReal := V (F := Ideal) m c main_arg0
abbrev cArr (c : Dev nD) : Cert.Spec.SC.Idx → EReal := V (F := Ideal) m c main_arg1
abbrev rArr (c : Dev nD) : Cert.Spec.SX.Idx → EReal := V (F := Ideal) m c main_arg2

/-- The x block is the x array at the tile's rows. -/
theorem blk0_at (c : Dev nD) (t : Fin cfg0.N) (r : Fin 8) (w z : Fin 256) :
    (iblk m c 0 t : Vec Ideal S1x8x256x256 .f32) (ix4 0 r w z) = xArr m c (ix4 (tb t) (Cert.Spec.row (ti t) r) w z) := by
  obtain ⟨e0, e1, e2, e3⟩ := idx0 t
  show V (F := Ideal) m c main_arg0 (((cfg0.win 0).blk t).view.emb (ix4 0 r w z)) = V (F := Ideal) m c main_arg0 (ix4 (tb t) (Cert.Spec.row (ti t) r) w z)
  congr 1
  funext a; apply Fin.ext
  match a with
  | ⟨0, _⟩ => show win0_0.index t (0 : Fin 4) * 1 + 1 * 0 = t.val / 32; omega
  | ⟨1, _⟩ => show win0_0.index t (1 : Fin 4) * 8 + 1 * r.val = 8 * (t.val % 32) + r.val; omega
  | ⟨2, _⟩ => show win0_0.index t (2 : Fin 4) * 256 + 1 * w.val = w.val; omega
  | ⟨3, _⟩ => show win0_0.index t (3 : Fin 4) * 256 + 1 * z.val = z.val; omega

/-- The row above is row 8i − 1 of the x array, when there is one. -/
theorem blk1_at (c : Dev nD) (t : Fin cfg0.N) (ht : (ti t).val ≠ 0) (w z : Fin 256) :
    (iblk m c 1 t : Vec Ideal S1x1x256x256 .f32) (ix4 0 0 w z)
      = xArr m c (ix4 (tb t) ⟨8 * (ti t).val - 1, by have := (ti t).isLt; omega⟩ w z) := by
  obtain ⟨e0, e1, e2, e3⟩ := idx1 t
  have ht' : t.val % 32 ≠ 0 := ht
  rw [if_neg ht'] at e1
  show V (F := Ideal) m c main_arg0 (((cfg0.win 1).blk t).view.emb (ix4 0 0 w z)) = V (F := Ideal) m c main_arg0 (ix4 (tb t) _ w z)
  congr 1
  funext a; apply Fin.ext
  match a with
  | ⟨0, _⟩ => show win0_1.index t (0 : Fin 4) * 1 + 1 * 0 = t.val / 32; omega
  | ⟨1, _⟩ => show win0_1.index t (1 : Fin 4) * 1 + 1 * 0 = 8 * (t.val % 32) - 1; omega
  | ⟨2, _⟩ => show win0_1.index t (2 : Fin 4) * 256 + 1 * w.val = w.val; omega
  | ⟨3, _⟩ => show win0_1.index t (3 : Fin 4) * 256 + 1 * z.val = z.val; omega

/-- The row below is row 8i + 8 of the x array, when there is one. -/
theorem blk2_at (c : Dev nD) (t : Fin cfg0.N) (ht : (ti t).val ≠ 31) (w z : Fin 256) :
    (iblk m c 2 t : Vec Ideal S1x1x256x256 .f32) (ix4 0 0 w z)
      = xArr m c (ix4 (tb t) ⟨8 * (ti t).val + 8, by have := (ti t).isLt; omega⟩ w z) := by
  obtain ⟨e0, e1, e2, e3⟩ := idx2 t
  have ht' : t.val % 32 ≠ 31 := ht
  rw [if_neg ht'] at e1
  show V (F := Ideal) m c main_arg0 (((cfg0.win 2).blk t).view.emb (ix4 0 0 w z)) = V (F := Ideal) m c main_arg0 (ix4 (tb t) _ w z)
  congr 1
  funext a; apply Fin.ext
  match a with
  | ⟨0, _⟩ => show win0_2.index t (0 : Fin 4) * 1 + 1 * 0 = t.val / 32; omega
  | ⟨1, _⟩ => show win0_2.index t (1 : Fin 4) * 1 + 1 * 0 = 8 * (t.val % 32) + 8; omega
  | ⟨2, _⟩ => show win0_2.index t (2 : Fin 4) * 256 + 1 * w.val = w.val; omega
  | ⟨3, _⟩ => show win0_2.index t (3 : Fin 4) * 256 + 1 * z.val = z.val; omega

/-- The coefficient block is the coefficient array at the tile's rows. -/
theorem blk3_at (c : Dev nD) (t : Fin cfg0.N) (r : Fin 8) (w : Fin 256) (k : Fin 7) :
    (iblk m c 3 t : Vec Ideal S1x8x256x7 .f32) (ix4 0 r w k) = cArr m c (ix4 (tb t) (Cert.Spec.row (ti t) r) w k) := by
  obtain ⟨e0, e1, e2, e3⟩ := idx3 t
  show V (F := Ideal) m c main_arg1 (((cfg0.win 3).blk t).view.emb (ix4 0 r w k)) = V (F := Ideal) m c main_arg1 (ix4 (tb t) (Cert.Spec.row (ti t) r) w k)
  congr 1
  funext a; apply Fin.ext
  match a with
  | ⟨0, _⟩ => show win0_3.index t (0 : Fin 4) * 1 + 1 * 0 = t.val / 32; omega
  | ⟨1, _⟩ => show win0_3.index t (1 : Fin 4) * 8 + 1 * r.val = 8 * (t.val % 32) + r.val; omega
  | ⟨2, _⟩ => show win0_3.index t (2 : Fin 4) * 256 + 1 * w.val = w.val; omega
  | ⟨3, _⟩ => show win0_3.index t (3 : Fin 4) * 7 + 1 * k.val = k.val; omega

/-- The target block is the target array at the tile's rows. -/
theorem blk_target (c : Dev nD) (t : Fin cfg0.N) (r : Fin 8) (w z : Fin 256) :
    (iblk m c 4 t : Vec Ideal S1x8x256x256 .f32) (ix4 0 r w z) = rArr m c (ix4 (tb t) (Cert.Spec.row (ti t) r) w z) := by
  obtain ⟨e0, e1, e2, e3⟩ := idx4 t
  show V (F := Ideal) m c main_arg2 (((cfg0.win 4).blk t).view.emb (ix4 0 r w z)) = V (F := Ideal) m c main_arg2 (ix4 (tb t) (Cert.Spec.row (ti t) r) w z)
  congr 1
  funext a; apply Fin.ext
  match a with
  | ⟨0, _⟩ => show win0_4.index t (0 : Fin 4) * 1 + 1 * 0 = t.val / 32; omega
  | ⟨1, _⟩ => show win0_4.index t (1 : Fin 4) * 8 + 1 * r.val = 8 * (t.val % 32) + r.val; omega
  | ⟨2, _⟩ => show win0_4.index t (2 : Fin 4) * 256 + 1 * w.val = w.val; omega
  | ⟨3, _⟩ => show win0_4.index t (3 : Fin 4) * 256 + 1 * z.val = z.val; omega

/-- The stencil on a tile's blocks is the array's stencil at the tile's rows, for any blocks that are the
    array's pieces: the eight rows of the tile, the row before them (when the tile is not the first) and the
    row after them (when it is not the last), and the coefficients' eight rows. -/
theorem blkStencil_eq (x : Cert.Spec.SX.Idx → EReal) (cf : Cert.Spec.SC.Idx → EReal) (b : Fin 2) (i : Fin 32)
    (first last : Prop) [Decidable first] [Decidable last] (hfirst : first ↔ i.val = 0) (hlast : last ↔ i.val = 31)
    (X : Fin 8 → Fin 256 → Fin 256 → EReal) (above below : Fin 256 → Fin 256 → EReal) (C : Fin 8 → Fin 256 → Fin 7 → EReal)
    (hX : ∀ r w z, X r w z = x (ix4 b (Cert.Spec.row i r) w z))
    (habove : ∀ h0 : i.val ≠ 0, ∀ w z, above w z = x (ix4 b ⟨8 * i.val - 1, by have := i.isLt; omega⟩ w z))
    (hbelow : ∀ h31 : i.val ≠ 31, ∀ w z, below w z = x (ix4 b ⟨8 * i.val + 8, by have := i.isLt; omega⟩ w z))
    (hC : ∀ r w k, C r w k = cf (ix4 b (Cert.Spec.row i r) w k)) (r : Fin 8) (w z : Fin 256) :
    Cert.Spec.blkStencil first last X above below C r w z = Cert.Spec.stencilAt x cf b (Cert.Spec.row i r) w z := by
  obtain rfl : X = fun r w z => x (ix4 b (Cert.Spec.row i r) w z) := funext fun r => funext fun w => funext fun z => hX r w z
  obtain rfl : C = fun r w k => cf (ix4 b (Cert.Spec.row i r) w k) := funext fun r => funext fun w => funext fun k => hC r w k
  have hi := i.isLt
  have hr := r.isLt
  -- the neighbour at h − 1: the tile's previous row, or the row above the tile, or nothing
  have hS : Cert.Spec.tileSouth first (fun r w z => x (ix4 b (Cert.Spec.row i r) w z)) above r w z
      = Cert.Spec.prev (fun k => Cert.Spec.xat x b k w z) (Cert.Spec.row i r) := by
    unfold Cert.Spec.tileSouth Cert.Spec.prev
    by_cases hr0 : r.val = 0
    · rw [dif_pos hr0]
      by_cases hi0 : i.val = 0
      · rw [if_pos (hfirst.mpr hi0), dif_pos (show (Cert.Spec.row i r).val = 0 by show 8 * i.val + r.val = 0; omega)]
      · rw [if_neg (fun h => hi0 (hfirst.mp h)), dif_neg (show ¬ (Cert.Spec.row i r).val = 0 by show ¬ 8 * i.val + r.val = 0; omega), habove hi0]
        exact congrArg (fun h : Fin 256 => x (ix4 b h w z)) (Fin.ext (show 8 * i.val - 1 = 8 * i.val + r.val - 1 by omega))
    · rw [dif_neg hr0, dif_neg (show ¬ (Cert.Spec.row i r).val = 0 by show ¬ 8 * i.val + r.val = 0; omega)]
      exact congrArg (fun h : Fin 256 => x (ix4 b h w z)) (Fin.ext (show 8 * i.val + (r.val - 1) = 8 * i.val + r.val - 1 by omega))
  -- the neighbour at h + 1: the tile's next row, or the row below the tile, or nothing
  have hN : Cert.Spec.tileNorth last (fun r w z => x (ix4 b (Cert.Spec.row i r) w z)) below r w z
      = Cert.Spec.next (fun k => Cert.Spec.xat x b k w z) (Cert.Spec.row i r) := by
    unfold Cert.Spec.tileNorth Cert.Spec.next
    by_cases hr7 : r.val = 7
    · rw [dif_pos hr7]
      by_cases hi31 : i.val = 31
      · rw [if_pos (hlast.mpr hi31), dif_pos (show (Cert.Spec.row i r).val = 255 by show 8 * i.val + r.val = 255; omega)]
      · rw [if_neg (fun h => hi31 (hlast.mp h)), dif_neg (show ¬ (Cert.Spec.row i r).val = 255 by show ¬ 8 * i.val + r.val = 255; omega), hbelow hi31]
        exact congrArg (fun h : Fin 256 => x (ix4 b h w z)) (Fin.ext (show 8 * i.val + 8 = 8 * i.val + r.val + 1 by omega))
    · rw [dif_neg hr7, dif_neg (show ¬ (Cert.Spec.row i r).val = 255 by show ¬ 8 * i.val + r.val = 255; omega)]
      exact congrArg (fun h : Fin 256 => x (ix4 b h w z)) (Fin.ext (show 8 * i.val + (r.val + 1) = 8 * i.val + r.val + 1 by omega))
  unfold Cert.Spec.blkStencil Cert.Spec.stencilAt
  rw [hS, hN]

/-- The tile's stencil over the point's blocks is the array's stencil at the tile's rows. -/
theorem blk_stencil (c : Dev nD) (t : Fin cfg0.N) (r : Fin 8) (w z : Fin 256) :
    blkOf (grid0.coords t) (iblk m c 0 t) (iblk m c 1 t) (iblk m c 2 t) (iblk m c 3 t) r w z
      = Cert.Spec.stencilAt (xArr m c) (cArr m c) (tb t) (Cert.Spec.row (ti t) r) w z :=
  blkStencil_eq (xArr m c) (cArr m c) (tb t) (ti t) _ _ (by rw [coords_tile]) (by rw [coords_tile]) _ _ _ _
    (fun r w z => blk0_at m c t r w z) (fun h0 w z => blk1_at m c t h0 w z) (fun h31 w z => blk2_at m c t h31 w z)
    (fun r w k => blk3_at m c t r w k) r w z

end Cert.KernelIdeal.St

end
-- ==== Proof.KI.Final.lean ====
/-
  What the three result arrays hold after the last point.  Every point writes its result block back, and the 64
  blocks tile the result array: it ends as the stencil of the argument arrays.  An accumulator block is written
  back after the last row tile of its batch only, and then holds the batch's running sum (maximum) over all 32
  tiles in every entry.
-/
import proofs.«143429_j3083786518603_1_alg».proof.Proof.KI.Pieces
import proofs.«143429_j3083786518603_1_alg».proof.Proof.KI.Blocks
import proofs.«143429_j3083786518603_1_alg».proof.Proof.Tiles
import Idealize.ShloMosaic.Lib.Pipeline.Value

set_option maxRecDepth 16384

noncomputable section

open scoped BigOperators

namespace Cert.KernelIdeal.St

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (m : (ℓ : Loc nD τ sig) → Buf (Elt Ideal) ℓ)

/-- The squared error at coordinates, of core `c`'s argument arrays. -/
abbrev sqErr (c : Dev nD) (b : Fin 2) (h w z : Fin 256) : EReal :=
  Cert.Spec.errAt (xArr m c) (cArr m c) (rArr m c) b h w z * Cert.Spec.errAt (xArr m c) (cArr m c) (rArr m c) b h w z
/-- The absolute error at coordinates. -/
abbrev absErr (c : Dev nD) (b : Fin 2) (h w z : Fin 256) : EReal :=
  max (Cert.Spec.errAt (xArr m c) (cArr m c) (rArr m c) b h w z) (-(Cert.Spec.errAt (xArr m c) (cArr m c) (rArr m c) b h w z))

/-! ## One point: the result block, the error block, the tile's sum and maximum -/

/-- The result block after point `t` is the stencil at the tile's rows. -/
theorem res_at (c : Dev nD) (t : Fin cfg0.N) (r : Fin 8) (w z : Fin 256) :
    (outsAt (F := Ideal) m c t.val t.isLt).1 (ix4 0 r w z)
      = Cert.Spec.stencilAt (xArr m c) (cArr m c) (tb t) (Cert.Spec.row (ti t) r) w z := by
  by_cases h0 : t.val % 32 = 0
  · rw [outsAt_first m c t h0, firstAt_res, outVec_apply, blk_stencil]
  · rw [outsAt_later m c t h0, laterAt_res, outVec_apply, blk_stencil]

/-- The error block of point `t` is the specification's error at the tile's rows. -/
theorem err_at (c : Dev nD) (t : Fin cfg0.N) (r : Fin 8) (w z : Fin 256) :
    errVec (F := Ideal) (grid0.coords t) (iblk m c 0 t) (iblk m c 1 t) (iblk m c 2 t) (iblk m c 3 t) (iblk m c 4 t) (ix3 r w z)
      = Cert.Spec.errAt (xArr m c) (cArr m c) (rArr m c) (tb t) (Cert.Spec.row (ti t) r) w z := by
  rw [errVec_apply, blk_stencil, blk_target]
  rfl

/-- The sum of the squared entries of point `t`'s error block is the tile's sum. -/
theorem tile_sum (c : Dev nD) (t : Fin cfg0.N) :
    (∑ r : Fin 8, ∑ w : Fin 256, ∑ z : Fin 256,
        errVec (F := Ideal) (grid0.coords t) (iblk m c 0 t) (iblk m c 1 t) (iblk m c 2 t) (iblk m c 3 t) (iblk m c 4 t) (ix3 r w z)
          * errVec (F := Ideal) (grid0.coords t) (iblk m c 0 t) (iblk m c 1 t) (iblk m c 2 t) (iblk m c 3 t) (iblk m c 4 t) (ix3 r w z))
      = Cert.Spec.tileSumN (sqErr m c) (tb t) (t.val % 32) := by
  have hE := err_at m c t
  simp only [hE]
  unfold Cert.Spec.tileSumN
  rw [dif_pos (Nat.mod_lt _ (by decide))]
  rfl

/-- The largest absolute entry of point `t`'s error block is the tile's maximum. -/
theorem tile_max (c : Dev nD) (t : Fin cfg0.N) :
    (Finset.univ.fold max (Ideal.ofBits .f32 0xFF800000#32) fun r : Fin 8 =>
      Finset.univ.fold max (Ideal.ofBits .f32 0xFF800000#32) fun w : Fin 256 =>
        Finset.univ.fold max (Ideal.ofBits .f32 0xFF800000#32) fun z : Fin 256 =>
          max (errVec (F := Ideal) (grid0.coords t) (iblk m c 0 t) (iblk m c 1 t) (iblk m c 2 t) (iblk m c 3 t) (iblk m c 4 t) (ix3 r w z))
            (-(errVec (F := Ideal) (grid0.coords t) (iblk m c 0 t) (iblk m c 1 t) (iblk m c 2 t) (iblk m c 3 t) (iblk m c 4 t) (ix3 r w z))))
      = Cert.Spec.tileMaxN (absErr m c) (tb t) (t.val % 32) := by
  have hE := err_at m c t
  simp only [hE]
  unfold Cert.Spec.tileMaxN
  rw [dif_pos (Nat.mod_lt _ (by decide))]
  rfl

/-! ## Every point, by induction: the accumulators hold the batch's running sum and maximum -/

/-- After point `n` every entry of the sum accumulator is the running sum of the point's batch up to its tile. -/
theorem sum_at (c : Dev nD) : ∀ (n : ℕ) (hn : n < cfg0.N) (j : S1x8x128.Idx),
    (outsAt (F := Ideal) m c n hn).2.1 j = Cert.Spec.runSum (sqErr m c) (tb ⟨n, hn⟩) (n % 32)
  | 0, hn, j => by
    rw [outsAt_first m c ⟨0, hn⟩ (Nat.zero_mod _), firstAt_sum, pay1_apply, pay3_apply, tile_sum]
    rfl
  | n + 1, hn, j => by
    by_cases h0 : (n + 1) % 32 = 0
    · rw [outsAt_first m c ⟨n + 1, hn⟩ h0, firstAt_sum, pay1_apply, pay3_apply, tile_sum]
      show 0 + Cert.Spec.tileSumN (sqErr m c) (tb ⟨n + 1, hn⟩) ((n + 1) % 32)
        = Cert.Spec.runSum (sqErr m c) (tb ⟨n + 1, hn⟩) ((n + 1) % 32)
      rw [h0]
      rfl
    · rw [outsAt_later m c ⟨n + 1, hn⟩ h0, laterAt_sum, pay1_apply, tile_sum]
      show (outsAt (F := Ideal) m c n (Nat.lt_of_succ_lt hn)).2.1 j + Cert.Spec.tileSumN (sqErr m c) (tb ⟨n + 1, hn⟩) ((n + 1) % 32)
        = Cert.Spec.runSum (sqErr m c) (tb ⟨n + 1, hn⟩) ((n + 1) % 32)
      rw [sum_at c n (Nat.lt_of_succ_lt hn) j]
      have hb : tb ⟨n, Nat.lt_of_succ_lt hn⟩ = tb ⟨n + 1, hn⟩ := Fin.ext (by show n / 32 = (n + 1) / 32; omega)
      have hk : (n + 1) % 32 = n % 32 + 1 := by omega
      rw [hb, hk]
      rfl

/-- After point `n` every entry of the maximum accumulator is the running maximum of the point's batch up to its tile. -/
theorem max_at (c : Dev nD) : ∀ (n : ℕ) (hn : n < cfg0.N) (j : S1x8x128.Idx),
    (outsAt (F := Ideal) m c n hn).2.2 j = Cert.Spec.runMax (absErr m c) (tb ⟨n, hn⟩) (n % 32)
  | 0, hn, j => by
    rw [outsAt_first m c ⟨0, hn⟩ (Nat.zero_mod _), firstAt_max, pay2_apply, pay4_apply, tile_max]
    rfl
  | n + 1, hn, j => by
    by_cases h0 : (n + 1) % 32 = 0
    · rw [outsAt_first m c ⟨n + 1, hn⟩ h0, firstAt_max, pay2_apply, pay4_apply, tile_max]
      show max 0 (Cert.Spec.tileMaxN (absErr m c) (tb ⟨n + 1, hn⟩) ((n + 1) % 32))
        = Cert.Spec.runMax (absErr m c) (tb ⟨n + 1, hn⟩) ((n + 1) % 32)
      rw [h0]
      rfl
    · rw [outsAt_later m c ⟨n + 1, hn⟩ h0, laterAt_max, pay2_apply, tile_max]
      show max ((outsAt (F := Ideal) m c n (Nat.lt_of_succ_lt hn)).2.2 j) (Cert.Spec.tileMaxN (absErr m c) (tb ⟨n + 1, hn⟩) ((n + 1) % 32))
        = Cert.Spec.runMax (absErr m c) (tb ⟨n + 1, hn⟩) ((n + 1) % 32)
      rw [max_at c n (Nat.lt_of_succ_lt hn) j]
      have hb : tb ⟨n, Nat.lt_of_succ_lt hn⟩ = tb ⟨n + 1, hn⟩ := Fin.ext (by show n / 32 = (n + 1) / 32; omega)
      have hk : (n + 1) % 32 = n % 32 + 1 := by omega
      rw [hb, hk]
      rfl

/-! ## From blocks to arrays

Point `t`'s result block is batch `t / 32`, rows `8·(t % 32) … + 7` of the result array; an accumulator's block is
entry `t / 32` along the leading axis of its array. -/

/-- The block indices of the result window, point by point. -/
theorem idx_facts5 : ∀ t : Fin cfg0.N, win0_5.index t (0 : Fin 4) = t.val / 32 ∧ win0_5.index t (1 : Fin 4) = t.val % 32
    ∧ win0_5.index t (2 : Fin 4) = 0 ∧ win0_5.index t (3 : Fin 4) = 0 :=
  (by decide +kernel : ∀ t : Fin grid0.N, _)

/-- The block indices of the sum accumulator's window. -/
theorem idx_facts6 : ∀ t : Fin cfg0.N, win0_6.index t (0 : Fin 3) = t.val / 32 ∧ win0_6.index t (1 : Fin 3) = 0
    ∧ win0_6.index t (2 : Fin 3) = 0 :=
  (by decide +kernel : ∀ t : Fin grid0.N, _)

/-- The block indices of the maximum accumulator's window. -/
theorem idx_facts7 : ∀ t : Fin cfg0.N, win0_7.index t (0 : Fin 3) = t.val / 32 ∧ win0_7.index t (1 : Fin 3) = 0
    ∧ win0_7.index t (2 : Fin 3) = 0 :=
  (by decide +kernel : ∀ t : Fin grid0.N, _)

/-- An index of the result array is in point `t`'s block iff each coordinate is in the block's range. -/
theorem mem_blk5 (t : Fin cfg0.N) (i : S2x256x256x256.Idx) :
    i ∈ ((cfg0.win 5).blk t).view.set ↔ ∀ a : Fin 4, win0_5.index t a * S1x8x256x256.size a ≤ (i a).val
      ∧ (i a).val < win0_5.index t a * S1x8x256x256.size a + S1x8x256x256.size a := by
  show i ∈ ((View.whole main_v0_0).slice (win0_5.rect t)).set ↔ _
  rw [View.set_slice_whole, Rect.mem_set_unit]
  exact Iff.rfl

/-- The same for the sum accumulator's array. -/
theorem mem_blk6 (t : Fin cfg0.N) (i : S2x8x128.Idx) :
    i ∈ ((cfg0.win 6).blk t).view.set ↔ ∀ a : Fin 3, win0_6.index t a * S1x8x128.size a ≤ (i a).val
      ∧ (i a).val < win0_6.index t a * S1x8x128.size a + S1x8x128.size a := by
  show i ∈ ((View.whole main_v0_1).slice (win0_6.rect t)).set ↔ _
  rw [View.set_slice_whole, Rect.mem_set_unit]
  exact Iff.rfl

/-- The same for the maximum accumulator's array. -/
theorem mem_blk7 (t : Fin cfg0.N) (i : S2x8x128.Idx) :
    i ∈ ((cfg0.win 7).blk t).view.set ↔ ∀ a : Fin 3, win0_7.index t a * S1x8x128.size a ≤ (i a).val
      ∧ (i a).val < win0_7.index t a * S1x8x128.size a + S1x8x128.size a := by
  show i ∈ ((View.whole main_v0_2).slice (win0_7.rect t)).set ↔ _
  rw [View.set_slice_whole, Rect.mem_set_unit]
  exact Iff.rfl

/-- Every entry (b, h, ·, ·) of the result array is in the block of point 32·b + h / 8. -/
theorem cover5 (i : S2x256x256x256.Idx) :
    ∃ t : Fin cfg0.N, (cfg0.win 5).flush t = true ∧ i ∈ ((cfg0.win 5).blk t).view.set := by
  have h0 : (i 0).val < 2 := (i 0).isLt
  have h1 : (i 1).val < 256 := (i 1).isLt
  have h2 : (i 2).val < 256 := (i 2).isLt
  have h3 : (i 3).val < 256 := (i 3).isLt
  have hN : cfg0.N = 64 := N_0
  let t : Fin cfg0.N := ⟨32 * (i 0).val + (i 1).val / 8, by omega⟩
  have ht : t.val = 32 * (i 0).val + (i 1).val / 8 := rfl
  obtain ⟨e0, e1, e2, e3⟩ := idx_facts5 t
  refine ⟨t, flush0_5 t, ?_⟩
  rw [mem_blk5]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 8 ≤ (i 1).val ∧ (i 1).val < win0_5.index t (1 : Fin 4) * 8 + 8; omega
  | ⟨2, _⟩ => show win0_5.index t (2 : Fin 4) * 256 ≤ (i 2).val ∧ (i 2).val < win0_5.index t (2 : Fin 4) * 256 + 256; omega
  | ⟨3, _⟩ => show win0_5.index t (3 : Fin 4) * 256 ≤ (i 3).val ∧ (i 3).val < win0_5.index t (3 : Fin 4) * 256 + 256; omega

/-- Every entry (b, ·, ·) of the sum accumulator's array is in the block written back at point 32·b + 31. -/
theorem cover6 (i : S2x8x128.Idx) :
    ∃ t : Fin cfg0.N, (cfg0.win 6).flush t = true ∧ i ∈ ((cfg0.win 6).blk t).view.set := by
  have h0 : (i 0).val < 2 := (i 0).isLt
  have h1 : (i 1).val < 8 := (i 1).isLt
  have h2 : (i 2).val < 128 := (i 2).isLt
  have hN : cfg0.N = 64 := N_0
  let t : Fin cfg0.N := ⟨32 * (i 0).val + 31, by omega⟩
  have ht : t.val = 32 * (i 0).val + 31 := rfl
  obtain ⟨e0, e1, e2⟩ := idx_facts6 t
  refine ⟨t, (flush0_6 t).mpr (by omega), ?_⟩
  rw [mem_blk6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 8 ≤ (i 1).val ∧ (i 1).val < win0_6.index t (1 : Fin 3) * 8 + 8; omega
  | ⟨2, _⟩ => show win0_6.index t (2 : Fin 3) * 128 ≤ (i 2).val ∧ (i 2).val < win0_6.index t (2 : Fin 3) * 128 + 128; omega

/-- The same for the maximum accumulator's array. -/
theorem cover7 (i : S2x8x128.Idx) :
    ∃ t : Fin cfg0.N, (cfg0.win 7).flush t = true ∧ i ∈ ((cfg0.win 7).blk t).view.set := by
  have h0 : (i 0).val < 2 := (i 0).isLt
  have h1 : (i 1).val < 8 := (i 1).isLt
  have h2 : (i 2).val < 128 := (i 2).isLt
  have hN : cfg0.N = 64 := N_0
  let t : Fin cfg0.N := ⟨32 * (i 0).val + 31, by omega⟩
  have ht : t.val = 32 * (i 0).val + 31 := rfl
  obtain ⟨e0, e1, e2⟩ := idx_facts7 t
  refine ⟨t, (flush0_7 t).mpr (by omega), ?_⟩
  rw [mem_blk7]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 8 ≤ (i 1).val ∧ (i 1).val < win0_7.index t (1 : Fin 3) * 8 + 8; omega
  | ⟨2, _⟩ => show win0_7.index t (2 : Fin 3) * 128 ≤ (i 2).val ∧ (i 2).val < win0_7.index t (2 : Fin 3) * 128 + 128; omega

/-- What point `t` writes back of the result is its block of the stencil of the argument arrays. -/
theorem flushed5_eq (c : Dev nD) (t : Fin cfg0.N) :
    (dats (F := Ideal) m 0 c).flushed 5 t
      = ((cfg0.win 5).blk t).view.read (Elt Ideal) (Cert.Spec.out (xArr m c) (cArr m c)) := by
  show (cfg0.win 5).cut (grid0.coords t) ((dats (F := Ideal) m 0 c).after 5 t) = _
  rw [after5]
  funext y
  obtain ⟨e0, e1, e2, e3⟩ := idx_facts5 t
  have hy0 : (y 0).val < 1 := (y 0).isLt
  have hy1 : (y 1).val < 8 := (y 1).isLt
  have hy2 : (y 2).val < 256 := (y 2).isLt
  have hy3 : (y 3).val < 256 := (y 3).isLt
  have hL : (cfg0.win 5).xinj (grid0.coords t) y
      = (ix4 (0 : Fin 1) (⟨(y 1).val, hy1⟩ : Fin 8) (⟨(y 2).val, hy2⟩ : Fin 256) (⟨(y 3).val, hy3⟩ : Fin 256) : S1x8x256x256.Idx) := by
    funext a; apply Fin.ext
    match a with
    | ⟨0, _⟩ => show (y 0).val = 0; omega
    | ⟨1, _⟩ => rfl
    | ⟨2, _⟩ => rfl
    | ⟨3, _⟩ => rfl
  have hE : ((cfg0.win 5).blk t).view.emb y
      = (ix4 (tb t) (Cert.Spec.row (ti t) ⟨(y 1).val, hy1⟩) (⟨(y 2).val, hy2⟩ : Fin 256) (⟨(y 3).val, hy3⟩ : Fin 256) : S2x256x256x256.Idx) := by
    funext a; apply Fin.ext
    match a with
    | ⟨0, _⟩ => show win0_5.index t (0 : Fin 4) * 1 + 1 * (y 0).val = t.val / 32; omega
    | ⟨1, _⟩ => show win0_5.index t (1 : Fin 4) * 8 + 1 * (y 1).val = 8 * (t.val % 32) + (y 1).val; omega
    | ⟨2, _⟩ => show win0_5.index t (2 : Fin 4) * 256 + 1 * (y 2).val = (y 2).val; omega
    | ⟨3, _⟩ => show win0_5.index t (3 : Fin 4) * 256 + 1 * (y 3).val = (y 3).val; omega
  show (outsAt (F := Ideal) m c t.val t.isLt).1 ((cfg0.win 5).xinj (grid0.coords t) y)
    = Cert.Spec.out (xArr m c) (cArr m c) (((cfg0.win 5).blk t).view.emb y)
  rw [hL, hE, res_at]
  rfl

/-- What the last tile of a batch writes back of the sum accumulator is the batch's final running sum. -/
theorem flushed6_eq (c : Dev nD) (t : Fin cfg0.N) (hf : (cfg0.win 6).flush t = true) :
    (dats (F := Ideal) m 0 c).flushed 6 t = ((cfg0.win 6).blk t).view.read (Elt Ideal)
      (fun j : S2x8x128.Idx => Cert.Spec.runSum (sqErr m c) (j 0) 31) := by
  have h31 : t.val % 32 = 31 := (flush0_6 t).mp hf
  show (cfg0.win 6).cut (grid0.coords t) ((dats (F := Ideal) m 0 c).after 6 t) = _
  rw [after6]
  funext y
  obtain ⟨e0, e1, e2⟩ := idx_facts6 t
  have hy0 : (y 0).val < 1 := (y 0).isLt
  have hb : tb t = (((cfg0.win 6).blk t).view.emb y) 0 :=
    Fin.ext (by show t.val / 32 = win0_6.index t (0 : Fin 3) * 1 + 1 * (y 0).val; omega)
  show (outsAt (F := Ideal) m c t.val t.isLt).2.1 ((cfg0.win 6).xinj (grid0.coords t) y)
    = Cert.Spec.runSum (sqErr m c) ((((cfg0.win 6).blk t).view.emb y) 0) 31
  rw [sum_at m c t.val t.isLt, h31, ← hb]

/-- What the last tile of a batch writes back of the maximum accumulator is the batch's final running maximum. -/
theorem flushed7_eq (c : Dev nD) (t : Fin cfg0.N) (hf : (cfg0.win 7).flush t = true) :
    (dats (F := Ideal) m 0 c).flushed 7 t = ((cfg0.win 7).blk t).view.read (Elt Ideal)
      (fun j : S2x8x128.Idx => Cert.Spec.runMax (absErr m c) (j 0) 31) := by
  have h31 : t.val % 32 = 31 := (flush0_7 t).mp hf
  show (cfg0.win 7).cut (grid0.coords t) ((dats (F := Ideal) m 0 c).after 7 t) = _
  rw [after7]
  funext y
  obtain ⟨e0, e1, e2⟩ := idx_facts7 t
  have hy0 : (y 0).val < 1 := (y 0).isLt
  have hb : tb t = (((cfg0.win 7).blk t).view.emb y) 0 :=
    Fin.ext (by show t.val / 32 = win0_7.index t (0 : Fin 3) * 1 + 1 * (y 0).val; omega)
  show (outsAt (F := Ideal) m c t.val t.isLt).2.2 ((cfg0.win 7).xinj (grid0.coords t) y)
    = Cert.Spec.runMax (absErr m c) ((((cfg0.win 7).blk t).view.emb y) 0) 31
  rw [max_at m c t.val t.isLt, h31, ← hb]

/-! ## The three arrays after the last point -/

/-- The result array ends as the stencil of the argument arrays. -/
theorem final5 (c : Dev nD) :
    ((dats (F := Ideal) m 0 c).arrAt 5 cfg0.N : Cert.Spec.SX.Idx → EReal) = Cert.Spec.out (xArr m c) (cArr m c) := by
  exact (dats (F := Ideal) m 0 c).arrAt_eq_of_cover 5 (Cert.Spec.out (xArr m c) (cArr m c))
    (fun t _ => flushed5_eq m c t) cover5

/-- The sum accumulator's array ends, in every entry of batch `b`, at the batch's running sum over all tiles. -/
theorem final6 (c : Dev nD) (j : S2x8x128.Idx) :
    ((dats (F := Ideal) m 0 c).arrAt 6 cfg0.N : S2x8x128.Idx → EReal) j = Cert.Spec.runSum (sqErr m c) (j 0) 31 := by
  exact congrFun ((dats (F := Ideal) m 0 c).arrAt_eq_of_cover 6
    (fun j : S2x8x128.Idx => Cert.Spec.runSum (sqErr m c) (j 0) 31) (flushed6_eq m c) cover6) j

/-- The maximum accumulator's array ends, in every entry of batch `b`, at the batch's running maximum over all tiles. -/
theorem final7 (c : Dev nD) (j : S2x8x128.Idx) :
    ((dats (F := Ideal) m 0 c).arrAt 7 cfg0.N : S2x8x128.Idx → EReal) j = Cert.Spec.runMax (absErr m c) (j 0) 31 := by
  exact congrFun ((dats (F := Ideal) m 0 c).arrAt_eq_of_cover 7
    (fun j : S2x8x128.Idx => Cert.Spec.runMax (absErr m c) (j 0) 31) (flushed7_eq m c) cover7) j

end Cert.KernelIdeal.St

end
-- ==== Proof.KI.Tail.lean ====
/-
  The ten host lines after the region: the first entry of each batch's accumulator block is sliced out, the two
  sums are added from zero and divided by the element count, the two maxima are combined from −∞.  Read over
  the exit valuation they give the loss and the largest absolute error of the specification.
-/
import proofs.«143429_j3083786518603_1_alg».proof.Proof.KI.Launch
import proofs.«143429_j3083786518603_1_alg».proof.Proof.KI.Final
import proofs.«143429_j3083786518603_1_alg».proof.Proof.Tiles
import Idealize.ShloMosaic.Lib.StableHlo.Run
import Idealize.ShloMosaic.Lib.ValueIdx
import Idealize.ShloMosaic.Lib.Pipeline.Value
import Idealize.ShloMosaic.PureOps.Ideal.Laws
import Idealize.ShloMosaic.PureOps.Reduce
import Mathlib.Data.EReal.Operations

set_option maxRecDepth 16384

noncomputable section

open scoped BigOperators

namespace Cert.KernelIdeal.St

open Idealize.ShloMosaic Idealize.ShloMosaic.TcCoe Idealize.ShloMosaic.ValueIdx Idealize.SL.Sem Idealize.ShloMosaic.StableHlo
open Idealize.ShloMosaic.Pipeline (Dat Cfg Window)
open Cert.KernelIdeal Cert.KernelIdeal.Gen

variable (m : (ℓ : Loc nD τ sig) → Buf (Elt Ideal) ℓ)

/-- The two scalar results are buffers the region does not touch. -/
theorem loss_mem : main_v4 ∈ Pipeline.restRefs sig spec0 :=
  Pipeline.mem_restRefs_of main_v4 rfl (by decide)
theorem max_mem : main_v7 ∈ Pipeline.restRefs sig spec0 :=
  Pipeline.mem_restRefs_of main_v7 rfl (by decide)

/-! ## The arithmetic, apart from the program -/

/-- The larger of an extended real and its negative is nonnegative. -/
theorem max_neg_nonneg (e : EReal) : 0 ≤ max e (-e) := by
  rcases le_total 0 e with h | h
  · exact le_max_of_le_left h
  · exact le_max_of_le_right (EReal.neg_nonneg.mpr h)

/-- The batches' final running sums of the squared error, added from zero and divided by the element count, are
    the loss: sums regroup. -/
theorem loss_of_runSums (x : Cert.Spec.SX.Idx → EReal) (cf : Cert.Spec.SC.Idx → EReal) (rf : Cert.Spec.SX.Idx → EReal) :
    Ideal.div (0 + ∑ b : Fin 2, Cert.Spec.runSum (fun b h w z => Cert.Spec.errAt x cf rf b h w z * Cert.Spec.errAt x cf rf b h w z) b 31)
        (Ideal.ofBits .f32 0x4C000000#32) = Cert.Spec.loss x cf rf := by
  unfold Cert.Spec.loss
  exact congrArg (fun s => Ideal.div s (Ideal.ofBits .f32 0x4C000000#32))
    (Cert.Spec.nestedSum_eq (fun b h w z => Cert.Spec.errAt x cf rf b h w z * Cert.Spec.errAt x cf rf b h w z))

/-- The batches' final running maxima of the absolute error, combined from −∞, are the largest absolute error:
    maxima regroup, and the zero each running maximum starts from is below every absolute error. -/
theorem max_of_runMaxs (x : Cert.Spec.SX.Idx → EReal) (cf : Cert.Spec.SC.Idx → EReal) (rf : Cert.Spec.SX.Idx → EReal) :
    Finset.univ.fold max (Ideal.ofBits .f32 0xFF800000#32)
        (fun b : Fin 2 => Cert.Spec.runMax (fun b h w z => max (Cert.Spec.errAt x cf rf b h w z) (-(Cert.Spec.errAt x cf rf b h w z))) b 31)
      = Cert.Spec.maxAbs x cf rf :=
  Cert.Spec.nestedMax_eq (fun b h w z => max (Cert.Spec.errAt x cf rf b h w z) (-(Cert.Spec.errAt x cf rf b h w z)))
    (fun b h w z => max_neg_nonneg _)

/-! ## The host lines over any valuation -/

/-- A vector of two entries is indexed by its one coordinate. -/
def idx1Equiv : S2.Idx ≃ Fin 2 where
  toFun i := i 0
  invFun b := ix1 b
  left_inv i := (eq_ix1 i).symm
  right_inv _ := rfl

/-- A sum over a vector of two entries is the sum over its coordinate. -/
theorem sum_S2 (x : S2.Idx → EReal) : ∑ i : S2.Idx, x i = ∑ b : Fin 2, x (ix1 b) :=
  (Equiv.sum_comp idx1Equiv.symm x).symm

/-- A running maximum over a vector of two entries is the one over its coordinate. -/
theorem foldMax_S2 (c : EReal) (x : S2.Idx → EReal) :
    Finset.univ.fold max c x = (Finset.univ : Finset (Fin 2)).fold max c (fun b => x (ix1 b)) := by
  rw [← Finset.map_univ_equiv idx1Equiv.symm, Finset.fold_map]
  rfl

/-- The first entry of each batch's block, laid out as a vector of two entries. -/
theorem firsts_apply (a : S2x8x128.Idx → EReal) (b : Fin 2) :
    shapeCast S2 (extractStridedSlice S2x1x1 ![0, 0, 0] a slices_S2x8x128_S2x1x1_0_0_0) shapeCasts_S2x1x1_S2 (ix1 b) = a (ix3 b 0 0) := by
  have hb := b.isLt
  rw [shapeCast_apply _ shapeCasts_S2x1x1_S2 (ix1 b) (ix3 b 0 0)
    (by rewrite [Shape.rowMajor_val_three, Shape.rowMajor_val_one]; show (b.val * 1 + 0) * 1 + 0 = b.val; omega)]
  exact extractStridedSlice_apply ![0, 0, 0] a slices_S2x8x128_S2x1x1_0_0_0 (ix3 b 0 0) (ix3 b 0 0) (fun c => match c with
    | ⟨0, _⟩ => by show b.val = 0 + b.val; omega
    | ⟨1, _⟩ => by show 0 = 0 + 0; omega
    | ⟨2, _⟩ => by show 0 = 0 + 0; omega)

/-- The first result after the host lines, over any valuation: the first entries of the two batches' blocks of
    the sum accumulator's array, added from zero and divided by the element count. -/
theorem host_loss (Vx : Valuation τ sig (Elt Ideal)) (a6 : S2x8x128.Idx → EReal) (h6 : Vx (Proc.devRef .tc main_v0_1) = a6) (i : S_.Idx) :
    (StableHlo.after (hostOps1 (F := Ideal)) Vx (Proc.devRef .tc main_v4) : S_.Idx → EReal) i
      = Ideal.div (0 + ∑ b : Fin 2, a6 (ix3 b 0 0)) (Ideal.ofBits .f32 0x4C000000#32) := by
  unfold hostOps1
  after_results
  rw [h6]
  simp only [Host.divf, Host.reduceAdd, Ideal.hostDivf_def, Ideal.hostReduceAdd_def]
  rw [Ideal.hostReduceAdd_total reducesTo_S2_S_d0 (fun b => b.elim0), sum_S2]
  refine congrArg₂ Ideal.div (congrArg₂ (· + ·) Ideal.ofBits_zero_f32 (Finset.sum_congr rfl fun b _ => firsts_apply a6 b)) rfl

/-- The third result after the host lines, over any valuation: the first entries of the two batches' blocks of
    the maximum accumulator's array, combined from −∞. -/
theorem host_max (Vx : Valuation τ sig (Elt Ideal)) (a7 : S2x8x128.Idx → EReal) (h7 : Vx (Proc.devRef .tc main_v0_2) = a7) (i : S_.Idx) :
    (StableHlo.after (hostOps1 (F := Ideal)) Vx (Proc.devRef .tc main_v7) : S_.Idx → EReal) i
      = Finset.univ.fold max (Ideal.ofBits .f32 0xFF800000#32) (fun b : Fin 2 => a7 (ix3 b 0 0)) := by
  unfold hostOps1
  after_results
  rw [h7]
  rw [Host.reduce_eq_fold, Finset.filter_true_of_mem fun k _ => (eq_ix0 _).trans (eq_ix0 i).symm]
  refine (foldMax_S2 _ _).trans ?_
  exact congrArg (fun g => Finset.univ.fold max (Ideal.ofBits .f32 0xFF800000#32) g) (funext fun b => firsts_apply a7 b)

/-- The first result is the loss, over any valuation whose sum accumulator's array holds each batch's final
    running sum of the squared error in every entry of the batch. -/
theorem host_loss_spec (Vx : Valuation τ sig (Elt Ideal)) (x : Cert.Spec.SX.Idx → EReal) (cf : Cert.Spec.SC.Idx → EReal) (rf : Cert.Spec.SX.Idx → EReal)
    (a6 : S2x8x128.Idx → EReal) (h6 : Vx (Proc.devRef .tc main_v0_1) = a6)
    (hs : ∀ j : S2x8x128.Idx, a6 j
      = Cert.Spec.runSum (fun b h w z => Cert.Spec.errAt x cf rf b h w z * Cert.Spec.errAt x cf rf b h w z) (j 0) 31) (i : S_.Idx) :
    (StableHlo.after (hostOps1 (F := Ideal)) Vx (Proc.devRef .tc main_v4) : S_.Idx → EReal) i = Cert.Spec.loss x cf rf := by
  rw [host_loss Vx a6 h6 i, Finset.sum_congr rfl fun b _ => hs (ix3 b 0 0)]
  exact loss_of_runSums x cf rf

/-- The third result is the largest absolute error, over any valuation whose maximum accumulator's array holds
    each batch's final running maximum of the absolute error in every entry of the batch. -/
theorem host_max_spec (Vx : Valuation τ sig (Elt Ideal)) (x : Cert.Spec.SX.Idx → EReal) (cf : Cert.Spec.SC.Idx → EReal) (rf : Cert.Spec.SX.Idx → EReal)
    (a7 : S2x8x128.Idx → EReal) (h7 : Vx (Proc.devRef .tc main_v0_2) = a7)
    (hs : ∀ j : S2x8x128.Idx, a7 j
      = Cert.Spec.runMax (fun b h w z => max (Cert.Spec.errAt x cf rf b h w z) (-(Cert.Spec.errAt x cf rf b h w z))) (j 0) 31) (i : S_.Idx) :
    (StableHlo.after (hostOps1 (F := Ideal)) Vx (Proc.devRef .tc main_v7) : S_.Idx → EReal) i = Cert.Spec.maxAbs x cf rf := by
  rw [host_max Vx a7 h7 i, show (fun b : Fin 2 => a7 (ix3 b 0 0))
      = fun b : Fin 2 => Cert.Spec.runMax (fun b h w z => max (Cert.Spec.errAt x cf rf b h w z) (-(Cert.Spec.errAt x cf rf b h w z))) b 31
    from funext fun b => hs (ix3 b 0 0)]
  exact max_of_runMaxs x cf rf

/-! ## The host lines over the exit valuation -/

/-- The absolute error is nonnegative. -/
theorem absErr_nonneg (c : Dev nD) (b : Fin 2) (h w z : Fin 256) : 0 ≤ absErr m c b h w z := max_neg_nonneg _

/-- After the host lines the first result holds the loss. -/
theorem tail_loss (c : Dev nD) (i : S_.Idx) :
    (StableHlo.after ([hostOps1 (F := Ideal)].flatten) (VN (F := Ideal) m c) (Proc.devRef .tc main_v4) : S_.Idx → EReal) i
      = Cert.Spec.loss (xArr m c) (cArr m c) (rArr m c) := by
  simp only [List.flatten_cons, List.flatten_nil, List.append_nil]
  exact host_loss_spec (VN (F := Ideal) m c) (xArr m c) (cArr m c) (rArr m c) _ (VN_sum m c) (fun j => final6 m c j) i

/-- After the host lines the third result holds the largest absolute error. -/
theorem tail_max (c : Dev nD) (i : S_.Idx) :
    (StableHlo.after ([hostOps1 (F := Ideal)].flatten) (VN (F := Ideal) m c) (Proc.devRef .tc main_v7) : S_.Idx → EReal) i
      = Cert.Spec.maxAbs (xArr m c) (cArr m c) (rArr m c) := by
  simp only [List.flatten_cons, List.flatten_nil, List.append_nil]
  exact host_max_spec (VN (F := Ideal) m c) (xArr m c) (cArr m c) (rArr m c) _ (VN_max m c) (fun j => final7 m c j) i

end Cert.KernelIdeal.St

end
-- ==== Proof.Ref.Imports.lean ====
/-
  The reference's run and its read-at-an-index lemmas, gathered for the modules that compare the
  reference's results with the stencil's specification.
-/
import proofs.«143429_j3083786518603_1_alg».proof.Proof.Gen.ReferenceIdeal.Run
import proofs.«143429_j3083786518603_1_alg».proof.Proof.Gen.ReferenceIdeal.Read
-- ==== Proof.Ref.RefSpec.lean ====
/-
  The reference's three results are the specification's: the padded-and-sliced shifts are the zero-edged
  neighbours, its sum of products is the stencil's up to the order of the terms, its mean is the sum of squares
  over the element count, and its maximum of absolute values is the specification's maximum.
-/
import proofs.«143429_j3083786518603_1_alg».proof.Proof.Ref.Imports
import proofs.«143429_j3083786518603_1_alg».proof.Proof.Spec
import Idealize.ShloMosaic.Lib.ValueIdx
import Idealize.ShloMosaic.Lib.KernelVsHost
import Idealize.ShloMosaic.PureOps.Ideal.Laws
import Idealize.ShloMosaic.PureOps.Reduce

noncomputable section

open scoped BigOperators

namespace Cert.ReferenceIdeal.RefSpec

open Idealize.ShloMosaic Idealize.ShloMosaic.ValueIdx Cert.ReferenceIdeal Cert.ReferenceIdeal.Gen Cert.ReferenceIdeal.Read

/-! ## The padding value -/

/-- The integer zero converted to a float is the extended real zero. -/
private theorem sitofp_zero_word : (FloatOps.sitofp (F := Ideal) .f32 (0#32) : Ideal .f32) = 0 := sitofp_zero

/-! ## The six shifted copies

Each copy is a pad by one entry on one side of one axis followed by a slice of the original extent. Read at
(b, h, w, z): where the slice's index lands in the padding the value is the converted zero, elsewhere it is x at
the neighbouring coordinate. -/

/-- The copy shifted up along w (its entry at w is x at w − 1, zero at w = 0). -/
private theorem west_apply (x : (⟨S2x256x256x256, .f32⟩ : BufTy).Contents (Elt Ideal)) (b : Fin 2) (h w z : Fin 256) :
    val_main_v1 (F := Ideal) x (ix4 b h w z) = Cert.Spec.prev (fun k => Cert.Spec.xat x b h k z) w := by
  have hb := b.isLt; have hh := h.isLt; have hw := w.isLt; have hz := z.isLt
  rw [val_main_v1_apply]
  unfold val_main_v0 Cert.Spec.prev
  by_cases h0 : w.val = 0
  · rw [dif_pos h0]
    refine (pad_apply_of_not_inside _ _ _ x _ pads_S2x256x256x256_S2x256x257x256_000_000_100_000 h_S_ _ (2 : Fin 4) ?_).trans sitofp_zero_word
    intro hin
    have e : 1 ≤ w.val := hin.1
    omega
  · rw [dif_neg h0]
    exact pad_apply_of_inside _ _ _ x _ pads_S2x256x256x256_S2x256x257x256_000_000_100_000 h_S_ _
      (ix4 b h (⟨w.val - 1, by omega⟩ : Fin 256) z) (fun a => match a with
        | ⟨0, _⟩ => by show b.val = 0 + b.val * (0 + 1); omega
        | ⟨1, _⟩ => by show h.val = 0 + h.val * (0 + 1); omega
        | ⟨2, _⟩ => by show w.val = 1 + (w.val - 1) * (0 + 1); omega
        | ⟨3, _⟩ => by show z.val = 0 + z.val * (0 + 1); omega)

/-- The copy shifted down along w (its entry at w is x at w + 1, zero at w = 255). -/
private theorem east_apply (x : (⟨S2x256x256x256, .f32⟩ : BufTy).Contents (Elt Ideal)) (b : Fin 2) (h w z : Fin 256) :
    val_main_v3 (F := Ideal) x (ix4 b h w z) = Cert.Spec.next (fun k => Cert.Spec.xat x b h k z) w := by
  have hb := b.isLt; have hh := h.isLt; have hw := w.isLt; have hz := z.isLt
  rw [val_main_v3_apply]
  unfold val_main_v2 Cert.Spec.next
  by_cases h0 : w.val = 255
  · rw [dif_pos h0]
    refine (pad_apply_of_not_inside _ _ _ x _ pads_S2x256x256x256_S2x256x257x256_000_000_010_000 h_S_ _ (2 : Fin 4) ?_).trans sitofp_zero_word
    intro hin
    have e : (1 + w.val - 0) / (0 + 1) < 256 := hin.2.2
    omega
  · rw [dif_neg h0]
    exact pad_apply_of_inside _ _ _ x _ pads_S2x256x256x256_S2x256x257x256_000_000_010_000 h_S_ _
      (ix4 b h (⟨w.val + 1, by omega⟩ : Fin 256) z) (fun a => match a with
        | ⟨0, _⟩ => by show b.val = 0 + b.val * (0 + 1); omega
        | ⟨1, _⟩ => by show h.val = 0 + h.val * (0 + 1); omega
        | ⟨2, _⟩ => by show 1 + w.val = 0 + (w.val + 1) * (0 + 1); omega
        | ⟨3, _⟩ => by show z.val = 0 + z.val * (0 + 1); omega)

/-- The copy shifted up along h. -/
private theorem south_apply (x : (⟨S2x256x256x256, .f32⟩ : BufTy).Contents (Elt Ideal)) (b : Fin 2) (h w z : Fin 256) :
    val_main_v5 (F := Ideal) x (ix4 b h w z) = Cert.Spec.prev (fun k => Cert.Spec.xat x b k w z) h := by
  have hb := b.isLt; have hh := h.isLt; have hw := w.isLt; have hz := z.isLt
  rw [val_main_v5_apply]
  unfold val_main_v4 Cert.Spec.prev
  by_cases h0 : h.val = 0
  · rw [dif_pos h0]
    refine (pad_apply_of_not_inside _ _ _ x _ pads_S2x256x256x256_S2x257x256x256_000_100_000_000 h_S_ _ (1 : Fin 4) ?_).trans sitofp_zero_word
    intro hin
    have e : 1 ≤ h.val := hin.1
    omega
  · rw [dif_neg h0]
    exact pad_apply_of_inside _ _ _ x _ pads_S2x256x256x256_S2x257x256x256_000_100_000_000 h_S_ _
      (ix4 b (⟨h.val - 1, by omega⟩ : Fin 256) w z) (fun a => match a with
        | ⟨0, _⟩ => by show b.val = 0 + b.val * (0 + 1); omega
        | ⟨1, _⟩ => by show h.val = 1 + (h.val - 1) * (0 + 1); omega
        | ⟨2, _⟩ => by show w.val = 0 + w.val * (0 + 1); omega
        | ⟨3, _⟩ => by show z.val = 0 + z.val * (0 + 1); omega)

/-- The copy shifted down along h. -/
private theorem north_apply (x : (⟨S2x256x256x256, .f32⟩ : BufTy).Contents (Elt Ideal)) (b : Fin 2) (h w z : Fin 256) :
    val_main_v7 (F := Ideal) x (ix4 b h w z) = Cert.Spec.next (fun k => Cert.Spec.xat x b k w z) h := by
  have hb := b.isLt; have hh := h.isLt; have hw := w.isLt; have hz := z.isLt
  rw [val_main_v7_apply]
  unfold val_main_v6 Cert.Spec.next
  by_cases h0 : h.val = 255
  · rw [dif_pos h0]
    refine (pad_apply_of_not_inside _ _ _ x _ pads_S2x256x256x256_S2x257x256x256_000_010_000_000 h_S_ _ (1 : Fin 4) ?_).trans sitofp_zero_word
    intro hin
    have e : (1 + h.val - 0) / (0 + 1) < 256 := hin.2.2
    omega
  · rw [dif_neg h0]
    exact pad_apply_of_inside _ _ _ x _ pads_S2x256x256x256_S2x257x256x256_000_010_000_000 h_S_ _
      (ix4 b (⟨h.val + 1, by omega⟩ : Fin 256) w z) (fun a => match a with
        | ⟨0, _⟩ => by show b.val = 0 + b.val * (0 + 1); omega
        | ⟨1, _⟩ => by show 1 + h.val = 0 + (h.val + 1) * (0 + 1); omega
        | ⟨2, _⟩ => by show w.val = 0 + w.val * (0 + 1); omega
        | ⟨3, _⟩ => by show z.val = 0 + z.val * (0 + 1); omega)

/-- The copy shifted up along z. -/
private theorem bottom_apply (x : (⟨S2x256x256x256, .f32⟩ : BufTy).Contents (Elt Ideal)) (b : Fin 2) (h w z : Fin 256) :
    val_main_v9 (F := Ideal) x (ix4 b h w z) = Cert.Spec.prev (fun k => Cert.Spec.xat x b h w k) z := by
  have hb := b.isLt; have hh := h.isLt; have hw := w.isLt; have hz := z.isLt
  rw [val_main_v9_apply]
  unfold val_main_v8 Cert.Spec.prev
  by_cases h0 : z.val = 0
  · rw [dif_pos h0]
    refine (pad_apply_of_not_inside _ _ _ x _ pads_S2x256x256x256_S2x256x256x257_000_000_000_100 h_S_ _ (3 : Fin 4) ?_).trans sitofp_zero_word
    intro hin
    have e : 1 ≤ z.val := hin.1
    omega
  · rw [dif_neg h0]
    exact pad_apply_of_inside _ _ _ x _ pads_S2x256x256x256_S2x256x256x257_000_000_000_100 h_S_ _
      (ix4 b h w (⟨z.val - 1, by omega⟩ : Fin 256)) (fun a => match a with
        | ⟨0, _⟩ => by show b.val = 0 + b.val * (0 + 1); omega
        | ⟨1, _⟩ => by show h.val = 0 + h.val * (0 + 1); omega
        | ⟨2, _⟩ => by show w.val = 0 + w.val * (0 + 1); omega
        | ⟨3, _⟩ => by show z.val = 1 + (z.val - 1) * (0 + 1); omega)

/-- The copy shifted down along z. -/
private theorem top_apply (x : (⟨S2x256x256x256, .f32⟩ : BufTy).Contents (Elt Ideal)) (b : Fin 2) (h w z : Fin 256) :
    val_main_v11 (F := Ideal) x (ix4 b h w z) = Cert.Spec.next (fun k => Cert.Spec.xat x b h w k) z := by
  have hb := b.isLt; have hh := h.isLt; have hw := w.isLt; have hz := z.isLt
  rw [val_main_v11_apply]
  unfold val_main_v10 Cert.Spec.next
  by_cases h0 : z.val = 255
  · rw [dif_pos h0]
    refine (pad_apply_of_not_inside _ _ _ x _ pads_S2x256x256x256_S2x256x256x257_000_000_000_010 h_S_ _ (3 : Fin 4) ?_).trans sitofp_zero_word
    intro hin
    have e : (1 + z.val - 0) / (0 + 1) < 256 := hin.2.2
    omega
  · rw [dif_neg h0]
    exact pad_apply_of_inside _ _ _ x _ pads_S2x256x256x256_S2x256x256x257_000_000_000_010 h_S_ _
      (ix4 b h w (⟨z.val + 1, by omega⟩ : Fin 256)) (fun a => match a with
        | ⟨0, _⟩ => by show b.val = 0 + b.val * (0 + 1); omega
        | ⟨1, _⟩ => by show h.val = 0 + h.val * (0 + 1); omega
        | ⟨2, _⟩ => by show w.val = 0 + w.val * (0 + 1); omega
        | ⟨3, _⟩ => by show 1 + z.val = 0 + (z.val + 1) * (0 + 1); omega)

/-! ## The seven coefficient columns

Column k of the coefficients is cut out of the array with a unit axis inserted, reshaped, and broadcast along z:
read at (b, h, w, z) it is the coefficient k at (b, h, w). The reshape's index arithmetic is a row-major
flattening of (b, h, w, 0) read back as (b, h, w, 0, 0). -/

/-- Column 0, broadcast along z. -/
private theorem coef0_apply (cf : (⟨S2x256x256x7, .f32⟩ : BufTy).Contents (Elt Ideal)) (b : Fin 2) (h w z : Fin 256) :
    val_main_v15 (F := Ideal) cf (ix4 b h w z) = Cert.Spec.cat cf b h w 0 := by
  have hb := b.isLt; have hh := h.isLt; have hw := w.isLt
  rw [val_main_v15_apply, val_main_v14_apply, val_main_v13_apply, val_main_v12_apply]
  refine congrArg cf (funext fun a => ?_)
  match a with
  | ⟨0, _⟩ => exact Fin.ext (by show (((b.val * 256 + h.val) * 256 + w.val) * 1 + 0) / 65536 = b.val; omega)
  | ⟨1, _⟩ => exact Fin.ext (by show (((b.val * 256 + h.val) * 256 + w.val) * 1 + 0) / 256 % 256 = h.val; omega)
  | ⟨2, _⟩ => exact Fin.ext (by show (((b.val * 256 + h.val) * 256 + w.val) * 1 + 0) / 1 % 256 = w.val; omega)
  | ⟨3, _⟩ => exact Fin.ext rfl

/-- Column 1, broadcast along z. -/
private theorem coef1_apply (cf : (⟨S2x256x256x7, .f32⟩ : BufTy).Contents (Elt Ideal)) (b : Fin 2) (h w z : Fin 256) :
    val_main_v19 (F := Ideal) cf (ix4 b h w z) = Cert.Spec.cat cf b h w 1 := by
  have hb := b.isLt; have hh := h.isLt; have hw := w.isLt
  rw [val_main_v19_apply, val_main_v18_apply, val_main_v17_apply, val_main_v12_apply]
  refine congrArg cf (funext fun a => ?_)
  match a with
  | ⟨0, _⟩ => exact Fin.ext (by show (((b.val * 256 + h.val) * 256 + w.val) * 1 + 0) / 65536 = b.val; omega)
  | ⟨1, _⟩ => exact Fin.ext (by show (((b.val * 256 + h.val) * 256 + w.val) * 1 + 0) / 256 % 256 = h.val; omega)
  | ⟨2, _⟩ => exact Fin.ext (by show (((b.val * 256 + h.val) * 256 + w.val) * 1 + 0) / 1 % 256 = w.val; omega)
  | ⟨3, _⟩ => exact Fin.ext rfl

/-- Column 2, broadcast along z. -/
private theorem coef2_apply (cf : (⟨S2x256x256x7, .f32⟩ : BufTy).Contents (Elt Ideal)) (b : Fin 2) (h w z : Fin 256) :
    val_main_v24 (F := Ideal) cf (ix4 b h w z) = Cert.Spec.cat cf b h w 2 := by
  have hb := b.isLt; have hh := h.isLt; have hw := w.isLt
  rw [val_main_v24_apply, val_main_v23_apply, val_main_v22_apply, val_main_v12_apply]
  refine congrArg cf (funext fun a => ?_)
  match a with
  | ⟨0, _⟩ => exact Fin.ext (by show (((b.val * 256 + h.val) * 256 + w.val) * 1 + 0) / 65536 = b.val; omega)
  | ⟨1, _⟩ => exact Fin.ext (by show (((b.val * 256 + h.val) * 256 + w.val) * 1 + 0) / 256 % 256 = h.val; omega)
  | ⟨2, _⟩ => exact Fin.ext (by show (((b.val * 256 + h.val) * 256 + w.val) * 1 + 0) / 1 % 256 = w.val; omega)
  | ⟨3, _⟩ => exact Fin.ext rfl

/-- Column 3, broadcast along z. -/
private theorem coef3_apply (cf : (⟨S2x256x256x7, .f32⟩ : BufTy).Contents (Elt Ideal)) (b : Fin 2) (h w z : Fin 256) :
    val_main_v29 (F := Ideal) cf (ix4 b h w z) = Cert.Spec.cat cf b h w 3 := by
  have hb := b.isLt; have hh := h.isLt; have hw := w.isLt
  rw [val_main_v29_apply, val_main_v28_apply, val_main_v27_apply, val_main_v12_apply]
  refine congrArg cf (funext fun a => ?_)
  match a with
  | ⟨0, _⟩ => exact Fin.ext (by show (((b.val * 256 + h.val) * 256 + w.val) * 1 + 0) / 65536 = b.val; omega)
  | ⟨1, _⟩ => exact Fin.ext (by show (((b.val * 256 + h.val) * 256 + w.val) * 1 + 0) / 256 % 256 = h.val; omega)
  | ⟨2, _⟩ => exact Fin.ext (by show (((b.val * 256 + h.val) * 256 + w.val) * 1 + 0) / 1 % 256 = w.val; omega)
  | ⟨3, _⟩ => exact Fin.ext rfl

/-- Column 4, broadcast along z. -/
private theorem coef4_apply (cf : (⟨S2x256x256x7, .f32⟩ : BufTy).Contents (Elt Ideal)) (b : Fin 2) (h w z : Fin 256) :
    val_main_v34 (F := Ideal) cf (ix4 b h w z) = Cert.Spec.cat cf b h w 4 := by
  have hb := b.isLt; have hh := h.isLt; have hw := w.isLt
  rw [val_main_v34_apply, val_main_v33_apply, val_main_v32_apply, val_main_v12_apply]
  refine congrArg cf (funext fun a => ?_)
  match a with
  | ⟨0, _⟩ => exact Fin.ext (by show (((b.val * 256 + h.val) * 256 + w.val) * 1 + 0) / 65536 = b.val; omega)
  | ⟨1, _⟩ => exact Fin.ext (by show (((b.val * 256 + h.val) * 256 + w.val) * 1 + 0) / 256 % 256 = h.val; omega)
  | ⟨2, _⟩ => exact Fin.ext (by show (((b.val * 256 + h.val) * 256 + w.val) * 1 + 0) / 1 % 256 = w.val; omega)
  | ⟨3, _⟩ => exact Fin.ext rfl

/-- Column 5, broadcast along z. -/
private theorem coef5_apply (cf : (⟨S2x256x256x7, .f32⟩ : BufTy).Contents (Elt Ideal)) (b : Fin 2) (h w z : Fin 256) :
    val_main_v39 (F := Ideal) cf (ix4 b h w z) = Cert.Spec.cat cf b h w 5 := by
  have hb := b.isLt; have hh := h.isLt; have hw := w.isLt
  rw [val_main_v39_apply, val_main_v38_apply, val_main_v37_apply, val_main_v12_apply]
  refine congrArg cf (funext fun a => ?_)
  match a with
  | ⟨0, _⟩ => exact Fin.ext (by show (((b.val * 256 + h.val) * 256 + w.val) * 1 + 0) / 65536 = b.val; omega)
  | ⟨1, _⟩ => exact Fin.ext (by show (((b.val * 256 + h.val) * 256 + w.val) * 1 + 0) / 256 % 256 = h.val; omega)
  | ⟨2, _⟩ => exact Fin.ext (by show (((b.val * 256 + h.val) * 256 + w.val) * 1 + 0) / 1 % 256 = w.val; omega)
  | ⟨3, _⟩ => exact Fin.ext rfl

/-- Column 6, broadcast along z. -/
private theorem coef6_apply (cf : (⟨S2x256x256x7, .f32⟩ : BufTy).Contents (Elt Ideal)) (b : Fin 2) (h w z : Fin 256) :
    val_main_v44 (F := Ideal) cf (ix4 b h w z) = Cert.Spec.cat cf b h w 6 := by
  have hb := b.isLt; have hh := h.isLt; have hw := w.isLt
  rw [val_main_v44_apply, val_main_v43_apply, val_main_v42_apply, val_main_v12_apply]
  refine congrArg cf (funext fun a => ?_)
  match a with
  | ⟨0, _⟩ => exact Fin.ext (by show (((b.val * 256 + h.val) * 256 + w.val) * 1 + 0) / 65536 = b.val; omega)
  | ⟨1, _⟩ => exact Fin.ext (by show (((b.val * 256 + h.val) * 256 + w.val) * 1 + 0) / 256 % 256 = h.val; omega)
  | ⟨2, _⟩ => exact Fin.ext (by show (((b.val * 256 + h.val) * 256 + w.val) * 1 + 0) / 1 % 256 = w.val; omega)
  | ⟨3, _⟩ => exact Fin.ext rfl

/-! ## The three results -/

/-- The reference's sum of products at coordinates is the stencil's: the same seven products, each with its two
    factors exchanged, added in another order. -/
private theorem out_at (x : (⟨S2x256x256x256, .f32⟩ : BufTy).Contents (Elt Ideal)) (cf : (⟨S2x256x256x7, .f32⟩ : BufTy).Contents (Elt Ideal))
    (b : Fin 2) (h w z : Fin 256) :
    val_main_v46 (F := Ideal) x cf (ix4 b h w z) = Cert.Spec.stencilAt x cf b h w z := by
  rw [val_main_v46_apply, val_main_v41_apply, val_main_v36_apply, val_main_v31_apply, val_main_v26_apply,
    val_main_v21_apply, val_main_v16_apply, val_main_v20_apply, val_main_v25_apply, val_main_v30_apply,
    val_main_v35_apply, val_main_v40_apply, val_main_v45_apply,
    coef0_apply, coef1_apply, coef2_apply, coef3_apply, coef4_apply, coef5_apply, coef6_apply,
    west_apply, east_apply, south_apply, north_apply, bottom_apply, top_apply]
  unfold Cert.Spec.stencilAt
  show Cert.Spec.cat cf b h w 0 * Cert.Spec.prev (fun k => Cert.Spec.xat x b h k z) w
      + Cert.Spec.cat cf b h w 1 * Cert.Spec.next (fun k => Cert.Spec.xat x b h k z) w
      + Cert.Spec.cat cf b h w 2 * Cert.Spec.prev (fun k => Cert.Spec.xat x b k w z) h
      + Cert.Spec.cat cf b h w 3 * Cert.Spec.next (fun k => Cert.Spec.xat x b k w z) h
      + Cert.Spec.cat cf b h w 4 * Cert.Spec.prev (fun k => Cert.Spec.xat x b h w k) z
      + Cert.Spec.cat cf b h w 5 * Cert.Spec.next (fun k => Cert.Spec.xat x b h w k) z
      + Cert.Spec.cat cf b h w 6 * Cert.Spec.xat x b h w z = _
  ac_rfl

/-- The reference's second result is the stencil's result array. -/
theorem out_eq (x : (⟨S2x256x256x256, .f32⟩ : BufTy).Contents (Elt Ideal)) (cf : (⟨S2x256x256x7, .f32⟩ : BufTy).Contents (Elt Ideal)) :
    val_main_v46 (F := Ideal) x cf = Cert.Spec.out x cf := by
  funext i
  obtain ⟨b, h, w, z, rfl⟩ : ∃ (b : Fin 2) (h w z : Fin 256), i = ix4 b h w z := ⟨i 0, i 1, i 2, i 3, eq_ix4 i⟩
  exact out_at x cf b h w z

/-- The reference's difference from the target is the specification's error. -/
private theorem err_apply (x : (⟨S2x256x256x256, .f32⟩ : BufTy).Contents (Elt Ideal)) (cf : (⟨S2x256x256x7, .f32⟩ : BufTy).Contents (Elt Ideal))
    (rf : (⟨S2x256x256x256, .f32⟩ : BufTy).Contents (Elt Ideal)) (j : S2x256x256x256.Idx) :
    val_main_v47 (F := Ideal) x cf rf j = Cert.Spec.err x cf rf j := by
  obtain ⟨b, h, w, z, rfl⟩ : ∃ (b : Fin 2) (h w z : Fin 256), j = ix4 b h w z := ⟨j 0, j 1, j 2, j 3, eq_ix4 j⟩
  rw [val_main_v47_apply, out_at]
  rfl

/-- The reference's first result is the loss. -/
theorem loss_eq (x : (⟨S2x256x256x256, .f32⟩ : BufTy).Contents (Elt Ideal)) (cf : (⟨S2x256x256x7, .f32⟩ : BufTy).Contents (Elt Ideal))
    (rf : (⟨S2x256x256x256, .f32⟩ : BufTy).Contents (Elt Ideal)) (i : S_.Idx) :
    val_main_v50 (F := Ideal) x cf rf i = Cert.Spec.loss x cf rf := by
  rw [val_main_v50_apply, val_main_v49_apply, val_main_cst_apply, val_main_cst_5_apply]
  have hs : ∀ j : S2x256x256x256.Idx,
      val_main_v48 (F := Ideal) x cf rf j = Cert.Spec.err x cf rf j * Cert.Spec.err x cf rf j := fun j => by
    rw [val_main_v48_apply, err_apply]; rfl
  rw [Finset.sum_congr rfl fun j _ => hs j]
  unfold Cert.Spec.loss Cert.Spec.sumSq
  show Ideal.div (Ideal.ofBits .f32 0x00000000#32 + _) _ = _
  rw [Ideal.ofBits_zero_f32]
  rfl

/-- The reference's third result is the largest absolute error. -/
theorem max_eq (x : (⟨S2x256x256x256, .f32⟩ : BufTy).Contents (Elt Ideal)) (cf : (⟨S2x256x256x7, .f32⟩ : BufTy).Contents (Elt Ideal))
    (rf : (⟨S2x256x256x256, .f32⟩ : BufTy).Contents (Elt Ideal)) (i : S_.Idx) :
    val_main_v52 (F := Ideal) x cf rf i = Cert.Spec.maxAbs x cf rf := by
  have h51 : val_main_v51 (F := Ideal) x cf rf
      = fun j => max (Cert.Spec.err x cf rf j) (-(Cert.Spec.err x cf rf j)) := by
    funext j
    rw [val_main_v51_apply, err_apply]
    rfl
  unfold val_main_v52
  rw [h51, Host.reduce_eq_fold,
    Finset.filter_true_of_mem fun k _ => (eq_ix0 _).trans (eq_ix0 i).symm]
  rfl

end Cert.ReferenceIdeal.RefSpec

end
-- ==== Proof.lean ====
/-
  A seven-point stencil over x[2,256,256,256] with per-site coefficients, its squared error against a target
  summed and its largest absolute error, computed by one pipelined kernel on a (batch, row tile) grid and two
  small host reductions, against the plain array program.

  The kernel reads x through three windows (eight rows, the row above, the row below), so its frame is run with
  the buffer of x shared among them.  Over the extended reals both programs compute, index by index, the same
  sum of seven products; the kernel adds the squared errors tile by tile and batch by batch where the reference
  adds them all at once, and takes the maximum the same way, starting each batch from zero: sums regroup, and the
  extra zero does not change a maximum of absolute values.  The kernel's idealization rewrote nothing.
-/
import proofs.«143429_j3083786518603_1_alg».proof.Defs
import proofs.«143429_j3083786518603_1_alg».proof.Proof.Gen.Kernel
import proofs.«143429_j3083786518603_1_alg».proof.Proof.Gen.KernelIdeal
import proofs.«143429_j3083786518603_1_alg».proof.Proof.Gen.ReferenceIdeal
import proofs.«143429_j3083786518603_1_alg».proof.Proof.Gen.Pre_finite_inputs
import proofs.«143429_j3083786518603_1_alg».proof.Proof.K.Launch
import proofs.«143429_j3083786518603_1_alg».proof.Proof.KI.Launch
import proofs.«143429_j3083786518603_1_alg».proof.Proof.KI.Tail
import proofs.«143429_j3083786518603_1_alg».proof.Proof.Ref.RefSpec
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.St.frame m ρ

/-- So does its idealization. -/
theorem frame_ki : Cert.frame_KernelIdeal := fun m ρ _ => Cert.KernelIdeal.St.frame m ρ

/-- The reference is straight-line host code: its run, the results dropped. -/
theorem frame_ri : Cert.frame_ReferenceIdeal := fun m ρ _ =>
  (θ_run Cert.ReferenceIdeal.defs _ _).mono (fun _ h c => ⟨(h c).2.2.2.1, (h c).2.2.2.2.1, (h c).2.2.2.2.2⟩)
    (Cert.ReferenceIdeal.Value.run (F := Ideal) m ρ)

/-- Both programs end with the specification's loss, stencil array and largest absolute error of the arguments. -/
theorem algebraic : Cert.algebraic_KernelIdeal_ReferenceIdeal := by
  intro m ρ m' ρ' _ hagree
  refine ⟨fun c _ => Cert.Spec.loss (Cert.KernelIdeal.St.xArr m c) (Cert.KernelIdeal.St.cArr m c) (Cert.KernelIdeal.St.rArr m c),
    fun c => Cert.Spec.out (Cert.KernelIdeal.St.xArr m c) (Cert.KernelIdeal.St.cArr m c),
    fun c _ => Cert.Spec.maxAbs (Cert.KernelIdeal.St.xArr m c) (Cert.KernelIdeal.St.cArr m c) (Cert.KernelIdeal.St.rArr m c), ?_, ?_⟩
  · refine (θ_run Cert.KernelIdeal.defs _ _).mono (fun r h c => ?_) (Cert.KernelIdeal.St.run_main (F := Ideal) m ρ)
    obtain ⟨hw, hrest⟩ := h c
    refine ⟨?_, ?_, ?_, ?_, ?_, ?_⟩
    · exact (hrest _ Cert.KernelIdeal.St.loss_mem).trans (funext fun i => Cert.KernelIdeal.St.tail_loss m c i)
    · exact (hw 5).trans (Cert.KernelIdeal.St.final5 m c)
    · exact (hrest _ Cert.KernelIdeal.St.max_mem).trans (funext fun i => Cert.KernelIdeal.St.tail_max m c i)
    · exact (hw 0).trans ((Cert.KernelIdeal.St.dats m 0 c).arrAt_in 0 rfl _)
    · exact (hw 3).trans ((Cert.KernelIdeal.St.dats m 0 c).arrAt_in 3 rfl _)
    · exact (hw 4).trans ((Cert.KernelIdeal.St.dats m 0 c).arrAt_in 4 rfl _)
  · refine (θ_run Cert.ReferenceIdeal.defs _ _).mono (fun r h c => ?_) (Cert.ReferenceIdeal.Value.run (F := Ideal) m' ρ')
    obtain ⟨h50, h46, h52, ha0, ha1, ha2⟩ := h c
    refine ⟨?_, ?_, ?_, ha0, ha1, ha2⟩
    · rw [h50, Cert.ReferenceIdeal.Read.val_main_v50_eq, (hagree c).1, (hagree c).2.1, (hagree c).2.2]
      exact funext fun i => Cert.ReferenceIdeal.RefSpec.loss_eq _ _ _ i
    · rw [h46, Cert.ReferenceIdeal.Read.val_main_v46_eq, (hagree c).1, (hagree c).2.1]
      exact Cert.ReferenceIdeal.RefSpec.out_eq _ _
    · rw [h52, Cert.ReferenceIdeal.Read.val_main_v52_eq, (hagree c).1, (hagree c).2.1, (hagree c).2.2]
      exact funext fun i => Cert.ReferenceIdeal.RefSpec.max_eq _ _ _ i

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
